-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S3 : Shape := ⟨1, ![3]⟩
abbrev S64x2048x64 : Shape := ⟨3, ![64, 2048, 64]⟩
abbrev S64x64x2048 : Shape := ⟨3, ![64, 64, 2048]⟩
abbrev S1x1024x64 : Shape := ⟨3, ![1, 1024, 64]⟩
abbrev S1 : Shape := ⟨1, ![1]⟩
abbrev S1x64x1024 : Shape := ⟨3, ![1, 64, 1024]⟩
abbrev S1x1024x1 : Shape := ⟨3, ![1, 1024, 1]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 9
  | .vmem => 11
  | .smem => 2
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x64x2048, .f32⟩
  | .hbm, ⟨7, _⟩ => ⟨S64x2048x64, .f32⟩
  | .hbm, ⟨8, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x64, .f32⟩
  | .local _ .smem, ⟨0, _⟩ => ⟨S3, .i32⟩
  | .local _ .smem, ⟨1, _⟩ => ⟨S3, .i32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) (v3 : BitVec 32) : BitVec 1 :=
  let v16 : BitVec 1 := Scalar.cmpi .eq v3 v1
  let v17 : BitVec 32 := Scalar.extui v16
  let c0_i32_7 : BitVec 32 := 0#32
  let v18 : BitVec 1 := Scalar.cmpi .ne v17 c0_i32_7
  v18

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, c0_i32.toNat, v1.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  transposes_S64x2048x64_S64x64x2048_0_2_1 : S64x2048x64.Transposes [0, 2, 1] S64x64x2048
  numel1_S1 : S1.numel = 1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S1x64x1024 : S1x64x1024.ShapeCasts S1x64x1024
  iota_S1x1024x1_d1_w32 : S1x1024x1.Iotas .tc 32 [1]
  iota_S1x1x1024_d2_w32 : S1x1x1024.Iotas .tc 32 [2]
  broadcasts_S1x1024x1_S1x1024x1024 : S1x1024x1.Broadcasts S1x1024x1024
  broadcasts_S1x1x1024_S1x1024x1024 : S1x1x1024.Broadcasts S1x1024x1024
  reduces_S1x1024x1024_S1x1024 : S1x1024x1024.Reduces [2] S1x1024
  shapeCasts_S1x1024_S1x1024x1 : S1x1024.ShapeCasts S1x1024x1
  broadcasts_S1x1024x1_S1x1024x64 : S1x1024x1.Broadcasts S1x1024x64
  shapeCasts_S64x2048x64_S4x16x2048x64 : S64x2048x64.ShapeCasts S4x16x2048x64
  dot_S1x1024x64_S1x64x1024_S1x1024x1024_2_1_1_2_0_0_wf : DotDims.WF S1x1024x64 S1x64x1024 S1x1024x1024 [2] [1] [1] [2] [0] [0]
  dot_S1x1024x1024_S1x1024x64_S1x1024x64_2_1_1_2_0_0_wf : DotDims.WF S1x1024x1024 S1x1024x64 S1x1024x64 [2] [1] [1] [2] [0] [0]
  hrank0 : 0 < grid0.rank
  k0_off1_inb : ∀ i : grid0.Coords, ∀ a, (k0_off1 i) a + S1.size a ≤ S3.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S1x1024x64_S1x64x1024_S1x1024x1024_2_1_1_2_0_0 : DotDims S1x1024x64 S1x64x1024 S1x1024x1024 where
  lhsContracting := [2]
  rhsContracting := [1]
  lhsNonContracting := [1]
  rhsNonContracting := [2]
  lhsBatch := [0]
  rhsBatch := [0]
  wf := dot_S1x1024x64_S1x64x1024_S1x1024x1024_2_1_1_2_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev spec0_0 : Pipeline.WinSpec sig grid0.rank :=
  Pipeline.WinSpec.ofSpec (Memref.whole main_v0) S1x1024x64.size reads0_0 false false 2 stage0_0 sem0_0 nbuf0_0 hstage0_0

abbrev spec0_1 : Pipeline.WinSpec sig grid0.rank :=
  Pipeline.WinSpec.ofSpec (Memref.whole main_v3) S1x64x1024.size reads0_1 false false 2 stage0_1 sem0_1 nbuf0_1 hstage0_1

abbrev spec0_2 : Pipeline.WinSpec sig grid0.rank :=
  Pipeline.WinSpec.ofSpec (Memref.whole main_v2) S1x1024x64.size reads0_2 false false 2 stage0_2 sem0_2 nbuf0_2 hstage0_2

abbrev spec0_3 : Pipeline.WinSpec sig grid0.rank :=
  Pipeline.WinSpec.ofSpec (Memref.whole main_v4) S1x1024x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x64.size a ≤ S64x2048x64.size a), EltTy.bits .f32 = 32 ∨ (Rect.block (s := S64x2048x64) S1x1024x64.size (cc0_transform_0 k0_off1_inb numel1_S1 pf i) h).WholeWords (EltTy.packing .f32)) ∧
  (∀ i : grid0.Coords, ∃ h : (∀ a, (cc0_transform_1 k0_off1_inb numel1_S1 pf i a + 1) * S1x64x1024.size a ≤ S64x64x2048.size a), EltTy.bits .f32 = 32 ∨ (Rect.block (s := S64x64x2048) S1x64x1024.size (cc0_transform_1 k0_off1_inb numel1_S1 pf i) h).WholeWords (EltTy.packing .f32)) ∧
  (∀ i : grid0.Coords, ∃ h : (∀ a, (cc0_transform_2 k0_off1_inb numel1_S1 pf i a + 1) * S1x1024x64.size a ≤ S64x2048x64.size a), EltTy.bits .f32 = 32 ∨ (Rect.block (s := S64x2048x64) S1x1024x64.size (cc0_transform_2 k0_off1_inb numel1_S1 pf i) h).WholeWords (EltTy.packing .f32)) ∧
  (∀ i : grid0.Coords, ∃ h : (∀ a, (cc0_transform_3 k0_off1_inb numel1_S1 pf i a + 1) * S1x1024x64.size a ≤ S64x2048x64.size a), EltTy.bits .f32 = 32 ∨ (Rect.block (s := S64x2048x64) S1x1024x64.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond2 (pf.atD 0 (k0_off1 i)) (pf.atD 1 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .i1⟩
  | .hbm, ⟨8, _⟩ => ⟨S2048x2048, .i1⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .i1⟩
  | .hbm, ⟨16, _⟩ => ⟨S2048x2048, .i1⟩
  | .hbm, ⟨17, _⟩ => ⟨S2048x2048, .i1⟩
  | .hbm, ⟨18, _⟩ => ⟨S1x1x2048x2048, .i1⟩
  | .hbm, ⟨19, _⟩ => ⟨S_, .f32⟩
  | .hbm, ⟨20, _⟩ => ⟨S_, .f32⟩
  | .hbm, ⟨21, _⟩ => ⟨S4x16x2048x2048, .i1⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Bits.Kit.lean ====
/-
  Causal attention over two square tiles per head, computed tile by tile: what every later module about the
  tiled kernel shares.

  The launch enumerates, per head, the three tile pairs (query tile, key tile) = (0,0), (1,0), (1,1) by two
  constant tables of three words each; point `t` of the grid is head `t / 3`, pair `t % 3`. Here: the buffer
  contents when the launch is entered (the arguments re-laid as [64, 2048, 64], the keys also transposed, and
  the two tables), the pipeline at those tables, the block each window holds at a point, which of the three
  pairs a point is, and where the result window is written back.
-/
import Idealize.ShloMosaic.PureOps.BitExact
import proofs.«401446_j86672440033785_3_alg».proof.Proof.Gen.Kernel.Launch
import proofs.«401446_j86672440033785_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)

/-! ## The buffers when the launch is entered -/

/-- A core's buffers after the six operations before the launch: the two tables written, the three arguments
    re-laid head-major, the keys transposed. -/
abbrev V0 (c : Dev nD) : Valuation τ sig (Elt Bits) := StableHlo.after (List.flatten [hostOps0]) (fun b => m (c, b))
/-- The same read at a reference. -/
abbrev V (c : Dev nD) (b : Ref sig .tc) : Buf (Elt Bits) ((c : Thread nD τ).loc b) := V0 m c (Proc.devRef .tc b)

theorem hostOps0_fresh : (hostOps0 : List (HloOp τ sig (Elt Bits))).Forall fun op => op.fresh = ∅ := by
  simp only [List.Forall]; repeat' constructor
theorem hostOps1_fresh : (hostOps1 : List (HloOp τ sig (Elt Bits))).Forall fun op => op.fresh = ∅ := by
  simp only [List.Forall]; repeat' constructor

/-- The program is: the six operations, the launch, the closing re-lay of the result. -/
theorem hmain (𝒱₀ : Variants) : Pipeline.HMainPK (Ix := Unit) (Name := ℕ) (U := UR sig nD τ) (Lvl := ℕ) pcfgs 0 defs₀ 𝒱₀ m (main (F := Bits)) (V m)
      (fun _ => Pipeline.chain [StableHlo.seq hostOps1]) :=
  Pipeline.hmainP_around pcfgs 0 defs₀ 𝒱₀ m main [hostOps0] [hostOps1] hostOps0_sub hostOps0_fresh
    fun c => (main_chain c).trans rfl

/-- The closing re-lay reads the launch's result array and writes the program's result: no table, no array written. -/
theorem sfx_sub : ∀ ops ∈ ([hostOps1] : List (List (HloOp τ sig (Elt Bits)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro k
  fin_cases k <;> (rw [StableHlo.reshape_bufs]; simp only [Finset.mem_insert, Finset.mem_singleton, not_or]; exact ⟨StableHlo.devRef_ne_of_ne (by decide), StableHlo.devRef_ne_of_ne (by decide)⟩)
theorem sfx_fresh : ∀ ops ∈ ([hostOps1] : List (List (HloOp τ sig (Elt Bits)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt Bits)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## The two tables and the pipeline at them -/

/-- The tables: the query tile of each of the three pairs (0, 1, 1) and its key tile (0, 0, 1). -/
def tbl : pre0.Contents (Elt Bits) := fun
  | 0 => fun i => lit0 (S3.rowMajor i)
  | 1 => fun i => lit1 (S3.rowMajor i)
  | ⟨_ + 2, h⟩ => absurd h (Nat.not_lt.2 (Nat.le_add_left _ _))

/-- The tables hold exactly that when the launch is entered. -/
theorem V_pre (c : Dev nD) (j : Fin 2) : V m c (pre0.ref j) = tbl j := by
  fin_cases j
  · dsimp only [V, V0]
    simp only [hostOps0, List.flatten_cons, List.flatten_nil, List.append_nil, List.cons_append, List.nil_append]
    after_results; rfl
  · dsimp only [V, V0]
    simp only [hostOps0, List.flatten_cons, List.flatten_nil, List.append_nil, List.cons_append, List.nil_append]
    after_results; rfl

/-- Every tile the tables name lies inside its array: tile indices are 0 or 1, the arrays hold two tiles. -/
theorem ok_tbl : ok0 (F := Bits) tbl := by decide +kernel

/-- The tables as admissible contents, and the pipeline at them. -/
abbrev adm : (pcfg0 (F := Bits)).Adm := ⟨tbl, ok_tbl⟩
abbrev cfgL : Pipeline.Cfg sig Λ₀ := cfg0 adm

theorem N_L : cfgL.N = 192 := N_0

/-! ## What the body is called with -/

/-- The two tables as the body is handed them. -/
abbrev tbM0 : Memref sig .tc .smem S3 .i32 := Memref.whole main_c
abbrev htbM0 : tbM0.IsWhole := Memref.isWhole_whole _
abbrev tbM1 : Memref sig .tc .smem S3 .i32 := Memref.whole main_c_0
abbrev htbM1 : tbM1.IsWhole := Memref.isWhole_whole _

/-- A table's buffer on a core, and that buffer held (for reading only) at contents `f`. -/
abbrev TbBuf (c : Dev nD) {S : Shape} {e : EltTy} (M : Memref sig .tc .smem S e) : Type := Buf (Elt Bits) (M.view.loc (c : Thread nD τ))
abbrev tbPt (c : Dev nD) {S : Shape} {e : EltTy} (M : Memref sig .tc .smem S e) (f : TbBuf c M) : sProp 𝕄 :=
  M.view.loc (c : Thread nD τ) ↦{fullShare.right} f

theorem PhiT_eq (c : Dev nD) : (Pipeline.ΦT pre0 tbl c : sProp 𝕄) = iprop(tbPt c tbM0 (tbl 0) ∗ tbPt c tbM1 (tbl 1)) := by
  unfold Pipeline.ΦT Pipeline.prefHeld
  rw [show (Finset.univ : Finset (Fin 2)) = insert (0 : Fin 2) {(1 : Fin 2)} from by decide,
    bigSep_insert (by decide), bigSep_singleton]
  rfl

/-- The staging buffer each window is on at point `t`: queries, transposed keys, values, result. -/
abbrev ms0 (t : Fin cfgL.N) : Memref sig .tc .vmem S1x1024x64 .f32 := spec0_0.stage (cfgL.slots t 0)
abbrev hs0 (t : Fin cfgL.N) : (ms0 t).IsWhole := hstage0_0 ((cfgL.slots t 0).cast nbuf0_0)
abbrev ms1 (t : Fin cfgL.N) : Memref sig .tc .vmem S1x64x1024 .f32 := spec0_1.stage (cfgL.slots t 1)
abbrev hs1 (t : Fin cfgL.N) : (ms1 t).IsWhole := hstage0_1 ((cfgL.slots t 1).cast nbuf0_1)
abbrev ms2 (t : Fin cfgL.N) : Memref sig .tc .vmem S1x1024x64 .f32 := spec0_2.stage (cfgL.slots t 2)
abbrev hs2 (t : Fin cfgL.N) : (ms2 t).IsWhole := hstage0_2 ((cfgL.slots t 2).cast nbuf0_2)
abbrev ms3 (t : Fin cfgL.N) : Memref sig .tc .vmem S1x1024x64 .f32 := spec0_3.stage (cfgL.slots t 3)
abbrev hs3 (t : Fin cfgL.N) : (ms3 t).IsWhole := hstage0_3 ((cfgL.slots t 3).cast nbuf0_3)
/-- The three buffers kept from one key tile to the next: the running row maximum, the running row sum of
    exponentials, the running weighted sum of values. -/
abbrev scM0 : Memref sig .tc .vmem S1x1024x1 .f32 := Memref.whole cc0_scratch0
abbrev scM1 : Memref sig .tc .vmem S1x1024x1 .f32 := Memref.whole cc0_scratch1
abbrev scM2 : Memref sig .tc .vmem S1x1024x64 .f32 := Memref.whole cc0_scratch2
/-- Views through which the contents of the result block and of the three kept buffers are stated. -/
abbrev VO3 : View sig .tc .vmem S1x1024x64 .f32 := (Memref.whole cc0_stg3_0 : Memref sig .tc .vmem S1x1024x64 .f32).view
abbrev VS0 : View sig .tc .vmem S1x1024x1 .f32 := scM0.view
abbrev VS1 : View sig .tc .vmem S1x1024x1 .f32 := scM1.view
abbrev VS2 : View sig .tc .vmem S1x1024x64 .f32 := scM2.view

/-- Between points the launch keeps only: the three kept buffers, at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The body at point `t`, on what the pipeline calls it with. -/
abbrev bodyAt (t : Fin cfgL.N) : Prog (TpuEff nD τ sig (Elt Bits) Λ₀ .tc) PUnit :=
  cc0__flash_kernel (grid0.coords t) (Memref.whole main_c) (Memref.isWhole_whole _) (Memref.whole main_c_0) (Memref.isWhole_whole _) (spec0_0.stage (cfgL.slots t 0)) (hstage0_0 ((cfgL.slots t 0).cast nbuf0_0)) (spec0_1.stage (cfgL.slots t 1)) (hstage0_1 ((cfgL.slots t 1).cast nbuf0_1)) (spec0_2.stage (cfgL.slots t 2)) (hstage0_2 ((cfgL.slots t 2).cast nbuf0_2)) (spec0_3.stage (cfgL.slots t 3)) (hstage0_3 ((cfgL.slots t 3).cast nbuf0_3)) (Memref.whole cc0_scratch0) (Memref.isWhole_whole _) (Memref.whole cc0_scratch1) (Memref.isWhole_whole _) (Memref.whole cc0_scratch2) (Memref.isWhole_whole _)

/-! ## The windows' blocks -/

/-- Window `w`'s block at point `t`, read off its array as the launch finds it. -/
def iblk (c : Dev nD) (w : Fin cfgL.W) (t : Fin cfgL.N) : ((cfgL.win w).xblock (cfgL.grid.coords t)).Idx → Elt Bits (cfgL.win w).elt :=
  ((cfgL.win w).blk t).view.read (Elt Bits) (V m c (Pipeline.arrRef spec0 w))

/-- No input window is ever idle. -/
theorem live_in : ∀ w : Fin 3, ∀ i, cfgL.idle (w.castSucc) i = false := by decide +kernel

/-- An input window's staging buffer holds its block at every point, fetched there or not, for any proof data whose
    array is the entry contents and whose body leaves the block in place. -/
theorem before0_of {c : Dev nD} (dat : Dat τ (Elt Bits) Unit ℕ (UR sig nD τ) ℕ cfgL c)
    (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun i => live_in 0 i) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt Bits) Unit ℕ (UR sig nD τ) ℕ cfgL c)
    (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun i => live_in 1 i) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt Bits) Unit ℕ (UR sig nD τ) ℕ cfgL c)
    (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun i => live_in 2 i) (fun _ _ _ => rfl) (fun t => by rw [hafter]; unfold Dat.blockOf iblk; rw [hA]; try rfl) t d).trans
    (by unfold Dat.fetched Dat.blockOf iblk; rw [hA]; try rfl)

/-! ## Which pair a point is -/

/-- The query-tile word and the key-tile word the body loads at grid position `i`, from tables at contents `x0`, `x1`. -/
abbrev wq (c : Dev nD) (i : grid0.Coords) (x0 : TbBuf c tbM0) : BitVec 32 :=
  tbM0.view.readAt (Elt Bits) (Rect.unit (s := S3) (k0_off1 i) S1.size (k0_off1_inb i)).toLoadRect x0 (Shape.Idx.first (numel1_S1.symm ▸ Nat.one_pos))
abbrev wk (c : Dev nD) (i : grid0.Coords) (x1 : TbBuf c tbM1) : BitVec 32 :=
  tbM1.view.readAt (Elt Bits) (Rect.unit (s := S3) (k0_off1 i) S1.size (k0_off1_inb i)).toLoadRect x1 (Shape.Idx.first (numel1_S1.symm ▸ Nat.one_pos))

/-- The three branch conditions of the body over the two words: first key tile of a row of tiles (reset),
    diagonal tile (mask, then write the result), tile strictly below the diagonal. -/
abbrev condReset (vk : BitVec 32) : Prop := (Scalar.cmpi .ne (Scalar.extui (Scalar.cmpi .eq vk 0#32)) 0#32) = 1#1
abbrev condDiag (vq vk : BitVec 32) : Prop := k0_cond2 vq vk = 1#1
abbrev condBelow (vq vk : BitVec 32) : Prop := (Scalar.cmpi .ne (Scalar.extui (Scalar.cmpi .slt vk vq)) 0#32) = 1#1

/-- At the actual tables: pair 0 of each head resets and is diagonal; pair 1 resets and is below; pair 2 is diagonal. -/
theorem pairs : ∀ t : Fin cfgL.N, ∀ c : Dev nD,
    (condReset (wk c (grid0.coords t) (tbl 1)) ↔ t.val % 3 ≠ 2)
    ∧ (condDiag (wq c (grid0.coords t) (tbl 0)) (wk c (grid0.coords t) (tbl 1)) ↔ t.val % 3 ≠ 1)
    ∧ (condBelow (wq c (grid0.coords t) (tbl 0)) (wk c (grid0.coords t) (tbl 1)) ↔ t.val % 3 = 1) := by
  decide +kernel

/-- The result window is never idle where a diagonal pair is computed, idle (and not written back) at pair 1. -/
theorem idle3 : ∀ t : Fin cfgL.N, cfgL.idle 3 (grid0.coords t) = decide (t.val % 3 = 1) := by decide +kernel
theorem flush3 : ∀ t : Fin cfgL.N, (cfgL.win 3).flush t = decide (t.val % 3 ≠ 1) := by decide +kernel

end Cert.Kernel.Hand

end
-- ==== Proof.Bits.RunA.lean ====
/-
  The body on a FIRST AND DIAGONAL tile pair (pair 0 of a head: query tile 0 against key tile 0).
  The three kept buffers are reset (running maximum to the bottom element, running sum and weighted sum to
  zero), the masked scores of the tile update them once, and the result block is the weighted sum divided by the sum.
  What each store leaves is found by running the body; the lists are what the run found.
-/
import Idealize.ShloMosaic.PureOps.BitExact
import proofs.«401446_j86672440033785_3_alg».proof.Proof.Bits.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

set_option maxHeartbeats 4000000 in
/-- The run on a pair that resets and is diagonal: from the three input blocks at `x0`, `x1`, `x2`, the result's
    buffer and the three kept buffers at anything, to the inputs unchanged and each of the four written buffers at
    its list of stores (last store first). -/
noncomputable def kernelRunA (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (hr : condReset (wk c i xt1)) (hd : condDiag (wq c i xt0) (wk c i xt1)) (hb : ¬condBelow (wq c i xt0) (wk c i xt1)) :
    Σ' (L7 : List (View.Piece (Elt Bits) S1x1024x64 .f32)) (L8 : List (View.Piece (Elt Bits) S1x1024x1 .f32)) (L9 : List (View.Piece (Elt Bits) S1x1024x1 .f32)), { L10 : List (View.Piece (Elt Bits) S1x1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt Bits) f L7) ∗ (∃ f, arg8.view.loc (c : Thread nD τ) ↦[arg8.view.set]{fullShare} arg8.view.writes (Elt Bits) f L8) ∗ (∃ f, arg9.view.loc (c : Thread nD τ) ↦[arg9.view.set]{fullShare} arg9.view.writes (Elt Bits) f L9) ∗ (∃ f, arg10.view.loc (c : Thread nD τ) ↦[arg10.view.set]{fullShare} arg10.view.writes (Elt Bits) f L10)
                ∗ tbPt c tbM0 xt0 ∗ tbPt c tbM1 xt1) -∗ K ⟨⟩))
          ⊢ wp frame (wpE (defs₀ (F := Bits)) Variants.none c none) E (cc0__flash_kernel i tbM0 htbM0 tbM1 htbM1 arg4 harg4 arg5 harg5 arg6 harg6 arg7 harg7 arg8 harg8 arg9 harg9 arg10 harg10) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

end Cert.Kernel.Hand

end
-- ==== Proof.Bits.RunB.lean ====
/-
  The body on a FIRST tile pair strictly BELOW the diagonal (pair 1 of a head: query tile 1 against key tile 0).
  The three kept buffers are reset and the unmasked scores of the tile update them once; nothing is stored into
  the result's buffer, which is handed back as it was found.
-/
import Idealize.ShloMosaic.PureOps.BitExact
import proofs.«401446_j86672440033785_3_alg».proof.Proof.Bits.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

set_option maxHeartbeats 4000000 in
/-- The run on a pair that resets and lies below the diagonal: the result's buffer untouched at `xi`, the three
    kept buffers from anything to their lists of stores. -/
noncomputable def kernelRunB (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (hr : condReset (wk c i xt1)) (hd : ¬condDiag (wq c i xt0) (wk c i xt1)) (hb : condBelow (wq c i xt0) (wk c i xt1)) :
    Σ' (L8 : List (View.Piece (Elt Bits) S1x1024x1 .f32)) (L9 : List (View.Piece (Elt Bits) S1x1024x1 .f32)), { L10 : List (View.Piece (Elt Bits) S1x1024x64 .f32) //
      ∀ (xi : Vec Bits S1x1024x64 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi ∗ (∃ d, owns (c : Thread nD τ) arg8 fullShare d) ∗ (∃ d, owns (c : Thread nD τ) arg9 fullShare d) ∗ (∃ d, owns (c : Thread nD τ) arg10 fullShare d)
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare xi ∗ (∃ f, arg8.view.loc (c : Thread nD τ) ↦[arg8.view.set]{fullShare} arg8.view.writes (Elt Bits) f L8) ∗ (∃ f, arg9.view.loc (c : Thread nD τ) ↦[arg9.view.set]{fullShare} arg9.view.writes (Elt Bits) f L9) ∗ (∃ f, arg10.view.loc (c : Thread nD τ) ↦[arg10.view.set]{fullShare} arg10.view.writes (Elt Bits) f L10)
                ∗ tbPt c tbM0 xt0 ∗ tbPt c tbM1 xt1) -∗ K ⟨⟩))
          ⊢ wp frame (wpE (defs₀ (F := Bits)) Variants.none c none) E (cc0__flash_kernel i tbM0 htbM0 tbM1 htbM1 arg4 harg4 arg5 harg5 arg6 harg6 arg7 harg7 arg8 harg8 arg9 harg9 arg10 harg10) K } := by
  refine ⟨?_, ?_, ?_, fun xi E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2; obtain rfl := harg7.eq_unread hf3
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HT0]; · iexact HT0
    iexact HT1

end Cert.Kernel.Hand

end
-- ==== Proof.Bits.RunC.lean ====
/-
  The body on a LATER DIAGONAL tile pair (pair 2 of a head: query tile 1 against key tile 1).
  The three kept buffers hold what the pair before left (`xs0`, `xs1`, `xs2`); the masked scores of the tile
  update them, and the result block is the weighted sum divided by the sum.
-/
import Idealize.ShloMosaic.PureOps.BitExact
import proofs.«401446_j86672440033785_3_alg».proof.Proof.Bits.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

set_option maxHeartbeats 4000000 in
/-- The run on a diagonal pair that does not reset: the kept buffers from `xs0`, `xs1`, `xs2` to their lists of
    stores, the result's buffer from anything to its list. -/
noncomputable def kernelRunC (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32)
    (hr : ¬condReset (wk c i xt1)) (hd : condDiag (wq c i xt0) (wk c i xt1)) (hb : ¬condBelow (wq c i xt0) (wk c i xt1)) :
    Σ' (L7 : List (View.Piece (Elt Bits) S1x1024x64 .f32)) (L8 : List (View.Piece (Elt Bits) S1x1024x1 .f32)) (L9 : List (View.Piece (Elt Bits) S1x1024x1 .f32)), { L10 : List (View.Piece (Elt Bits) S1x1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt Bits) f L7) ∗ (∃ f, arg8.view.loc (c : Thread nD τ) ↦[arg8.view.set]{fullShare} arg8.view.writes (Elt Bits) f L8) ∗ (∃ f, arg9.view.loc (c : Thread nD τ) ↦[arg9.view.set]{fullShare} arg9.view.writes (Elt Bits) f L9) ∗ (∃ f, arg10.view.loc (c : Thread nD τ) ↦[arg10.view.set]{fullShare} arg10.view.writes (Elt Bits) f L10)
                ∗ tbPt c tbM0 xt0 ∗ tbPt c tbM1 xt1) -∗ K ⟨⟩))
          ⊢ wp frame (wpE (defs₀ (F := Bits)) Variants.none c none) E (cc0__flash_kernel i tbM0 htbM0 tbM1 htbM1 arg4 harg4 arg5 harg5 arg6 harg6 arg7 harg7 arg8 harg8 arg9 harg9 arg10 harg10) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

end Cert.Kernel.Hand

end
-- ==== Proof.Bits.Outs.lean ====
/-
  What each of the three kinds of tile pair leaves in the result's buffer and in the three kept buffers (running
  maximum, running sum, running weighted sum): the stores the body's run found, read back. Every store is of a
  whole block, so the last one decides.
-/
import Idealize.ShloMosaic.PureOps.BitExact
import proofs.«401446_j86672440033785_3_alg».proof.Proof.Bits.RunA
import proofs.«401446_j86672440033785_3_alg».proof.Proof.Bits.RunB
import proofs.«401446_j86672440033785_3_alg».proof.Proof.Bits.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-! ## What each kind of pair leaves -/

/-- The stores the run on such a pair found for the result's buffer cover it: one of them is a store of the whole block. -/
theorem coverA7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x64.Idx) :
    ∃ pc ∈ (kernelRunA c i arg4 harg4 arg5 harg5 arg6 harg6 arg7 harg7 arg8 harg8 arg9 harg9 arg10 harg10 x0 x1 x2 xt0 xt1 hr hd hb).1, y ∈ pc.1.set :=
  View.cover_of_wholeMem (kernelRunA c i arg4 harg4 arg5 harg5 arg6 harg6 arg7 harg7 arg8 harg8 arg9 harg9 arg10 harg10 x0 x1 x2 xt0 xt1 hr hd hb).1 (by sl_whole_mem) y
/-- What the run leaves in the result's buffer: its stores read back. -/
def outA7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Bits S1x1024x64 .f32 :=
  VO3.read (Elt Bits) (VO3.writes (Elt Bits) VO3.junk (kernelRunA c i arg4 harg4 arg5 harg5 arg6 harg6 arg7 harg7 arg8 harg8 arg9 harg9 arg10 harg10 x0 x1 x2 xt0 xt1 hr hd hb).1)

/-- The stores the run on such a pair found for the running maximum cover it: one of them is a store of the whole block. -/
theorem coverA8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x1.Idx) :
    ∃ pc ∈ (kernelRunA c i arg4 harg4 arg5 harg5 arg6 harg6 arg7 harg7 arg8 harg8 arg9 harg9 arg10 harg10 x0 x1 x2 xt0 xt1 hr hd hb).2.1, y ∈ pc.1.set :=
  View.cover_of_wholeMem (kernelRunA c i arg4 harg4 arg5 harg5 arg6 harg6 arg7 harg7 arg8 harg8 arg9 harg9 arg10 harg10 x0 x1 x2 xt0 xt1 hr hd hb).2.1 (by sl_whole_mem) y
/-- What the run leaves in the running maximum: its stores read back. -/
def soutA8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Bits S1x1024x1 .f32 :=
  VS0.read (Elt Bits) (VS0.writes (Elt Bits) VS0.junk (kernelRunA c i arg4 harg4 arg5 harg5 arg6 harg6 arg7 harg7 arg8 harg8 arg9 harg9 arg10 harg10 x0 x1 x2 xt0 xt1 hr hd hb).2.1)

/-- The stores the run on such a pair found for the running sum cover it: one of them is a store of the whole block. -/
theorem coverA9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x1.Idx) :
    ∃ pc ∈ (kernelRunA c i arg4 harg4 arg5 harg5 arg6 harg6 arg7 harg7 arg8 harg8 arg9 harg9 arg10 harg10 x0 x1 x2 xt0 xt1 hr hd hb).2.2.1, y ∈ pc.1.set :=
  View.cover_of_wholeMem (kernelRunA c i arg4 harg4 arg5 harg5 arg6 harg6 arg7 harg7 arg8 harg8 arg9 harg9 arg10 harg10 x0 x1 x2 xt0 xt1 hr hd hb).2.2.1 (by sl_whole_mem) y
/-- What the run leaves in the running sum: its stores read back. -/
def soutA9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Bits S1x1024x1 .f32 :=
  VS1.read (Elt Bits) (VS1.writes (Elt Bits) VS1.junk (kernelRunA c i arg4 harg4 arg5 harg5 arg6 harg6 arg7 harg7 arg8 harg8 arg9 harg9 arg10 harg10 x0 x1 x2 xt0 xt1 hr hd hb).2.2.1)

/-- The stores the run on such a pair found for the running weighted sum cover it: one of them is a store of the whole block. -/
theorem coverA10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x64.Idx) :
    ∃ pc ∈ (kernelRunA c i arg4 harg4 arg5 harg5 arg6 harg6 arg7 harg7 arg8 harg8 arg9 harg9 arg10 harg10 x0 x1 x2 xt0 xt1 hr hd hb).2.2.2.1, y ∈ pc.1.set :=
  View.cover_of_wholeMem (kernelRunA c i arg4 harg4 arg5 harg5 arg6 harg6 arg7 harg7 arg8 harg8 arg9 harg9 arg10 harg10 x0 x1 x2 xt0 xt1 hr hd hb).2.2.2.1 (by sl_whole_mem) y
/-- What the run leaves in the running weighted sum: its stores read back. -/
def soutA10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Bits S1x1024x64 .f32 :=
  VS2.read (Elt Bits) (VS2.writes (Elt Bits) VS2.junk (kernelRunA c i arg4 harg4 arg5 harg5 arg6 harg6 arg7 harg7 arg8 harg8 arg9 harg9 arg10 harg10 x0 x1 x2 xt0 xt1 hr hd hb).2.2.2.1)

/-- The stores the run on such a pair found for the running maximum cover it: one of them is a store of the whole block. -/
theorem coverB8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x1.Idx) :
    ∃ pc ∈ (kernelRunB c i arg4 harg4 arg5 harg5 arg6 harg6 arg7 harg7 arg8 harg8 arg9 harg9 arg10 harg10 x0 x1 x2 xt0 xt1 hr hd hb).1, y ∈ pc.1.set :=
  View.cover_of_wholeMem (kernelRunB c i arg4 harg4 arg5 harg5 arg6 harg6 arg7 harg7 arg8 harg8 arg9 harg9 arg10 harg10 x0 x1 x2 xt0 xt1 hr hd hb).1 (by sl_whole_mem) y
/-- What the run leaves in the running maximum: its stores read back. -/
def soutB8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Bits S1x1024x1 .f32 :=
  VS0.read (Elt Bits) (VS0.writes (Elt Bits) VS0.junk (kernelRunB c i arg4 harg4 arg5 harg5 arg6 harg6 arg7 harg7 arg8 harg8 arg9 harg9 arg10 harg10 x0 x1 x2 xt0 xt1 hr hd hb).1)

/-- The stores the run on such a pair found for the running sum cover it: one of them is a store of the whole block. -/
theorem coverB9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x1.Idx) :
    ∃ pc ∈ (kernelRunB c i arg4 harg4 arg5 harg5 arg6 harg6 arg7 harg7 arg8 harg8 arg9 harg9 arg10 harg10 x0 x1 x2 xt0 xt1 hr hd hb).2.1, y ∈ pc.1.set :=
  View.cover_of_wholeMem (kernelRunB c i arg4 harg4 arg5 harg5 arg6 harg6 arg7 harg7 arg8 harg8 arg9 harg9 arg10 harg10 x0 x1 x2 xt0 xt1 hr hd hb).2.1 (by sl_whole_mem) y
/-- What the run leaves in the running sum: its stores read back. -/
def soutB9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Bits S1x1024x1 .f32 :=
  VS1.read (Elt Bits) (VS1.writes (Elt Bits) VS1.junk (kernelRunB c i arg4 harg4 arg5 harg5 arg6 harg6 arg7 harg7 arg8 harg8 arg9 harg9 arg10 harg10 x0 x1 x2 xt0 xt1 hr hd hb).2.1)

/-- The stores the run on such a pair found for the running weighted sum cover it: one of them is a store of the whole block. -/
theorem coverB10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x64.Idx) :
    ∃ pc ∈ (kernelRunB c i arg4 harg4 arg5 harg5 arg6 harg6 arg7 harg7 arg8 harg8 arg9 harg9 arg10 harg10 x0 x1 x2 xt0 xt1 hr hd hb).2.2.1, y ∈ pc.1.set :=
  View.cover_of_wholeMem (kernelRunB c i arg4 harg4 arg5 harg5 arg6 harg6 arg7 harg7 arg8 harg8 arg9 harg9 arg10 harg10 x0 x1 x2 xt0 xt1 hr hd hb).2.2.1 (by sl_whole_mem) y
/-- What the run leaves in the running weighted sum: its stores read back. -/
def soutB10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Bits S1x1024x64 .f32 :=
  VS2.read (Elt Bits) (VS2.writes (Elt Bits) VS2.junk (kernelRunB c i arg4 harg4 arg5 harg5 arg6 harg6 arg7 harg7 arg8 harg8 arg9 harg9 arg10 harg10 x0 x1 x2 xt0 xt1 hr hd hb).2.2.1)

/-- The stores the run on such a pair found for the result's buffer cover it: one of them is a store of the whole block. -/
theorem coverC7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) (y : S1x1024x64.Idx) :
    ∃ pc ∈ (kernelRunC c i arg4 harg4 arg5 harg5 arg6 harg6 arg7 harg7 arg8 harg8 arg9 harg9 arg10 harg10 x0 x1 x2 xt0 xt1 xs0 xs1 xs2 hr hd hb).1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).1 (by sl_whole_mem) y
/-- What the run leaves in the result's buffer: its stores read back. -/
def outC7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) : Vec Bits S1x1024x64 .f32 :=
  VO3.read (Elt Bits) (VO3.writes (Elt Bits) VO3.junk (kernelRunC c i arg4 harg4 arg5 harg5 arg6 harg6 arg7 harg7 arg8 harg8 arg9 harg9 arg10 harg10 x0 x1 x2 xt0 xt1 xs0 xs1 xs2 hr hd hb).1)

/-- The stores the run on such a pair found for the running maximum cover it: one of them is a store of the whole block. -/
theorem coverC8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) (y : S1x1024x1.Idx) :
    ∃ pc ∈ (kernelRunC c i arg4 harg4 arg5 harg5 arg6 harg6 arg7 harg7 arg8 harg8 arg9 harg9 arg10 harg10 x0 x1 x2 xt0 xt1 xs0 xs1 xs2 hr hd hb).2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.1 (by sl_whole_mem) y
/-- What the run leaves in the running maximum: its stores read back. -/
def soutC8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) : Vec Bits S1x1024x1 .f32 :=
  VS0.read (Elt Bits) (VS0.writes (Elt Bits) VS0.junk (kernelRunC c i arg4 harg4 arg5 harg5 arg6 harg6 arg7 harg7 arg8 harg8 arg9 harg9 arg10 harg10 x0 x1 x2 xt0 xt1 xs0 xs1 xs2 hr hd hb).2.1)

/-- The stores the run on such a pair found for the running sum cover it: one of them is a store of the whole block. -/
theorem coverC9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) (y : S1x1024x1.Idx) :
    ∃ pc ∈ (kernelRunC c i arg4 harg4 arg5 harg5 arg6 harg6 arg7 harg7 arg8 harg8 arg9 harg9 arg10 harg10 x0 x1 x2 xt0 xt1 xs0 xs1 xs2 hr hd hb).2.2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.2.1 (by sl_whole_mem) y
/-- What the run leaves in the running sum: its stores read back. -/
def soutC9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) : Vec Bits S1x1024x1 .f32 :=
  VS1.read (Elt Bits) (VS1.writes (Elt Bits) VS1.junk (kernelRunC c i arg4 harg4 arg5 harg5 arg6 harg6 arg7 harg7 arg8 harg8 arg9 harg9 arg10 harg10 x0 x1 x2 xt0 xt1 xs0 xs1 xs2 hr hd hb).2.2.1)

/-- The stores the run on such a pair found for the running weighted sum cover it: one of them is a store of the whole block. -/
theorem coverC10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) (y : S1x1024x64.Idx) :
    ∃ pc ∈ (kernelRunC c i arg4 harg4 arg5 harg5 arg6 harg6 arg7 harg7 arg8 harg8 arg9 harg9 arg10 harg10 x0 x1 x2 xt0 xt1 xs0 xs1 xs2 hr hd hb).2.2.2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.2.2.1 (by sl_whole_mem) y
/-- What the run leaves in the running weighted sum: its stores read back. -/
def soutC10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Bits S1x1024x64 .f32) (x1 : Vec Bits S1x64x1024 .f32) (x2 : Vec Bits S1x1024x64 .f32)
    (xt0 : TbBuf c tbM0) (xt1 : TbBuf c tbM1)
    (xs0 : Vec Bits S1x1024x1 .f32) (xs1 : Vec Bits S1x1024x1 .f32) (xs2 : Vec Bits S1x1024x64 .f32) (hr : ¬condReset (wk c i xt1)) (hd : condDiag (wq c i xt0) (wk c i xt1)) (hb : ¬condBelow (wq c i xt0) (wk c i xt1)) : Vec Bits S1x1024x64 .f32 :=
  VS2.read (Elt Bits) (VS2.writes (Elt Bits) VS2.junk (kernelRunC c i arg4 harg4 arg5 harg5 arg6 harg6 arg7 harg7 arg8 harg8 arg9 harg9 arg10 harg10 x0 x1 x2 xt0 xt1 xs0 xs1 xs2 hr hd hb).2.2.2.1)

end Cert.Kernel.Hand

end
-- ==== Proof.Bits.Frame.lean ====
/-
  The tiled kernel's launch, point by point: what the result's buffer and the three kept buffers hold after
  each tile pair, the proof data of the pipeline over that, the body's obligation at each of the three kinds
  of pair, and the run of the whole program: it terminates without fault, every argument array is unchanged, and
  the result array holds the blocks written back at the diagonal pairs, re-laid as [4, 16, 2048, 64].
-/
import Idealize.ShloMosaic.PureOps.BitExact
import proofs.«401446_j86672440033785_3_alg».proof.Proof.Bits.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)

/-! ## Which kind of pair a point is, as the body's conditions -/

theorem resetOf (t : Fin cfgL.N) (c : Dev nD) (h : t.val % 3 ≠ 2) : condReset (wk c (grid0.coords t) (tbl 1)) := ((pairs t c).1).mpr h
theorem nresetOf (t : Fin cfgL.N) (c : Dev nD) (h : t.val % 3 = 2) : ¬condReset (wk c (grid0.coords t) (tbl 1)) := fun hh => ((pairs t c).1).mp hh h
theorem diagOf (t : Fin cfgL.N) (c : Dev nD) (h : t.val % 3 ≠ 1) : condDiag (wq c (grid0.coords t) (tbl 0)) (wk c (grid0.coords t) (tbl 1)) := ((pairs t c).2.1).mpr h
theorem ndiagOf (t : Fin cfgL.N) (c : Dev nD) (h : t.val % 3 = 1) : ¬condDiag (wq c (grid0.coords t) (tbl 0)) (wk c (grid0.coords t) (tbl 1)) := fun hh => ((pairs t c).2.1).mp hh h
theorem belowOf (t : Fin cfgL.N) (c : Dev nD) (h : t.val % 3 = 1) : condBelow (wq c (grid0.coords t) (tbl 0)) (wk c (grid0.coords t) (tbl 1)) := ((pairs t c).2.2).mpr h
theorem nbelowOf (t : Fin cfgL.N) (c : Dev nD) (h : t.val % 3 ≠ 1) : ¬condBelow (wq c (grid0.coords t) (tbl 0)) (wk c (grid0.coords t) (tbl 1)) := fun hh => h (((pairs t c).2.2).mp hh)

/-! ## What the four buffers hold after each point -/

/-- The result block, the running maximum, the running sum and the running weighted sum. -/
abbrev St : Type := Vec Bits S1x1024x64 .f32 × Vec Bits S1x1024x1 .f32 × Vec Bits S1x1024x1 .f32 × Vec Bits S1x1024x64 .f32

/-- After point `n`: pair 0 of a head starts afresh; pair 1 starts afresh and leaves the result's buffer alone (its
    component repeats what was there); pair 2 continues from what pair 1 left in the three kept buffers. -/
def outsAt (c : Dev nD) : (n : ℕ) → n < cfgL.N → St
  | 0, hn =>
    (outA7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA9 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA10 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)))
  | n + 1, hn =>
    if h0 : (n + 1) % 3 = 0 then
      (outA7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)))
    else if h1 : (n + 1) % 3 = 1 then
      ((outsAt c n (Nat.lt_of_succ_lt hn)).1,
       soutB8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1),
       soutB9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1),
       soutB10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1))
    else
      (outC7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)))

/-! ## The invariant between points, and the proof data -/

/-- Before the first point the three kept buffers hold anything; after point `n` they hold what that point left. -/
def PhiS (c : Dev nD) : (n : ℕ) → n ≤ cfgL.N → sProp 𝕄
  | 0, _ => Pipeline.ΦA spec0 c
  | n + 1, hn => iprop(iprop(owns (c : Thread nD τ) scM0 fullShare (outsAt m c n hn).2.1 ∗ owns (c : Thread nD τ) scM1 fullShare (outsAt m c n hn).2.2.1 ∗ owns (c : Thread nD τ) scM2 fullShare (outsAt m c n hn).2.2.2) ∗ (∃ r, prngReg c r))

theorem PhiS_zero (c : Dev nD) (n : ℕ) (h : n ≤ cfgL.N) (hz : n = 0) : PhiS m c n h = Pipeline.ΦA spec0 c := by
  subst hz; rfl
theorem PhiS_succ (c : Dev nD) (n : ℕ) (hn : n < cfgL.N) :
    PhiS m c (n + 1) hn = iprop(iprop(owns (c : Thread nD τ) scM0 fullShare (outsAt m c n hn).2.1 ∗ owns (c : Thread nD τ) scM1 fullShare (outsAt m c n hn).2.2.1 ∗ owns (c : Thread nD τ) scM2 fullShare (outsAt m c n hn).2.2.2) ∗ (∃ r, prngReg c r)) := rfl
theorem PhiS_pos (c : Dev nD) (n : ℕ) (h : n ≤ cfgL.N) (hz : n ≠ 0) :
    PhiS m c n h = iprop(iprop(owns (c : Thread nD τ) scM0 fullShare (outsAt m c (n - 1) (by omega)).2.1 ∗ owns (c : Thread nD τ) scM1 fullShare (outsAt m c (n - 1) (by omega)).2.2.1 ∗ owns (c : Thread nD τ) scM2 fullShare (outsAt m c (n - 1) (by omega)).2.2.2) ∗ (∃ r, prngReg c r)) := by
  cases n with
  | zero => exact absurd rfl hz
  | succ n => rfl

/-- The proof data: the arrays as the launch finds them; each input's buffer keeps its block; the result's buffer
    holds the first component of `outsAt`; between points the kept buffers' contents and the two tables. -/
def dats (_ : Fin 1) (c : Dev nD) : Dat τ (Elt Bits) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := iprop(PhiS m c t.val (Nat.le_of_lt_succ t.isLt) ∗ Pipeline.ΦT pre0 tbl c)
  q _ := fullShare
  owed _ := 0

theorem A_eq (c : Dev nD) (w : Fin cfgL.W) : (dats m 0 c).A w = V m c (Pipeline.arrRef spec0 w) := by
  dsimp only [dats]

theorem Phi_castSucc (c : Dev nD) (t : Fin cfgL.N) :
    (dats m 0 c).Φ t.castSucc = iprop(PhiS m c t.val (Nat.le_of_lt t.isLt) ∗ Pipeline.ΦT pre0 tbl c) := by
  dsimp only [dats]; simp only [Fin.coe_castSucc]

theorem after0 (c : Dev nD) (t : Fin cfgL.N) : (dats m 0 c).after 0 t = iblk m c 0 t := by dsimp only [dats]
theorem after1 (c : Dev nD) (t : Fin cfgL.N) : (dats m 0 c).after 1 t = iblk m c 1 t := by dsimp only [dats]
theorem after2 (c : Dev nD) (t : Fin cfgL.N) : (dats m 0 c).after 2 t = iblk m c 2 t := by dsimp only [dats]
theorem after3 (c : Dev nD) (t : Fin cfgL.N) : (dats m 0 c).after 3 t = (outsAt m c t.val t.isLt).1 := by dsimp only [dats]

theorem before0 (c : Dev nD) (t : Fin cfgL.N) (d) : (dats m 0 c).before 0 t d = iblk m c 0 t :=
  before0_of m (dats m 0 c) (A_eq m c 0) (after0 m c) t d
theorem before1 (c : Dev nD) (t : Fin cfgL.N) (d) : (dats m 0 c).before 1 t d = iblk m c 1 t :=
  before1_of m (dats m 0 c) (A_eq m c 1) (after1 m c) t d
theorem before2 (c : Dev nD) (t : Fin cfgL.N) (d) : (dats m 0 c).before 2 t d = iblk m c 2 t :=
  before2_of m (dats m 0 c) (A_eq m c 2) (after2 m c) t d

/-! ## `outsAt` at each kind of point -/

theorem outsAt_A (c : Dev nD) (t : Fin cfgL.N) (h0 : t.val % 3 = 0) :
    outsAt m c t.val t.isLt =
      (outA7 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))) := by
  obtain ⟨n, hn⟩ := t
  cases n with
  | zero => rfl
  | succ n => exact (dif_pos h0).trans rfl

theorem outsAt_B (c : Dev nD) (t : Fin cfgL.N) (h1 : t.val % 3 = 1) :
    outsAt m c t.val t.isLt =
      ((outsAt m c (t.val - 1) (Nat.lt_of_le_of_lt (Nat.sub_le _ _) t.isLt)).1,
       soutB8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1),
       soutB9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1),
       soutB10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1)) := by
  obtain ⟨n, hn⟩ := t
  cases n with
  | zero => exact absurd h1 (by simp)
  | succ n => exact (dif_neg (by dsimp only at h1; omega)).trans ((dif_pos h1).trans rfl)

theorem outsAt_C (c : Dev nD) (t : Fin cfgL.N) (h2 : t.val % 3 = 2) :
    outsAt m c t.val t.isLt =
      (outC7 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega))) := by
  obtain ⟨n, hn⟩ := t
  cases n with
  | zero => exact absurd h2 (by simp)
  | succ n => exact (dif_neg (by dsimp only at h2; omega)).trans ((dif_neg (by dsimp only at h2; omega)).trans rfl)

/-! ## The body's obligation -/

/-- What the body is called with at point `t`, the four windows one by one, -/
def bodyPre (c : Dev nD) (t : Fin cfgL.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfgL.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in (c : Dev nD) (w : Fin 3) (t : Fin cfgL.N) :
    (dats m 0 c).leavesExact w.castSucc t = owns (c : Thread nD τ) ((cfgL.win w.castSucc).stage (cfgL.slots t w.castSucc)) fullShare ((dats m 0 c).after w.castSucc t) := by
  unfold Dat.leavesExact; rw [live_in w (cfgL.grid.coords t)]

theorem leaves3_live (c : Dev nD) (t : Fin cfgL.N) (h : t.val % 3 ≠ 1) :
    (dats m 0 c).leavesExact 3 t = owns (c : Thread nD τ) (ms3 t) fullShare ((dats m 0 c).after 3 t) := by
  unfold Dat.leavesExact; rw [show cfgL.idle 3 (cfgL.grid.coords t) = false from (idle3 t).trans (decide_eq_false h)]

theorem leaves3_idle (c : Dev nD) (t : Fin cfgL.N) (h : t.val % 3 = 1) :
    (dats m 0 c).leavesExact 3 t = iprop(∃ d, owns (c : Thread nD τ) (ms3 t) fullShare ((dats m 0 c).before 3 t d)) :=
  Dat.leavesExact_idle (dats m 0 c) 3 t ((idle3 t).trans (decide_eq_true h)) ((flush3 t).trans (decide_eq_false (by omega)))

theorem leaves0 (c : Dev nD) (t : Fin cfgL.N) : (dats m 0 c).leavesExact 0 t = owns (c : Thread nD τ) (ms0 t) fullShare ((dats m 0 c).after 0 t) := by
  unfold Dat.leavesExact; rw [show cfgL.idle 0 (cfgL.grid.coords t) = false from live_in 0 _]
theorem leaves1 (c : Dev nD) (t : Fin cfgL.N) : (dats m 0 c).leavesExact 1 t = owns (c : Thread nD τ) (ms1 t) fullShare ((dats m 0 c).after 1 t) := by
  unfold Dat.leavesExact; rw [show cfgL.idle 1 (cfgL.grid.coords t) = false from live_in 1 _]
theorem leaves2 (c : Dev nD) (t : Fin cfgL.N) : (dats m 0 c).leavesExact 2 t = owns (c : Thread nD τ) (ms2 t) fullShare ((dats m 0 c).after 2 t) := by
  unfold Dat.leavesExact; rw [show cfgL.idle 2 (cfgL.grid.coords t) = false from live_in 2 _]

set_option maxHeartbeats 8000000 in
/-- The body at any point: the inputs' buffers hold their blocks; the point's pair decides which run applies; the kept
    buffers go in at what the point before left (at anything on a pair that resets) and come back at this point's. -/
theorem sound_body (c : Dev nD) (t : Fin cfgL.N) :
    bodyPre m c t ⊢ wp frame (wpE (defs₀ (F := Bits)) Variants.none c none) Set.univ (bodyAt t) (fun _ => bodyPost m c t) := by
  unfold bodyPre bodyPost bodyAt
  simp only [before0, before1, before2]
  rw [show (dats m 0 c).owesAt () t.succ = (dats m 0 c).owesAt () t.castSucc from rfl]
  rw [show (dats m 0 c).Φ t.succ = iprop(PhiS m c (t.val + 1) t.isLt ∗ Pipeline.ΦT pre0 tbl c) from rfl, PhiS_succ]
  rw [leaves0, leaves1, leaves2, after0, after1, after2, Phi_castSucc, PhiT_eq]
  have hN : t.val < 192 := lt_of_lt_of_eq t.isLt N_L
  by_cases h0 : t.val % 3 = 0
  · rw [leaves3_live m c t (by omega), after3, outsAt_A m c t h0]
    unfold outA7 soutA8 soutA9 soutA10; (try dsimp only)
    by_cases hz : t.val = 0
    · rw [PhiS_zero m c _ _ hz, PhiA_eq]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverA8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverA9 _ _ _ _ _ _ _ _ _ _ _ _ _ _ _ _ _ _ _ _ _ _ _ _)
            unfold owns; iexists _; isplitr
            swap; · iexact HS2
            ipureintro; exact View.read_writes_of_cover _ _ _ _ _ (coverA10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA7 _ _ _ _ _ _ _ _ _ _ _ _ _ _ _ _ _ _ _ _ _ _ _ _)
    · rw [PhiS_pos m c _ _ hz]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverA8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverA9 _ _ _ _ _ _ _ _ _ _ _ _ _ _ _ _ _ _ _ _ _ _ _ _)
            unfold owns; iexists _; isplitr
            swap; · iexact HS2
            ipureintro; exact View.read_writes_of_cover _ _ _ _ _ (coverA10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA7 _ _ _ _ _ _ _ _ _ _ _ _ _ _ _ _ _ _ _ _ _ _ _ _)
  · by_cases h1 : t.val % 3 = 1
    · rw [leaves3_idle m c t h1, outsAt_B m c t h1]
      unfold soutB8 soutB9 soutB10; (try dsimp only)
      rw [PhiS_pos m c _ _ (by omega)]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunB c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverB8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverB9 _ _ _ _ _ _ _ _ _ _ _ _ _ _ _ _ _ _ _ _ _ _ _ _)
            unfold owns; iexists _; isplitr
            swap; · iexact HS2
            ipureintro; exact View.read_writes_of_cover _ _ _ _ _ (coverB10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      iexists _; iexact H3
    · have h2 : t.val % 3 = 2 := by omega
      rw [leaves3_live m c t (by omega), after3, outsAt_C m c t h2]
      unfold outC7 soutC8 soutC9 soutC10; (try dsimp only)
      rw [PhiS_pos m c _ _ (by omega)]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunC c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) _ _ _ (nresetOf t c h2) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverC8 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (coverC9 _ _ _ _ _ _ _ _ _ _ _ _ _ _ _ _ _ _ _ _ _ _ _ _ _ _ _)
            unfold owns; iexists _; isplitr
            swap; · iexact HS2
            ipureintro; exact View.read_writes_of_cover _ _ _ _ _ (coverC10 _ _ _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC7 _ _ _ _ _ _ _ _ _ _ _ _ _ _ _ _ _ _ _ _ _ _ _ _ _ _ _)

/-- The library's body obligation, at every point. -/
theorem body_obligation (c : Dev nD) : BodyObligation (dats m 0 c) (defs₀ (F := Bits)) Variants.none () Set.univ := fun t => by
  rw [bigSep_W0, bigSep_W0]
  exact sound_body m c t

end Cert.Kernel.Hand

end
-- ==== Proof.Bits.Run.lean ====
/-
  The run of the whole program around the launch: it terminates without fault; the three arguments end
  unchanged; the result is the launch's result array after every write-back, re-laid as [4, 16, 2048, 64].
-/
import Idealize.ShloMosaic.PureOps.BitExact
import proofs.«401446_j86672440033785_3_alg».proof.Proof.Bits.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)

/-! ## The run -/

theorem hin (c : Dev nD) : iprop(Pipeline.ΦA spec0 c ∗ Pipeline.ΦT pre0 tbl c) ⊢ (dats m 0 c).Φ 0 := by
  rw [show (dats m 0 c).Φ 0 = iprop(PhiS m c 0 (Nat.zero_le _) ∗ Pipeline.ΦT pre0 tbl c) from rfl, PhiS_zero m c 0 _ rfl]
  try exact Idealize.SL.BI.Entails.refl _

theorem hout (c : Dev nD) : (dats m 0 c).Φ (Fin.last cfgL.N) ⊢ Pipeline.ΦA spec0 c := by
  rw [show (dats m 0 c).Φ (Fin.last cfgL.N) = iprop(PhiS m c (Fin.last cfgL.N).val (Nat.le_of_lt_succ (Fin.last cfgL.N).isLt) ∗ Pipeline.ΦT pre0 tbl c) from rfl,
    PhiS_pos m c _ _ (by rw [Fin.val_last]; have := N_L; omega), PhiA_eq]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates without fault; at the end each array of the launch holds
    what the write-backs left, and every other buffer what the closing re-lay leaves from the entry contents. -/
theorem run_main : θ_run defs (onTc (τ := τ) (main (F := Bits))) (s₀ m ρ)
    (Pipeline.FramePost (Pipeline.pin pcfgs fun _ => adm) (dats m) 0 (Pipeline.afterTail pcfgs (fun _ => adm) (dats m) 0 (V0 m) [hostOps1])) :=
  Pipeline.θ_run_frameP_around_track pcfgs (fun _ => adm) (dats m) (0 : Fin 1) (launch0 (F := Bits)) defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- An argument array is no array of the launch and nothing writes it: at the end it is as at the start. -/
theorem tail_arg (c : Dev nD) (b : Ref sig .tc) (hb : b = main_arg0 ∨ b = main_arg1 ∨ b = main_arg2) :
    Pipeline.afterTail pcfgs (fun _ => adm) (dats m) 0 (V0 m) [hostOps1] c b = m ((c : Thread nD τ).loc b) := by
  unfold Pipeline.afterTail
  rcases hb with rfl | rfl | rfl
  all_goals
    simp only [hostOps1, List.flatten_cons, List.flatten_nil, List.append_nil]
    after_results
    rw [Pipeline.withArrays_of_ne spec0 c _ _ _ (fun w => by fin_cases w <;> decide)]
    dsimp only [V0]
    simp only [hostOps0, List.flatten_cons, List.flatten_nil, List.append_nil, List.cons_append, List.nil_append]
    after_results
    try rfl

/-- The program's result: the launch's result array after every write-back, re-laid as [4, 16, 2048, 64]. -/
theorem tail_res (c : Dev nD) :
    Pipeline.afterTail pcfgs (fun _ => adm) (dats m) 0 (V0 m) [hostOps1] c main_v5
      = shapeCast S4x16x2048x64 ((dats m 0 c).arrAt 3 (Pipeline.pin pcfgs (fun _ => adm) 0).N : (⟨S64x2048x64, .f32⟩ : BufTy).Contents (Elt Bits)) shapeCasts_S64x2048x64_S4x16x2048x64 := by
  unfold Pipeline.afterTail
  simp only [hostOps1, List.flatten_cons, List.flatten_nil, List.append_nil]
  after_results
  rw [Pipeline.withArrays_arr spec0 (launch0 (F := Bits)).win.arr_inj c _ _ 3]
  generalize (dats m 0 c).arrAt 3 _ = A
  rfl

/-- The number of points, spelled either way. -/
theorem N_pin : (Pipeline.pin pcfgs (fun _ => adm) 0).N = cfgL.N := rfl

/-- The run, with the result array named and the arguments unchanged. -/
theorem run_value : θ_run defs (onTc (τ := τ) (main (F := Bits))) ⟨m, fun _ => 0, ρ⟩ (fun r => ∀ c : Dev nD,
      r.2.mem ((c.tc : Thread nD τ).loc main_v5)
        = shapeCast S4x16x2048x64 ((dats m 0 c).arrAt 3 (Pipeline.pin pcfgs (fun _ => adm) 0).N : (⟨S64x2048x64, .f32⟩ : BufTy).Contents (Elt Bits)) shapeCasts_S64x2048x64_S4x16x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (by decide : main_v5 ∈ Pipeline.restRefs sig spec0)).trans (tail_res m c),
     ((h c).2 main_arg0 (by decide : main_arg0 ∈ Pipeline.restRefs sig spec0)).trans (tail_arg m c _ (.inl rfl)),
     ((h c).2 main_arg1 (by decide : main_arg1 ∈ Pipeline.restRefs sig spec0)).trans (tail_arg m c _ (.inr (.inl rfl))),
     ((h c).2 main_arg2 (by decide : main_arg2 ∈ Pipeline.restRefs sig spec0)).trans (tail_arg m c _ (.inr (.inr rfl)))⟩) (run_main m ρ)

/-- The frame: the program runs to the end without fault and leaves its three arguments unchanged. -/
theorem frame : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Hand

end
-- ==== Proof.Ideal.Kit.lean ====
/-
  Causal attention over two square tiles per head, computed tile by tile: what every later module about the
  tiled kernel shares.

  The launch enumerates, per head, the three tile pairs (query tile, key tile) = (0,0), (1,0), (1,1) by two
  constant tables of three words each; point `t` of the grid is head `t / 3`, pair `t % 3`. Here: the buffer
  contents when the launch is entered (the arguments re-laid as [64, 2048, 64], the keys also transposed, and
  the two tables), the pipeline at those tables, the block each window holds at a point, which of the three
  pairs a point is, and where the result window is written back.
-/
import proofs.«401446_j86672440033785_3_alg».proof.Proof.Gen.KernelIdeal.Launch
import proofs.«401446_j86672440033785_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffers when the launch is entered -/

/-- A core's buffers after the six operations before the launch: the two tables written, the three arguments
    re-laid head-major, the keys transposed. -/
abbrev V0 (c : Dev nD) : Valuation τ sig (Elt Ideal) := StableHlo.after (List.flatten [hostOps0]) (fun b => m (c, b))
/-- The same read at a reference. -/
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor

/-- The program is: the six operations, the launch, the closing re-lay of the result. -/
theorem hmain (𝒱₀ : Variants) : Pipeline.HMainPK (Ix := Unit) (Name := ℕ) (U := UR sig nD τ) (Lvl := ℕ) pcfgs 0 defs₀ 𝒱₀ m (main (F := Ideal)) (V m)
      (fun _ => Pipeline.chain [StableHlo.seq hostOps1]) :=
  Pipeline.hmainP_around pcfgs 0 defs₀ 𝒱₀ m main [hostOps0] [hostOps1] hostOps0_sub hostOps0_fresh
    fun c => (main_chain c).trans rfl

/-- The closing re-lay reads the launch's result array and writes the program's result: no table, no array written. -/
theorem sfx_sub : ∀ ops ∈ ([hostOps1] : List (List (HloOp τ sig (Elt Ideal)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro k
  fin_cases k <;> (rw [StableHlo.reshape_bufs]; simp only [Finset.mem_insert, Finset.mem_singleton, not_or]; exact ⟨StableHlo.devRef_ne_of_ne (by decide), StableHlo.devRef_ne_of_ne (by decide)⟩)
theorem sfx_fresh : ∀ ops ∈ ([hostOps1] : List (List (HloOp τ sig (Elt Ideal)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## The two tables and the pipeline at them -/

/-- The tables: the query tile of each of the three pairs (0, 1, 1) and its key tile (0, 0, 1). -/
def tbl : pre0.Contents (Elt Ideal) := fun
  | 0 => fun i => lit0 (S3.rowMajor i)
  | 1 => fun i => lit1 (S3.rowMajor i)
  | ⟨_ + 2, h⟩ => absurd h (Nat.not_lt.2 (Nat.le_add_left _ _))

/-- The tables hold exactly that when the launch is entered. -/
theorem V_pre (c : Dev nD) (j : Fin 2) : V m c (pre0.ref j) = tbl j := by
  fin_cases j
  · dsimp only [V, V0]
    simp only [hostOps0, List.flatten_cons, List.flatten_nil, List.append_nil, List.cons_append, List.nil_append]
    after_results; rfl
  · dsimp only [V, V0]
    simp only [hostOps0, List.flatten_cons, List.flatten_nil, List.append_nil, List.cons_append, List.nil_append]
    after_results; rfl

/-- Every tile the tables name lies inside its array: tile indices are 0 or 1, the arrays hold two tiles. -/
theorem ok_tbl : ok0 (F := Ideal) tbl := by decide +kernel

/-- The tables as admissible contents, and the pipeline at them. -/
abbrev adm : (pcfg0 (F := Ideal)).Adm := ⟨tbl, ok_tbl⟩
abbrev cfgL : Pipeline.Cfg sig Λ₀ := cfg0 adm

theorem N_L : cfgL.N = 192 := N_0

/-! ## What the body is called with -/

/-- The two tables as the body is handed them. -/
abbrev tbM0 : Memref sig .tc .smem S3 .i32 := Memref.whole main_c
abbrev htbM0 : tbM0.IsWhole := Memref.isWhole_whole _
abbrev tbM1 : Memref sig .tc .smem S3 .i32 := Memref.whole main_c_0
abbrev htbM1 : tbM1.IsWhole := Memref.isWhole_whole _

/-- A table's buffer on a core, and that buffer held (for reading only) at contents `f`. -/
abbrev TbBuf (c : Dev nD) {S : Shape} {e : EltTy} (M : Memref sig .tc .smem S e) : Type := Buf (Elt Ideal) (M.view.loc (c : Thread nD τ))
abbrev tbPt (c : Dev nD) {S : Shape} {e : EltTy} (M : Memref sig .tc .smem S e) (f : TbBuf c M) : sProp 𝕄 :=
  M.view.loc (c : Thread nD τ) ↦{fullShare.right} f

theorem PhiT_eq (c : Dev nD) : (Pipeline.ΦT pre0 tbl c : sProp 𝕄) = iprop(tbPt c tbM0 (tbl 0) ∗ tbPt c tbM1 (tbl 1)) := by
  unfold Pipeline.ΦT Pipeline.prefHeld
  rw [show (Finset.univ : Finset (Fin 2)) = insert (0 : Fin 2) {(1 : Fin 2)} from by decide,
    bigSep_insert (by decide), bigSep_singleton]
  rfl

/-- The staging buffer each window is on at point `t`: queries, transposed keys, values, result. -/
abbrev ms0 (t : Fin cfgL.N) : Memref sig .tc .vmem S1x1024x64 .f32 := spec0_0.stage (cfgL.slots t 0)
abbrev hs0 (t : Fin cfgL.N) : (ms0 t).IsWhole := hstage0_0 ((cfgL.slots t 0).cast nbuf0_0)
abbrev ms1 (t : Fin cfgL.N) : Memref sig .tc .vmem S1x64x1024 .f32 := spec0_1.stage (cfgL.slots t 1)
abbrev hs1 (t : Fin cfgL.N) : (ms1 t).IsWhole := hstage0_1 ((cfgL.slots t 1).cast nbuf0_1)
abbrev ms2 (t : Fin cfgL.N) : Memref sig .tc .vmem S1x1024x64 .f32 := spec0_2.stage (cfgL.slots t 2)
abbrev hs2 (t : Fin cfgL.N) : (ms2 t).IsWhole := hstage0_2 ((cfgL.slots t 2).cast nbuf0_2)
abbrev ms3 (t : Fin cfgL.N) : Memref sig .tc .vmem S1x1024x64 .f32 := spec0_3.stage (cfgL.slots t 3)
abbrev hs3 (t : Fin cfgL.N) : (ms3 t).IsWhole := hstage0_3 ((cfgL.slots t 3).cast nbuf0_3)
/-- The three buffers kept from one key tile to the next: the running row maximum, the running row sum of
    exponentials, the running weighted sum of values. -/
abbrev scM0 : Memref sig .tc .vmem S1x1024x1 .f32 := Memref.whole cc0_scratch0
abbrev scM1 : Memref sig .tc .vmem S1x1024x1 .f32 := Memref.whole cc0_scratch1
abbrev scM2 : Memref sig .tc .vmem S1x1024x64 .f32 := Memref.whole cc0_scratch2
/-- Views through which the contents of the result block and of the three kept buffers are stated. -/
abbrev VO3 : View sig .tc .vmem S1x1024x64 .f32 := (Memref.whole cc0_stg3_0 : Memref sig .tc .vmem S1x1024x64 .f32).view
abbrev VS0 : View sig .tc .vmem S1x1024x1 .f32 := scM0.view
abbrev VS1 : View sig .tc .vmem S1x1024x1 .f32 := scM1.view
abbrev VS2 : View sig .tc .vmem S1x1024x64 .f32 := scM2.view

/-- Between points the launch keeps only: the three kept buffers, at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The body at point `t`, on what the pipeline calls it with. -/
abbrev bodyAt (t : Fin cfgL.N) : Prog (TpuEff nD τ sig (Elt Ideal) Λ₀ .tc) PUnit :=
  cc0__flash_kernel (grid0.coords t) (Memref.whole main_c) (Memref.isWhole_whole _) (Memref.whole main_c_0) (Memref.isWhole_whole _) (spec0_0.stage (cfgL.slots t 0)) (hstage0_0 ((cfgL.slots t 0).cast nbuf0_0)) (spec0_1.stage (cfgL.slots t 1)) (hstage0_1 ((cfgL.slots t 1).cast nbuf0_1)) (spec0_2.stage (cfgL.slots t 2)) (hstage0_2 ((cfgL.slots t 2).cast nbuf0_2)) (spec0_3.stage (cfgL.slots t 3)) (hstage0_3 ((cfgL.slots t 3).cast nbuf0_3)) (Memref.whole cc0_scratch0) (Memref.isWhole_whole _) (Memref.whole cc0_scratch1) (Memref.isWhole_whole _) (Memref.whole cc0_scratch2) (Memref.isWhole_whole _)

/-! ## The windows' blocks -/

/-- Window `w`'s block at point `t`, read off its array as the launch finds it. -/
def iblk (c : Dev nD) (w : Fin cfgL.W) (t : Fin cfgL.N) : ((cfgL.win w).xblock (cfgL.grid.coords t)).Idx → Elt Ideal (cfgL.win w).elt :=
  ((cfgL.win w).blk t).view.read (Elt Ideal) (V m c (Pipeline.arrRef spec0 w))

/-- No input window is ever idle. -/
theorem live_in : ∀ w : Fin 3, ∀ i, cfgL.idle (w.castSucc) i = false := by decide +kernel

/-- An input window's staging buffer holds its block at every point, fetched there or not, for any proof data whose
    array is the entry contents and whose body leaves the block in place. -/
theorem before0_of {c : Dev nD} (dat : Dat τ (Elt Ideal) Unit ℕ (UR sig nD τ) ℕ cfgL c)
    (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun i => live_in 0 i) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt Ideal) Unit ℕ (UR sig nD τ) ℕ cfgL c)
    (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun i => live_in 1 i) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt Ideal) Unit ℕ (UR sig nD τ) ℕ cfgL c)
    (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun i => live_in 2 i) (fun _ _ _ => rfl) (fun t => by rw [hafter]; unfold Dat.blockOf iblk; rw [hA]; try rfl) t d).trans
    (by unfold Dat.fetched Dat.blockOf iblk; rw [hA]; try rfl)

/-! ## Which pair a point is -/

/-- The query-tile word and the key-tile word the body loads at grid position `i`, from tables at contents `x0`, `x1`. -/
abbrev wq (c : Dev nD) (i : grid0.Coords) (x0 : TbBuf c tbM0) : BitVec 32 :=
  tbM0.view.readAt (Elt Ideal) (Rect.unit (s := S3) (k0_off1 i) S1.size (k0_off1_inb i)).toLoadRect x0 (Shape.Idx.first (numel1_S1.symm ▸ Nat.one_pos))
abbrev wk (c : Dev nD) (i : grid0.Coords) (x1 : TbBuf c tbM1) : BitVec 32 :=
  tbM1.view.readAt (Elt Ideal) (Rect.unit (s := S3) (k0_off1 i) S1.size (k0_off1_inb i)).toLoadRect x1 (Shape.Idx.first (numel1_S1.symm ▸ Nat.one_pos))

/-- The three branch conditions of the body over the two words: first key tile of a row of tiles (reset),
    diagonal tile (mask, then write the result), tile strictly below the diagonal. -/
abbrev condReset (vk : BitVec 32) : Prop := (Scalar.cmpi .ne (Scalar.extui (Scalar.cmpi .eq vk 0#32)) 0#32) = 1#1
abbrev condDiag (vq vk : BitVec 32) : Prop := k0_cond2 vq vk = 1#1
abbrev condBelow (vq vk : BitVec 32) : Prop := (Scalar.cmpi .ne (Scalar.extui (Scalar.cmpi .slt vk vq)) 0#32) = 1#1

/-- At the actual tables: pair 0 of each head resets and is diagonal; pair 1 resets and is below; pair 2 is diagonal. -/
theorem pairs : ∀ t : Fin cfgL.N, ∀ c : Dev nD,
    (condReset (wk c (grid0.coords t) (tbl 1)) ↔ t.val % 3 ≠ 2)
    ∧ (condDiag (wq c (grid0.coords t) (tbl 0)) (wk c (grid0.coords t) (tbl 1)) ↔ t.val % 3 ≠ 1)
    ∧ (condBelow (wq c (grid0.coords t) (tbl 0)) (wk c (grid0.coords t) (tbl 1)) ↔ t.val % 3 = 1) := by
  decide +kernel

/-- The result window is never idle where a diagonal pair is computed, idle (and not written back) at pair 1. -/
theorem idle3 : ∀ t : Fin cfgL.N, cfgL.idle 3 (grid0.coords t) = decide (t.val % 3 = 1) := by decide +kernel
theorem flush3 : ∀ t : Fin cfgL.N, (cfgL.win 3).flush t = decide (t.val % 3 ≠ 1) := by decide +kernel

end Cert.KernelIdeal.Hand

end
-- ==== Proof.Ideal.RunA.lean ====
/-
  The body on a FIRST AND DIAGONAL tile pair (pair 0 of a head: query tile 0 against key tile 0).
  The three kept buffers are reset (running maximum to the bottom element, running sum and weighted sum to
  zero), the masked scores of the tile update them once, and the result block is the weighted sum divided by the sum.
  What each store leaves is found by running the body; the lists are what the run found.
-/
import proofs.«401446_j86672440033785_3_alg».proof.Proof.Ideal.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The run on a pair that resets and is diagonal: from the three input blocks at `x0`, `x1`, `x2`, the result's
    buffer and the three kept buffers at anything, to the inputs unchanged and each of the four written buffers at
    its list of stores (last store first). -/
noncomputable def kernelRunA (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (hr : condReset (wk c i xt1)) (hd : condDiag (wq c i xt0) (wk c i xt1)) (hb : ¬condBelow (wq c i xt0) (wk c i xt1)) :
    Σ' (L7 : List (View.Piece (Elt Ideal) S1x1024x64 .f32)) (L8 : List (View.Piece (Elt Ideal) S1x1024x1 .f32)) (L9 : List (View.Piece (Elt Ideal) S1x1024x1 .f32)), { L10 : List (View.Piece (Elt Ideal) S1x1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt Ideal) f L7) ∗ (∃ f, arg8.view.loc (c : Thread nD τ) ↦[arg8.view.set]{fullShare} arg8.view.writes (Elt Ideal) f L8) ∗ (∃ f, arg9.view.loc (c : Thread nD τ) ↦[arg9.view.set]{fullShare} arg9.view.writes (Elt Ideal) f L9) ∗ (∃ f, arg10.view.loc (c : Thread nD τ) ↦[arg10.view.set]{fullShare} arg10.view.writes (Elt Ideal) f L10)
                ∗ tbPt c tbM0 xt0 ∗ tbPt c tbM1 xt1) -∗ K ⟨⟩))
          ⊢ wp frame (wpE (defs₀ (F := Ideal)) Variants.none c none) E (cc0__flash_kernel i tbM0 htbM0 tbM1 htbM1 arg4 harg4 arg5 harg5 arg6 harg6 arg7 harg7 arg8 harg8 arg9 harg9 arg10 harg10) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

end Cert.KernelIdeal.Hand

end
-- ==== Proof.Ideal.RunB.lean ====
/-
  The body on a FIRST tile pair strictly BELOW the diagonal (pair 1 of a head: query tile 1 against key tile 0).
  The three kept buffers are reset and the unmasked scores of the tile update them once; nothing is stored into
  the result's buffer, which is handed back as it was found.
-/
import proofs.«401446_j86672440033785_3_alg».proof.Proof.Ideal.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The run on a pair that resets and lies below the diagonal: the result's buffer untouched at `xi`, the three
    kept buffers from anything to their lists of stores. -/
noncomputable def kernelRunB (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (hr : condReset (wk c i xt1)) (hd : ¬condDiag (wq c i xt0) (wk c i xt1)) (hb : condBelow (wq c i xt0) (wk c i xt1)) :
    Σ' (L8 : List (View.Piece (Elt Ideal) S1x1024x1 .f32)) (L9 : List (View.Piece (Elt Ideal) S1x1024x1 .f32)), { L10 : List (View.Piece (Elt Ideal) S1x1024x64 .f32) //
      ∀ (xi : Vec Ideal S1x1024x64 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi ∗ (∃ d, owns (c : Thread nD τ) arg8 fullShare d) ∗ (∃ d, owns (c : Thread nD τ) arg9 fullShare d) ∗ (∃ d, owns (c : Thread nD τ) arg10 fullShare d)
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare xi ∗ (∃ f, arg8.view.loc (c : Thread nD τ) ↦[arg8.view.set]{fullShare} arg8.view.writes (Elt Ideal) f L8) ∗ (∃ f, arg9.view.loc (c : Thread nD τ) ↦[arg9.view.set]{fullShare} arg9.view.writes (Elt Ideal) f L9) ∗ (∃ f, arg10.view.loc (c : Thread nD τ) ↦[arg10.view.set]{fullShare} arg10.view.writes (Elt Ideal) f L10)
                ∗ tbPt c tbM0 xt0 ∗ tbPt c tbM1 xt1) -∗ K ⟨⟩))
          ⊢ wp frame (wpE (defs₀ (F := Ideal)) Variants.none c none) E (cc0__flash_kernel i tbM0 htbM0 tbM1 htbM1 arg4 harg4 arg5 harg5 arg6 harg6 arg7 harg7 arg8 harg8 arg9 harg9 arg10 harg10) K } := by
  refine ⟨?_, ?_, ?_, fun xi E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2; obtain rfl := harg7.eq_unread hf3
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HT0]; · iexact HT0
    iexact HT1

end Cert.KernelIdeal.Hand

end
-- ==== Proof.Ideal.RunC.lean ====
/-
  The body on a LATER DIAGONAL tile pair (pair 2 of a head: query tile 1 against key tile 1).
  The three kept buffers hold what the pair before left (`xs0`, `xs1`, `xs2`); the masked scores of the tile
  update them, and the result block is the weighted sum divided by the sum.
-/
import proofs.«401446_j86672440033785_3_alg».proof.Proof.Ideal.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The run on a diagonal pair that does not reset: the kept buffers from `xs0`, `xs1`, `xs2` to their lists of
    stores, the result's buffer from anything to its list. -/
noncomputable def kernelRunC (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32)
    (hr : ¬condReset (wk c i xt1)) (hd : condDiag (wq c i xt0) (wk c i xt1)) (hb : ¬condBelow (wq c i xt0) (wk c i xt1)) :
    Σ' (L7 : List (View.Piece (Elt Ideal) S1x1024x64 .f32)) (L8 : List (View.Piece (Elt Ideal) S1x1024x1 .f32)) (L9 : List (View.Piece (Elt Ideal) S1x1024x1 .f32)), { L10 : List (View.Piece (Elt Ideal) S1x1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt Ideal) f L7) ∗ (∃ f, arg8.view.loc (c : Thread nD τ) ↦[arg8.view.set]{fullShare} arg8.view.writes (Elt Ideal) f L8) ∗ (∃ f, arg9.view.loc (c : Thread nD τ) ↦[arg9.view.set]{fullShare} arg9.view.writes (Elt Ideal) f L9) ∗ (∃ f, arg10.view.loc (c : Thread nD τ) ↦[arg10.view.set]{fullShare} arg10.view.writes (Elt Ideal) f L10)
                ∗ tbPt c tbM0 xt0 ∗ tbPt c tbM1 xt1) -∗ K ⟨⟩))
          ⊢ wp frame (wpE (defs₀ (F := Ideal)) Variants.none c none) E (cc0__flash_kernel i tbM0 htbM0 tbM1 htbM1 arg4 harg4 arg5 harg5 arg6 harg6 arg7 harg7 arg8 harg8 arg9 harg9 arg10 harg10) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2
    sl_exec (disch := first | sl_exact hr | sl_exact hd | sl_exact hb)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

end Cert.KernelIdeal.Hand

end
-- ==== Proof.Ideal.Outs.lean ====
/-
  What each of the three kinds of tile pair leaves in the result's buffer and in the three kept buffers (running
  maximum, running sum, running weighted sum): the stores the body's run found, read back. Every store is of a
  whole block, so the last one decides.
-/
import proofs.«401446_j86672440033785_3_alg».proof.Proof.Ideal.RunA
import proofs.«401446_j86672440033785_3_alg».proof.Proof.Ideal.RunB
import proofs.«401446_j86672440033785_3_alg».proof.Proof.Ideal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## What each kind of pair leaves -/

/-- The stores the run on such a pair found for the result's buffer cover it: one of them is a store of the whole block. -/
theorem coverA7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x64.Idx) :
    ∃ pc ∈ (kernelRunA c i arg4 harg4 arg5 harg5 arg6 harg6 arg7 harg7 arg8 harg8 arg9 harg9 arg10 harg10 x0 x1 x2 xt0 xt1 hr hd hb).1, y ∈ pc.1.set :=
  View.cover_of_wholeMem (kernelRunA c i arg4 harg4 arg5 harg5 arg6 harg6 arg7 harg7 arg8 harg8 arg9 harg9 arg10 harg10 x0 x1 x2 xt0 xt1 hr hd hb).1 (by sl_whole_mem) y
/-- What the run leaves in the result's buffer: its stores read back. -/
def outA7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Ideal S1x1024x64 .f32 :=
  VO3.read (Elt Ideal) (VO3.writes (Elt Ideal) VO3.junk (kernelRunA c i arg4 harg4 arg5 harg5 arg6 harg6 arg7 harg7 arg8 harg8 arg9 harg9 arg10 harg10 x0 x1 x2 xt0 xt1 hr hd hb).1)

/-- The stores the run on such a pair found for the running maximum cover it: one of them is a store of the whole block. -/
theorem coverA8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x1.Idx) :
    ∃ pc ∈ (kernelRunA c i arg4 harg4 arg5 harg5 arg6 harg6 arg7 harg7 arg8 harg8 arg9 harg9 arg10 harg10 x0 x1 x2 xt0 xt1 hr hd hb).2.1, y ∈ pc.1.set :=
  View.cover_of_wholeMem (kernelRunA c i arg4 harg4 arg5 harg5 arg6 harg6 arg7 harg7 arg8 harg8 arg9 harg9 arg10 harg10 x0 x1 x2 xt0 xt1 hr hd hb).2.1 (by sl_whole_mem) y
/-- What the run leaves in the running maximum: its stores read back. -/
def soutA8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Ideal S1x1024x1 .f32 :=
  VS0.read (Elt Ideal) (VS0.writes (Elt Ideal) VS0.junk (kernelRunA c i arg4 harg4 arg5 harg5 arg6 harg6 arg7 harg7 arg8 harg8 arg9 harg9 arg10 harg10 x0 x1 x2 xt0 xt1 hr hd hb).2.1)

/-- The stores the run on such a pair found for the running sum cover it: one of them is a store of the whole block. -/
theorem coverA9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x1.Idx) :
    ∃ pc ∈ (kernelRunA c i arg4 harg4 arg5 harg5 arg6 harg6 arg7 harg7 arg8 harg8 arg9 harg9 arg10 harg10 x0 x1 x2 xt0 xt1 hr hd hb).2.2.1, y ∈ pc.1.set :=
  View.cover_of_wholeMem (kernelRunA c i arg4 harg4 arg5 harg5 arg6 harg6 arg7 harg7 arg8 harg8 arg9 harg9 arg10 harg10 x0 x1 x2 xt0 xt1 hr hd hb).2.2.1 (by sl_whole_mem) y
/-- What the run leaves in the running sum: its stores read back. -/
def soutA9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Ideal S1x1024x1 .f32 :=
  VS1.read (Elt Ideal) (VS1.writes (Elt Ideal) VS1.junk (kernelRunA c i arg4 harg4 arg5 harg5 arg6 harg6 arg7 harg7 arg8 harg8 arg9 harg9 arg10 harg10 x0 x1 x2 xt0 xt1 hr hd hb).2.2.1)

/-- The stores the run on such a pair found for the running weighted sum cover it: one of them is a store of the whole block. -/
theorem coverA10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) (y : S1x1024x64.Idx) :
    ∃ pc ∈ (kernelRunA c i arg4 harg4 arg5 harg5 arg6 harg6 arg7 harg7 arg8 harg8 arg9 harg9 arg10 harg10 x0 x1 x2 xt0 xt1 hr hd hb).2.2.2.1, y ∈ pc.1.set :=
  View.cover_of_wholeMem (kernelRunA c i arg4 harg4 arg5 harg5 arg6 harg6 arg7 harg7 arg8 harg8 arg9 harg9 arg10 harg10 x0 x1 x2 xt0 xt1 hr hd hb).2.2.2.1 (by sl_whole_mem) y
/-- What the run leaves in the running weighted sum: its stores read back. -/
def soutA10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) : Vec Ideal S1x1024x64 .f32 :=
  VS2.read (Elt Ideal) (VS2.writes (Elt Ideal) VS2.junk (kernelRunA c i arg4 harg4 arg5 harg5 arg6 harg6 arg7 harg7 arg8 harg8 arg9 harg9 arg10 harg10 x0 x1 x2 xt0 xt1 hr hd hb).2.2.2.1)

/-- The stores the run on such a pair found for the running maximum cover it: one of them is a store of the whole block. -/
theorem coverB8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x1.Idx) :
    ∃ pc ∈ (kernelRunB c i arg4 harg4 arg5 harg5 arg6 harg6 arg7 harg7 arg8 harg8 arg9 harg9 arg10 harg10 x0 x1 x2 xt0 xt1 hr hd hb).1, y ∈ pc.1.set :=
  View.cover_of_wholeMem (kernelRunB c i arg4 harg4 arg5 harg5 arg6 harg6 arg7 harg7 arg8 harg8 arg9 harg9 arg10 harg10 x0 x1 x2 xt0 xt1 hr hd hb).1 (by sl_whole_mem) y
/-- What the run leaves in the running maximum: its stores read back. -/
def soutB8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Ideal S1x1024x1 .f32 :=
  VS0.read (Elt Ideal) (VS0.writes (Elt Ideal) VS0.junk (kernelRunB c i arg4 harg4 arg5 harg5 arg6 harg6 arg7 harg7 arg8 harg8 arg9 harg9 arg10 harg10 x0 x1 x2 xt0 xt1 hr hd hb).1)

/-- The stores the run on such a pair found for the running sum cover it: one of them is a store of the whole block. -/
theorem coverB9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x1.Idx) :
    ∃ pc ∈ (kernelRunB c i arg4 harg4 arg5 harg5 arg6 harg6 arg7 harg7 arg8 harg8 arg9 harg9 arg10 harg10 x0 x1 x2 xt0 xt1 hr hd hb).2.1, y ∈ pc.1.set :=
  View.cover_of_wholeMem (kernelRunB c i arg4 harg4 arg5 harg5 arg6 harg6 arg7 harg7 arg8 harg8 arg9 harg9 arg10 harg10 x0 x1 x2 xt0 xt1 hr hd hb).2.1 (by sl_whole_mem) y
/-- What the run leaves in the running sum: its stores read back. -/
def soutB9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Ideal S1x1024x1 .f32 :=
  VS1.read (Elt Ideal) (VS1.writes (Elt Ideal) VS1.junk (kernelRunB c i arg4 harg4 arg5 harg5 arg6 harg6 arg7 harg7 arg8 harg8 arg9 harg9 arg10 harg10 x0 x1 x2 xt0 xt1 hr hd hb).2.1)

/-- The stores the run on such a pair found for the running weighted sum cover it: one of them is a store of the whole block. -/
theorem coverB10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) (y : S1x1024x64.Idx) :
    ∃ pc ∈ (kernelRunB c i arg4 harg4 arg5 harg5 arg6 harg6 arg7 harg7 arg8 harg8 arg9 harg9 arg10 harg10 x0 x1 x2 xt0 xt1 hr hd hb).2.2.1, y ∈ pc.1.set :=
  View.cover_of_wholeMem (kernelRunB c i arg4 harg4 arg5 harg5 arg6 harg6 arg7 harg7 arg8 harg8 arg9 harg9 arg10 harg10 x0 x1 x2 xt0 xt1 hr hd hb).2.2.1 (by sl_whole_mem) y
/-- What the run leaves in the running weighted sum: its stores read back. -/
def soutB10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) : Vec Ideal S1x1024x64 .f32 :=
  VS2.read (Elt Ideal) (VS2.writes (Elt Ideal) VS2.junk (kernelRunB c i arg4 harg4 arg5 harg5 arg6 harg6 arg7 harg7 arg8 harg8 arg9 harg9 arg10 harg10 x0 x1 x2 xt0 xt1 hr hd hb).2.2.1)

/-- The stores the run on such a pair found for the result's buffer cover it: one of them is a store of the whole block. -/
theorem coverC7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) (y : S1x1024x64.Idx) :
    ∃ pc ∈ (kernelRunC c i arg4 harg4 arg5 harg5 arg6 harg6 arg7 harg7 arg8 harg8 arg9 harg9 arg10 harg10 x0 x1 x2 xt0 xt1 xs0 xs1 xs2 hr hd hb).1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).1 (by sl_whole_mem) y
/-- What the run leaves in the result's buffer: its stores read back. -/
def outC7 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) : Vec Ideal S1x1024x64 .f32 :=
  VO3.read (Elt Ideal) (VO3.writes (Elt Ideal) VO3.junk (kernelRunC c i arg4 harg4 arg5 harg5 arg6 harg6 arg7 harg7 arg8 harg8 arg9 harg9 arg10 harg10 x0 x1 x2 xt0 xt1 xs0 xs1 xs2 hr hd hb).1)

/-- The stores the run on such a pair found for the running maximum cover it: one of them is a store of the whole block. -/
theorem coverC8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) (y : S1x1024x1.Idx) :
    ∃ pc ∈ (kernelRunC c i arg4 harg4 arg5 harg5 arg6 harg6 arg7 harg7 arg8 harg8 arg9 harg9 arg10 harg10 x0 x1 x2 xt0 xt1 xs0 xs1 xs2 hr hd hb).2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.1 (by sl_whole_mem) y
/-- What the run leaves in the running maximum: its stores read back. -/
def soutC8 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) : Vec Ideal S1x1024x1 .f32 :=
  VS0.read (Elt Ideal) (VS0.writes (Elt Ideal) VS0.junk (kernelRunC c i arg4 harg4 arg5 harg5 arg6 harg6 arg7 harg7 arg8 harg8 arg9 harg9 arg10 harg10 x0 x1 x2 xt0 xt1 xs0 xs1 xs2 hr hd hb).2.1)

/-- The stores the run on such a pair found for the running sum cover it: one of them is a store of the whole block. -/
theorem coverC9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) (y : S1x1024x1.Idx) :
    ∃ pc ∈ (kernelRunC c i arg4 harg4 arg5 harg5 arg6 harg6 arg7 harg7 arg8 harg8 arg9 harg9 arg10 harg10 x0 x1 x2 xt0 xt1 xs0 xs1 xs2 hr hd hb).2.2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.2.1 (by sl_whole_mem) y
/-- What the run leaves in the running sum: its stores read back. -/
def soutC9 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) : Vec Ideal S1x1024x1 .f32 :=
  VS1.read (Elt Ideal) (VS1.writes (Elt Ideal) VS1.junk (kernelRunC c i arg4 harg4 arg5 harg5 arg6 harg6 arg7 harg7 arg8 harg8 arg9 harg9 arg10 harg10 x0 x1 x2 xt0 xt1 xs0 xs1 xs2 hr hd hb).2.2.1)

/-- The stores the run on such a pair found for the running weighted sum cover it: one of them is a store of the whole block. -/
theorem coverC10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) (y : S1x1024x64.Idx) :
    ∃ pc ∈ (kernelRunC c i arg4 harg4 arg5 harg5 arg6 harg6 arg7 harg7 arg8 harg8 arg9 harg9 arg10 harg10 x0 x1 x2 xt0 xt1 xs0 xs1 xs2 hr hd hb).2.2.2.1, y ∈ pc.1.set :=
  View.cover_of_wholeMem (kernelRunC c i arg4 harg4 arg5 harg5 arg6 harg6 arg7 harg7 arg8 harg8 arg9 harg9 arg10 harg10 x0 x1 x2 xt0 xt1 xs0 xs1 xs2 hr hd hb).2.2.2.1 (by sl_whole_mem) y
/-- What the run leaves in the running weighted sum: its stores read back. -/
def soutC10 (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) : Vec Ideal S1x1024x64 .f32 :=
  VS2.read (Elt Ideal) (VS2.writes (Elt Ideal) VS2.junk (kernelRunC c i arg4 harg4 arg5 harg5 arg6 harg6 arg7 harg7 arg8 harg8 arg9 harg9 arg10 harg10 x0 x1 x2 xt0 xt1 xs0 xs1 xs2 hr hd hb).2.2.2.1)

end Cert.KernelIdeal.Hand

end
-- ==== Proof.Ideal.Frame.lean ====
/-
  The tiled kernel's launch, point by point: what the result's buffer and the three kept buffers hold after
  each tile pair, the proof data of the pipeline over that, the body's obligation at each of the three kinds
  of pair, and the run of the whole program: it terminates without fault, every argument array is unchanged, and
  the result array holds the blocks written back at the diagonal pairs, re-laid as [4, 16, 2048, 64].
-/
import proofs.«401446_j86672440033785_3_alg».proof.Proof.Ideal.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Which kind of pair a point is, as the body's conditions -/

theorem resetOf (t : Fin cfgL.N) (c : Dev nD) (h : t.val % 3 ≠ 2) : condReset (wk c (grid0.coords t) (tbl 1)) := ((pairs t c).1).mpr h
theorem nresetOf (t : Fin cfgL.N) (c : Dev nD) (h : t.val % 3 = 2) : ¬condReset (wk c (grid0.coords t) (tbl 1)) := fun hh => ((pairs t c).1).mp hh h
theorem diagOf (t : Fin cfgL.N) (c : Dev nD) (h : t.val % 3 ≠ 1) : condDiag (wq c (grid0.coords t) (tbl 0)) (wk c (grid0.coords t) (tbl 1)) := ((pairs t c).2.1).mpr h
theorem ndiagOf (t : Fin cfgL.N) (c : Dev nD) (h : t.val % 3 = 1) : ¬condDiag (wq c (grid0.coords t) (tbl 0)) (wk c (grid0.coords t) (tbl 1)) := fun hh => ((pairs t c).2.1).mp hh h
theorem belowOf (t : Fin cfgL.N) (c : Dev nD) (h : t.val % 3 = 1) : condBelow (wq c (grid0.coords t) (tbl 0)) (wk c (grid0.coords t) (tbl 1)) := ((pairs t c).2.2).mpr h
theorem nbelowOf (t : Fin cfgL.N) (c : Dev nD) (h : t.val % 3 ≠ 1) : ¬condBelow (wq c (grid0.coords t) (tbl 0)) (wk c (grid0.coords t) (tbl 1)) := fun hh => h (((pairs t c).2.2).mp hh)

/-! ## What the four buffers hold after each point -/

/-- The result block, the running maximum, the running sum and the running weighted sum. -/
abbrev St : Type := Vec Ideal S1x1024x64 .f32 × Vec Ideal S1x1024x1 .f32 × Vec Ideal S1x1024x1 .f32 × Vec Ideal S1x1024x64 .f32

/-- After point `n`: pair 0 of a head starts afresh; pair 1 starts afresh and leaves the result's buffer alone (its
    component repeats what was there); pair 2 continues from what pair 1 left in the three kept buffers. -/
def outsAt (c : Dev nD) : (n : ℕ) → n < cfgL.N → St
  | 0, hn =>
    (outA7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA9 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)),
     soutA10 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) scM2 (Memref.isWhole_whole _) (iblk m c 0 ⟨0, hn⟩) (iblk m c 1 ⟨0, hn⟩) (iblk m c 2 ⟨0, hn⟩) (tbl 0) (tbl 1) (resetOf ⟨0, hn⟩ c (by simp)) (diagOf ⟨0, hn⟩ c (by simp)) (nbelowOf ⟨0, hn⟩ c (by simp)))
  | n + 1, hn =>
    if h0 : (n + 1) % 3 = 0 then
      (outA7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)),
       soutA10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (diagOf ⟨n + 1, hn⟩ c (by simp only; omega)) (nbelowOf ⟨n + 1, hn⟩ c (by simp only; omega)))
    else if h1 : (n + 1) % 3 = 1 then
      ((outsAt c n (Nat.lt_of_succ_lt hn)).1,
       soutB8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1),
       soutB9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1),
       soutB10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (resetOf ⟨n + 1, hn⟩ c (by simp only; omega)) (ndiagOf ⟨n + 1, hn⟩ c h1) (belowOf ⟨n + 1, hn⟩ c h1))
    else
      (outC7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)),
       soutC10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) scM2 (Memref.isWhole_whole _) (iblk m c 0 ⟨n + 1, hn⟩) (iblk m c 1 ⟨n + 1, hn⟩) (iblk m c 2 ⟨n + 1, hn⟩) (tbl 0) (tbl 1) (outsAt c n (Nat.lt_of_succ_lt hn)).2.1 (outsAt c n (Nat.lt_of_succ_lt hn)).2.2.1 (outsAt c n (Nat.lt_of_succ_lt hn)).2.2.2 (nresetOf ⟨n + 1, hn⟩ c (by simp only; omega)) (diagOf ⟨n + 1, hn⟩ c (by simp only; omega)) (nbelowOf ⟨n + 1, hn⟩ c (by simp only; omega)))

/-! ## The invariant between points, and the proof data -/

/-- Before the first point the three kept buffers hold anything; after point `n` they hold what that point left. -/
def PhiS (c : Dev nD) : (n : ℕ) → n ≤ cfgL.N → sProp 𝕄
  | 0, _ => Pipeline.ΦA spec0 c
  | n + 1, hn => iprop(iprop(owns (c : Thread nD τ) scM0 fullShare (outsAt m c n hn).2.1 ∗ owns (c : Thread nD τ) scM1 fullShare (outsAt m c n hn).2.2.1 ∗ owns (c : Thread nD τ) scM2 fullShare (outsAt m c n hn).2.2.2) ∗ (∃ r, prngReg c r))

theorem PhiS_zero (c : Dev nD) (n : ℕ) (h : n ≤ cfgL.N) (hz : n = 0) : PhiS m c n h = Pipeline.ΦA spec0 c := by
  subst hz; rfl
theorem PhiS_succ (c : Dev nD) (n : ℕ) (hn : n < cfgL.N) :
    PhiS m c (n + 1) hn = iprop(iprop(owns (c : Thread nD τ) scM0 fullShare (outsAt m c n hn).2.1 ∗ owns (c : Thread nD τ) scM1 fullShare (outsAt m c n hn).2.2.1 ∗ owns (c : Thread nD τ) scM2 fullShare (outsAt m c n hn).2.2.2) ∗ (∃ r, prngReg c r)) := rfl
theorem PhiS_pos (c : Dev nD) (n : ℕ) (h : n ≤ cfgL.N) (hz : n ≠ 0) :
    PhiS m c n h = iprop(iprop(owns (c : Thread nD τ) scM0 fullShare (outsAt m c (n - 1) (by omega)).2.1 ∗ owns (c : Thread nD τ) scM1 fullShare (outsAt m c (n - 1) (by omega)).2.2.1 ∗ owns (c : Thread nD τ) scM2 fullShare (outsAt m c (n - 1) (by omega)).2.2.2) ∗ (∃ r, prngReg c r)) := by
  cases n with
  | zero => exact absurd rfl hz
  | succ n => rfl

/-- The proof data: the arrays as the launch finds them; each input's buffer keeps its block; the result's buffer
    holds the first component of `outsAt`; between points the kept buffers' contents and the two tables. -/
def dats (_ : Fin 1) (c : Dev nD) : Dat τ (Elt Ideal) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := iprop(PhiS m c t.val (Nat.le_of_lt_succ t.isLt) ∗ Pipeline.ΦT pre0 tbl c)
  q _ := fullShare
  owed _ := 0

theorem A_eq (c : Dev nD) (w : Fin cfgL.W) : (dats m 0 c).A w = V m c (Pipeline.arrRef spec0 w) := by
  dsimp only [dats]

theorem Phi_castSucc (c : Dev nD) (t : Fin cfgL.N) :
    (dats m 0 c).Φ t.castSucc = iprop(PhiS m c t.val (Nat.le_of_lt t.isLt) ∗ Pipeline.ΦT pre0 tbl c) := by
  dsimp only [dats]; simp only [Fin.coe_castSucc]

theorem after0 (c : Dev nD) (t : Fin cfgL.N) : (dats m 0 c).after 0 t = iblk m c 0 t := by dsimp only [dats]
theorem after1 (c : Dev nD) (t : Fin cfgL.N) : (dats m 0 c).after 1 t = iblk m c 1 t := by dsimp only [dats]
theorem after2 (c : Dev nD) (t : Fin cfgL.N) : (dats m 0 c).after 2 t = iblk m c 2 t := by dsimp only [dats]
theorem after3 (c : Dev nD) (t : Fin cfgL.N) : (dats m 0 c).after 3 t = (outsAt m c t.val t.isLt).1 := by dsimp only [dats]

theorem before0 (c : Dev nD) (t : Fin cfgL.N) (d) : (dats m 0 c).before 0 t d = iblk m c 0 t :=
  before0_of m (dats m 0 c) (A_eq m c 0) (after0 m c) t d
theorem before1 (c : Dev nD) (t : Fin cfgL.N) (d) : (dats m 0 c).before 1 t d = iblk m c 1 t :=
  before1_of m (dats m 0 c) (A_eq m c 1) (after1 m c) t d
theorem before2 (c : Dev nD) (t : Fin cfgL.N) (d) : (dats m 0 c).before 2 t d = iblk m c 2 t :=
  before2_of m (dats m 0 c) (A_eq m c 2) (after2 m c) t d

/-! ## `outsAt` at each kind of point -/

theorem outsAt_A (c : Dev nD) (t : Fin cfgL.N) (h0 : t.val % 3 = 0) :
    outsAt m c t.val t.isLt =
      (outA7 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega)),
       soutA10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))) := by
  obtain ⟨n, hn⟩ := t
  cases n with
  | zero => rfl
  | succ n => exact (dif_pos h0).trans rfl

theorem outsAt_B (c : Dev nD) (t : Fin cfgL.N) (h1 : t.val % 3 = 1) :
    outsAt m c t.val t.isLt =
      ((outsAt m c (t.val - 1) (Nat.lt_of_le_of_lt (Nat.sub_le _ _) t.isLt)).1,
       soutB8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1),
       soutB9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1),
       soutB10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1)) := by
  obtain ⟨n, hn⟩ := t
  cases n with
  | zero => exact absurd h1 (by simp)
  | succ n => exact (dif_neg (by dsimp only at h1; omega)).trans ((dif_pos h1).trans rfl)

theorem outsAt_C (c : Dev nD) (t : Fin cfgL.N) (h2 : t.val % 3 = 2) :
    outsAt m c t.val t.isLt =
      (outC7 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC8 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC9 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega)),
       soutC10 c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 (nresetOf t c h2) (diagOf t c (by omega)) (nbelowOf t c (by omega))) := by
  obtain ⟨n, hn⟩ := t
  cases n with
  | zero => exact absurd h2 (by simp)
  | succ n => exact (dif_neg (by dsimp only at h2; omega)).trans ((dif_neg (by dsimp only at h2; omega)).trans rfl)

/-! ## The body's obligation -/

/-- What the body is called with at point `t`, the four windows one by one, -/
def bodyPre (c : Dev nD) (t : Fin cfgL.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfgL.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in (c : Dev nD) (w : Fin 3) (t : Fin cfgL.N) :
    (dats m 0 c).leavesExact w.castSucc t = owns (c : Thread nD τ) ((cfgL.win w.castSucc).stage (cfgL.slots t w.castSucc)) fullShare ((dats m 0 c).after w.castSucc t) := by
  unfold Dat.leavesExact; rw [live_in w (cfgL.grid.coords t)]

theorem leaves3_live (c : Dev nD) (t : Fin cfgL.N) (h : t.val % 3 ≠ 1) :
    (dats m 0 c).leavesExact 3 t = owns (c : Thread nD τ) (ms3 t) fullShare ((dats m 0 c).after 3 t) := by
  unfold Dat.leavesExact; rw [show cfgL.idle 3 (cfgL.grid.coords t) = false from (idle3 t).trans (decide_eq_false h)]

theorem leaves3_idle (c : Dev nD) (t : Fin cfgL.N) (h : t.val % 3 = 1) :
    (dats m 0 c).leavesExact 3 t = iprop(∃ d, owns (c : Thread nD τ) (ms3 t) fullShare ((dats m 0 c).before 3 t d)) :=
  Dat.leavesExact_idle (dats m 0 c) 3 t ((idle3 t).trans (decide_eq_true h)) ((flush3 t).trans (decide_eq_false (by omega)))

theorem leaves0 (c : Dev nD) (t : Fin cfgL.N) : (dats m 0 c).leavesExact 0 t = owns (c : Thread nD τ) (ms0 t) fullShare ((dats m 0 c).after 0 t) := by
  unfold Dat.leavesExact; rw [show cfgL.idle 0 (cfgL.grid.coords t) = false from live_in 0 _]
theorem leaves1 (c : Dev nD) (t : Fin cfgL.N) : (dats m 0 c).leavesExact 1 t = owns (c : Thread nD τ) (ms1 t) fullShare ((dats m 0 c).after 1 t) := by
  unfold Dat.leavesExact; rw [show cfgL.idle 1 (cfgL.grid.coords t) = false from live_in 1 _]
theorem leaves2 (c : Dev nD) (t : Fin cfgL.N) : (dats m 0 c).leavesExact 2 t = owns (c : Thread nD τ) (ms2 t) fullShare ((dats m 0 c).after 2 t) := by
  unfold Dat.leavesExact; rw [show cfgL.idle 2 (cfgL.grid.coords t) = false from live_in 2 _]

set_option maxHeartbeats 8000000 in
/-- The body at any point: the inputs' buffers hold their blocks; the point's pair decides which run applies; the kept
    buffers go in at what the point before left (at anything on a pair that resets) and come back at this point's. -/
theorem sound_body (c : Dev nD) (t : Fin cfgL.N) :
    bodyPre m c t ⊢ wp frame (wpE (defs₀ (F := Ideal)) Variants.none c none) Set.univ (bodyAt t) (fun _ => bodyPost m c t) := by
  unfold bodyPre bodyPost bodyAt
  simp only [before0, before1, before2]
  rw [show (dats m 0 c).owesAt () t.succ = (dats m 0 c).owesAt () t.castSucc from rfl]
  rw [show (dats m 0 c).Φ t.succ = iprop(PhiS m c (t.val + 1) t.isLt ∗ Pipeline.ΦT pre0 tbl c) from rfl, PhiS_succ]
  rw [leaves0, leaves1, leaves2, after0, after1, after2, Phi_castSucc, PhiT_eq]
  have hN : t.val < 192 := lt_of_lt_of_eq t.isLt N_L
  by_cases h0 : t.val % 3 = 0
  · rw [leaves3_live m c t (by omega), after3, outsAt_A m c t h0]
    unfold outA7 soutA8 soutA9 soutA10; (try dsimp only)
    by_cases hz : t.val = 0
    · rw [PhiS_zero m c _ _ hz, PhiA_eq]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverA8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverA9 _ _ _ _ _ _ _ _ _ _ _ _ _ _ _ _ _ _ _ _ _ _ _ _)
            unfold owns; iexists _; isplitr
            swap; · iexact HS2
            ipureintro; exact View.read_writes_of_cover _ _ _ _ _ (coverA10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA7 _ _ _ _ _ _ _ _ _ _ _ _ _ _ _ _ _ _ _ _ _ _ _ _)
    · rw [PhiS_pos m c _ _ hz]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverA8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverA9 _ _ _ _ _ _ _ _ _ _ _ _ _ _ _ _ _ _ _ _ _ _ _ _)
            unfold owns; iexists _; isplitr
            swap; · iexact HS2
            ipureintro; exact View.read_writes_of_cover _ _ _ _ _ (coverA10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverA7 _ _ _ _ _ _ _ _ _ _ _ _ _ _ _ _ _ _ _ _ _ _ _ _)
  · by_cases h1 : t.val % 3 = 1
    · rw [leaves3_idle m c t h1, outsAt_B m c t h1]
      unfold soutB8 soutB9 soutB10; (try dsimp only)
      rw [PhiS_pos m c _ _ (by omega)]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunB c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) (resetOf t c (by omega)) (ndiagOf t c h1) (belowOf t c h1)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverB8 _ _ _ _ _ _ _ _ _ _ _ _ _ _ _ _ _ _ _ _ _ _ _ _)
            isplitl [HS1]
            · unfold owns; iexists _; isplitr
              swap; · iexact HS1
              ipureintro; exact View.read_writes_of_cover _ _ _ _ _ (coverB9 _ _ _ _ _ _ _ _ _ _ _ _ _ _ _ _ _ _ _ _ _ _ _ _)
            unfold owns; iexists _; isplitr
            swap; · iexact HS2
            ipureintro; exact View.read_writes_of_cover _ _ _ _ _ (coverB10 _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      iexists _; iexact H3
    · have h2 : t.val % 3 = 2 := by omega
      rw [leaves3_live m c t (by omega), after3, outsAt_C m c t h2]
      unfold outC7 soutC8 soutC9 soutC10; (try dsimp only)
      rw [PhiS_pos m c _ _ (by omega)]
      iintro ⟨⟨⟨⟨HS0, HS1, HS2⟩, Hg⟩, ⟨HT0, HT1⟩⟩, Ho, ⟨%d0, H0⟩, ⟨%d1, H1⟩, ⟨%d2, H2⟩, ⟨%d3, H3⟩⟩
      iapply ((kernelRunC c (grid0.coords t) (ms0 t) (hs0 t) (ms1 t) (hs1 t) (ms2 t) (hs2 t) (ms3 t) (hs3 t) scM0 (Memref.isWhole_whole _) scM1 (Memref.isWhole_whole _) scM2 (Memref.isWhole_whole _) (iblk m c 0 t) (iblk m c 1 t) (iblk m c 2 t) (tbl 0) (tbl 1) _ _ _ (nresetOf t c h2) (diagOf t c (by omega)) (nbelowOf t c (by omega))).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HS0 HS1 HS2 Hg HT0 HT1]
      · isplitl [HS0 HS1 HS2 Hg]
        · isplitl [HS0 HS1 HS2]
          · isplitl [HS0]
            · unfold owns; iexists _; isplitr
              swap; · iexact HS0
              ipureintro; exact View.read_writes_of_cover _ _ _ _ _ (coverC8 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (coverC9 _ _ _ _ _ _ _ _ _ _ _ _ _ _ _ _ _ _ _ _ _ _ _ _ _ _ _)
            unfold owns; iexists _; isplitr
            swap; · iexact HS2
            ipureintro; exact View.read_writes_of_cover _ _ _ _ _ (coverC10 _ _ _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC7 _ _ _ _ _ _ _ _ _ _ _ _ _ _ _ _ _ _ _ _ _ _ _ _ _ _ _)

/-- The library's body obligation, at every point. -/
theorem body_obligation (c : Dev nD) : BodyObligation (dats m 0 c) (defs₀ (F := Ideal)) Variants.none () Set.univ := fun t => by
  rw [bigSep_W0, bigSep_W0]
  exact sound_body m c t

end Cert.KernelIdeal.Hand

end
-- ==== Proof.Ideal.Run.lean ====
/-
  The run of the whole program around the launch: it terminates without fault; the three arguments end
  unchanged; the result is the launch's result array after every write-back, re-laid as [4, 16, 2048, 64].
-/
import proofs.«401446_j86672440033785_3_alg».proof.Proof.Ideal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run -/

theorem hin (c : Dev nD) : iprop(Pipeline.ΦA spec0 c ∗ Pipeline.ΦT pre0 tbl c) ⊢ (dats m 0 c).Φ 0 := by
  rw [show (dats m 0 c).Φ 0 = iprop(PhiS m c 0 (Nat.zero_le _) ∗ Pipeline.ΦT pre0 tbl c) from rfl, PhiS_zero m c 0 _ rfl]
  try exact Idealize.SL.BI.Entails.refl _

theorem hout (c : Dev nD) : (dats m 0 c).Φ (Fin.last cfgL.N) ⊢ Pipeline.ΦA spec0 c := by
  rw [show (dats m 0 c).Φ (Fin.last cfgL.N) = iprop(PhiS m c (Fin.last cfgL.N).val (Nat.le_of_lt_succ (Fin.last cfgL.N).isLt) ∗ Pipeline.ΦT pre0 tbl c) from rfl,
    PhiS_pos m c _ _ (by rw [Fin.val_last]; have := N_L; omega), PhiA_eq]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates without fault; at the end each array of the launch holds
    what the write-backs left, and every other buffer what the closing re-lay leaves from the entry contents. -/
theorem run_main : θ_run defs (onTc (τ := τ) (main (F := Ideal))) (s₀ m ρ)
    (Pipeline.FramePost (Pipeline.pin pcfgs fun _ => adm) (dats m) 0 (Pipeline.afterTail pcfgs (fun _ => adm) (dats m) 0 (V0 m) [hostOps1])) :=
  Pipeline.θ_run_frameP_around_track pcfgs (fun _ => adm) (dats m) (0 : Fin 1) (launch0 (F := Ideal)) defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- An argument array is no array of the launch and nothing writes it: at the end it is as at the start. -/
theorem tail_arg (c : Dev nD) (b : Ref sig .tc) (hb : b = main_arg0 ∨ b = main_arg1 ∨ b = main_arg2) :
    Pipeline.afterTail pcfgs (fun _ => adm) (dats m) 0 (V0 m) [hostOps1] c b = m ((c : Thread nD τ).loc b) := by
  unfold Pipeline.afterTail
  rcases hb with rfl | rfl | rfl
  all_goals
    simp only [hostOps1, List.flatten_cons, List.flatten_nil, List.append_nil]
    after_results
    rw [Pipeline.withArrays_of_ne spec0 c _ _ _ (fun w => by fin_cases w <;> decide)]
    dsimp only [V0]
    simp only [hostOps0, List.flatten_cons, List.flatten_nil, List.append_nil, List.cons_append, List.nil_append]
    after_results
    try rfl

/-- The program's result: the launch's result array after every write-back, re-laid as [4, 16, 2048, 64]. -/
theorem tail_res (c : Dev nD) :
    Pipeline.afterTail pcfgs (fun _ => adm) (dats m) 0 (V0 m) [hostOps1] c main_v5
      = shapeCast S4x16x2048x64 ((dats m 0 c).arrAt 3 (Pipeline.pin pcfgs (fun _ => adm) 0).N : (⟨S64x2048x64, .f32⟩ : BufTy).Contents (Elt Ideal)) shapeCasts_S64x2048x64_S4x16x2048x64 := by
  unfold Pipeline.afterTail
  simp only [hostOps1, List.flatten_cons, List.flatten_nil, List.append_nil]
  after_results
  rw [Pipeline.withArrays_arr spec0 (launch0 (F := Ideal)).win.arr_inj c _ _ 3]
  generalize (dats m 0 c).arrAt 3 _ = A
  rfl

/-- The number of points, spelled either way. -/
theorem N_pin : (Pipeline.pin pcfgs (fun _ => adm) 0).N = cfgL.N := rfl

/-- The run, with the result array named and the arguments unchanged. -/
theorem run_value : θ_run defs (onTc (τ := τ) (main (F := Ideal))) ⟨m, fun _ => 0, ρ⟩ (fun r => ∀ c : Dev nD,
      r.2.mem ((c.tc : Thread nD τ).loc main_v5)
        = shapeCast S4x16x2048x64 ((dats m 0 c).arrAt 3 (Pipeline.pin pcfgs (fun _ => adm) 0).N : (⟨S64x2048x64, .f32⟩ : BufTy).Contents (Elt Ideal)) shapeCasts_S64x2048x64_S4x16x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (by decide : main_v5 ∈ Pipeline.restRefs sig spec0)).trans (tail_res m c),
     ((h c).2 main_arg0 (by decide : main_arg0 ∈ Pipeline.restRefs sig spec0)).trans (tail_arg m c _ (.inl rfl)),
     ((h c).2 main_arg1 (by decide : main_arg1 ∈ Pipeline.restRefs sig spec0)).trans (tail_arg m c _ (.inr (.inl rfl))),
     ((h c).2 main_arg2 (by decide : main_arg2 ∈ Pipeline.restRefs sig spec0)).trans (tail_arg m c _ (.inr (.inr rfl)))⟩) (run_main m ρ)

/-- The frame: the program runs to the end without fault and leaves its three arguments unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.Ideal.Pieces.lean ====
/-
  What the three kinds of tile pair leave, as the pure values of the kernel's text: the kept buffers after a
  pair are the update of what they held before it (the reset values on a first pair), and the result block is the
  quotient of the two running sums just stored.
-/
import proofs.«401446_j86672440033785_3_alg».proof.Proof.Ideal.Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## Whole-block stores and loads -/

/-- The literal offsets of a whole-block rectangle are zero. -/
private theorem hz3 : (![0, 0, 0] : Fin 3 → Nat) = fun _ => 0 := funext fun a => by fin_cases a <;> rfl

/-- A load of the whole block, after stores of which the last is a store of the whole block, reads that last payload. -/
private theorem readCov_cons_whole {sg : RefSig} {κ : Kind} {sp : Space} {S : Shape} {e : EltTy}
    (v : View sg κ sp S e) {off : Fin S.rank → Nat} (h : off = fun _ => 0)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-! ## A first and diagonal pair: from the reset values -/

theorem soutA8_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) :
    soutA8 c i arg4 harg4 arg5 harg5 arg6 harg6 arg7 harg7 arg8 harg8 arg9 harg9 arg10 harg10 x0 x1 x2 xt0 xt1 hr hd hb = k0_pay5 (k0_pay14 (k0_pay4 (F := Ideal) x0 x1) (k0_pay1 (F := Ideal))) := by
  unfold soutA8
  rw [View.read_writes_eq_canon _ _ _ (coverA8 c i arg4 harg4 arg5 harg5 arg6 harg6 arg7 harg7 arg8 harg8 arg9 harg9 arg10 harg10 x0 x1 x2 xt0 xt1 hr hd hb)]
  unfold kernelRunA
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutA9_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) :
    soutA9 c i arg4 harg4 arg5 harg5 arg6 harg6 arg7 harg7 arg8 harg8 arg9 harg9 arg10 harg10 x0 x1 x2 xt0 xt1 hr hd hb = k0_pay17 (k0_pay4 (F := Ideal) x0 x1) (k0_pay1 (F := Ideal)) (k0_pay2 (F := Ideal)) := by
  unfold soutA9
  rw [View.read_writes_eq_canon _ _ _ (coverA9 c i arg4 harg4 arg5 harg5 arg6 harg6 arg7 harg7 arg8 harg8 arg9 harg9 arg10 harg10 x0 x1 x2 xt0 xt1 hr hd hb)]
  unfold kernelRunA
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutA10_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) :
    soutA10 c i arg4 harg4 arg5 harg5 arg6 harg6 arg7 harg7 arg8 harg8 arg9 harg9 arg10 harg10 x0 x1 x2 xt0 xt1 hr hd hb = k0_pay18 (k0_pay4 (F := Ideal) x0 x1) (k0_pay1 (F := Ideal)) x2 (k0_pay3 (F := Ideal)) := by
  unfold soutA10
  rw [View.read_writes_eq_canon _ _ _ (coverA10 c i arg4 harg4 arg5 harg5 arg6 harg6 arg7 harg7 arg8 harg8 arg9 harg9 arg10 harg10 x0 x1 x2 xt0 xt1 hr hd hb)]
  unfold kernelRunA
  dsimp only
  sl_unfold_words
  rw [View.canon_cons_unit_zero (S := S1x1024x64) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem outA7_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : condDiag (wq c i xt0) (wk c i xt1)) (hb : ¬condBelow (wq c i xt0) (wk c i xt1)) :
    outA7 c i arg4 harg4 arg5 harg5 arg6 harg6 arg7 harg7 arg8 harg8 arg9 harg9 arg10 harg10 x0 x1 x2 xt0 xt1 hr hd hb = k0_pay6 (k0_pay18 (k0_pay4 (F := Ideal) x0 x1) (k0_pay1 (F := Ideal)) x2 (k0_pay3 (F := Ideal))) (k0_pay17 (k0_pay4 (F := Ideal) x0 x1) (k0_pay1 (F := Ideal)) (k0_pay2 (F := Ideal))) := by
  unfold outA7
  rw [View.read_writes_eq_canon _ _ _ (coverA7 c i arg4 harg4 arg5 harg5 arg6 harg6 arg7 harg7 arg8 harg8 arg9 harg9 arg10 harg10 x0 x1 x2 xt0 xt1 hr hd hb)]
  unfold kernelRunA
  dsimp only
  sl_unfold_words
  rw [View.canon_cons_unit_zero (S := S1x1024x64) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]

/-! ## A first pair below the diagonal: from the reset values, no mask, the result's buffer untouched -/

theorem soutB8_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) :
    soutB8 c i arg4 harg4 arg5 harg5 arg6 harg6 arg7 harg7 arg8 harg8 arg9 harg9 arg10 harg10 x0 x1 x2 xt0 xt1 hr hd hb = k0_pay12 (F := Ideal) x0 x1 (k0_pay1 (F := Ideal)) := by
  unfold soutB8
  rw [View.read_writes_eq_canon _ _ _ (coverB8 c i arg4 harg4 arg5 harg5 arg6 harg6 arg7 harg7 arg8 harg8 arg9 harg9 arg10 harg10 x0 x1 x2 xt0 xt1 hr hd hb)]
  unfold kernelRunB
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutB9_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) :
    soutB9 c i arg4 harg4 arg5 harg5 arg6 harg6 arg7 harg7 arg8 harg8 arg9 harg9 arg10 harg10 x0 x1 x2 xt0 xt1 hr hd hb = k0_pay10 (F := Ideal) x0 x1 (k0_pay1 (F := Ideal)) (k0_pay2 (F := Ideal)) := by
  unfold soutB9
  rw [View.read_writes_eq_canon _ _ _ (coverB9 c i arg4 harg4 arg5 harg5 arg6 harg6 arg7 harg7 arg8 harg8 arg9 harg9 arg10 harg10 x0 x1 x2 xt0 xt1 hr hd hb)]
  unfold kernelRunB
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutB10_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1) (hr : condReset (wk c i xt1)) (hd : ¬condDiag (wq c i xt0) (wk c i xt1)) (hb : condBelow (wq c i xt0) (wk c i xt1)) :
    soutB10 c i arg4 harg4 arg5 harg5 arg6 harg6 arg7 harg7 arg8 harg8 arg9 harg9 arg10 harg10 x0 x1 x2 xt0 xt1 hr hd hb = k0_pay11 (F := Ideal) x0 x1 (k0_pay1 (F := Ideal)) x2 (k0_pay3 (F := Ideal)) := by
  unfold soutB10
  rw [View.read_writes_eq_canon _ _ _ (coverB10 c i arg4 harg4 arg5 harg5 arg6 harg6 arg7 harg7 arg8 harg8 arg9 harg9 arg10 harg10 x0 x1 x2 xt0 xt1 hr hd hb)]
  unfold kernelRunB
  dsimp only
  sl_unfold_words
  rw [View.canon_cons_unit_zero (S := S1x1024x64) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]

/-! ## A later diagonal pair: from what the pair before left -/

theorem soutC8_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) :
    soutC8 c i arg4 harg4 arg5 harg5 arg6 harg6 arg7 harg7 arg8 harg8 arg9 harg9 arg10 harg10 x0 x1 x2 xt0 xt1 xs0 xs1 xs2 hr hd hb = k0_pay5 (k0_pay14 (k0_pay4 (F := Ideal) x0 x1) xs0) := by
  unfold soutC8
  rw [View.read_writes_eq_canon _ _ _ (coverC8 c i arg4 harg4 arg5 harg5 arg6 harg6 arg7 harg7 arg8 harg8 arg9 harg9 arg10 harg10 x0 x1 x2 xt0 xt1 xs0 xs1 xs2 hr hd hb)]
  unfold kernelRunC
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutC9_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) :
    soutC9 c i arg4 harg4 arg5 harg5 arg6 harg6 arg7 harg7 arg8 harg8 arg9 harg9 arg10 harg10 x0 x1 x2 xt0 xt1 xs0 xs1 xs2 hr hd hb = k0_pay17 (k0_pay4 (F := Ideal) x0 x1) xs0 xs1 := by
  unfold soutC9
  rw [View.read_writes_eq_canon _ _ _ (coverC9 c i arg4 harg4 arg5 harg5 arg6 harg6 arg7 harg7 arg8 harg8 arg9 harg9 arg10 harg10 x0 x1 x2 xt0 xt1 xs0 xs1 xs2 hr hd hb)]
  unfold kernelRunC
  dsimp only
  sl_unfold_words
  rw [View.canon_cons_unit_zero (S := S1x1024x1) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem soutC10_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) :
    soutC10 c i arg4 harg4 arg5 harg5 arg6 harg6 arg7 harg7 arg8 harg8 arg9 harg9 arg10 harg10 x0 x1 x2 xt0 xt1 xs0 xs1 xs2 hr hd hb = k0_pay18 (k0_pay4 (F := Ideal) x0 x1) xs0 x2 xs2 := by
  unfold soutC10
  rw [View.read_writes_eq_canon _ _ _ (coverC10 c i arg4 harg4 arg5 harg5 arg6 harg6 arg7 harg7 arg8 harg8 arg9 harg9 arg10 harg10 x0 x1 x2 xt0 xt1 xs0 xs1 xs2 hr hd hb)]
  unfold kernelRunC
  dsimp only
  sl_unfold_words
  rw [View.canon_cons_unit_zero (S := S1x1024x64) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]
theorem outC7_eq (c : Dev nD) (i : grid0.Coords) (arg4 : Memref sig .tc .vmem S1x1024x64 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (x0 : Vec Ideal S1x1024x64 .f32) (x1 : Vec Ideal S1x64x1024 .f32) (x2 : Vec Ideal S1x1024x64 .f32)
    (xt0 : TbBuf c tbM0) (xt1 : TbBuf c tbM1)
    (xs0 : Vec Ideal S1x1024x1 .f32) (xs1 : Vec Ideal S1x1024x1 .f32) (xs2 : Vec Ideal S1x1024x64 .f32) (hr : ¬condReset (wk c i xt1)) (hd : condDiag (wq c i xt0) (wk c i xt1)) (hb : ¬condBelow (wq c i xt0) (wk c i xt1)) :
    outC7 c i arg4 harg4 arg5 harg5 arg6 harg6 arg7 harg7 arg8 harg8 arg9 harg9 arg10 harg10 x0 x1 x2 xt0 xt1 xs0 xs1 xs2 hr hd hb = k0_pay6 (k0_pay18 (k0_pay4 (F := Ideal) x0 x1) xs0 x2 xs2) (k0_pay17 (k0_pay4 (F := Ideal) x0 x1) xs0 xs1) := by
  unfold outC7
  rw [View.read_writes_eq_canon _ _ _ (coverC7 c i arg4 harg4 arg5 harg5 arg6 harg6 arg7 harg7 arg8 harg8 arg9 harg9 arg10 harg10 x0 x1 x2 xt0 xt1 xs0 xs1 xs2 hr hd hb)]
  unfold kernelRunC
  dsimp only
  sl_unfold_words
  rw [View.canon_cons_unit_zero (S := S1x1024x64) hz3]
  simp only [View.readAt_eq_ld, harg4.read_unread, harg5.read_unread, harg6.read_unread, harg8.read_unread, harg9.read_unread, harg10.read_unread, View.ld_unit_zero (S := S1x1024x64) hz3, View.ld_unit_zero (S := S1x64x1024) hz3, View.ld_unit_zero (S := S1x1024x1) hz3, readCov_cons_whole (S := S1x1024x1) _ hz3, readCov_cons_whole (S := S1x1024x64) _ hz3]

end Cert.KernelIdeal.Hand

end
-- ==== Proof.Tile.lean ====
/-
  Causal softmax attention of one head, and the same computed tile by tile.

  `attn Q K V q d` is the textbook value over the reals: the scaled scores of query row `q` against the key rows
  `k ≤ q`, exponentiated after subtracting their maximum, normalised, and applied to the value rows. The kernel
  reaches it through two square tiles of 1024 rows with a running maximum, a running sum and a running weighted
  sum, rescaled whenever the maximum grows (`newMax`, `newSum`, `newAcc`, `quot`); the reference reaches it as
  one masked softmax over all 2048 keys (`refOut`). Over finite inputs all three are the same real number: the
  masked entries are the bottom element, whose exponential is 0, and exp (a - b) · exp (b - c) = exp (a - c).
-/
import Idealize.ShloMosaic.PureOps.Ideal
import Idealize.ShloMosaic.PureOps.Ideal.Laws

noncomputable section

namespace Cert.Attn

open Idealize.ShloMosaic

/-! ## The value over the reals -/

/-- The scaled score of query row `q` against key row `k`. -/
def score (Q K : Fin 2048 → Fin 64 → ℝ) (q k : Fin 2048) : ℝ := (∑ d : Fin 64, Q q d * K k d) * (1 / 8)
/-- The key rows a query row attends to. -/
def seen (q : Fin 2048) : Finset (Fin 2048) := Finset.univ.filter (· ≤ q)
theorem seen_nonempty (q : Fin 2048) : (seen q).Nonempty := ⟨q, by simp [seen]⟩
/-- The largest score of a row among the keys it attends to. -/
def top (Q K : Fin 2048 → Fin 64 → ℝ) (q : Fin 2048) : ℝ := (seen q).sup' (seen_nonempty q) (score Q K q)
/-- Causal attention. -/
def attn (Q K V : Fin 2048 → Fin 64 → ℝ) (q : Fin 2048) (d : Fin 64) : ℝ :=
  (∑ k ∈ seen q, Real.exp (score Q K q k - top Q K q) * V k d) / (∑ k ∈ seen q, Real.exp (score Q K q k - top Q K q))

/-! ## One tile's step, over the extended reals -/

/-- The scale 1/8 as both programs spell it. -/
abbrev eighth : EReal := Ideal.ofBits .f32 0x3E000000#32
theorem eighth_eq : eighth = ((1 / 8 : ℝ) : EReal) := by
  show Ideal.ofBits .f32 0x3E000000#32 = _
  simp [Ideal.ofBits, Ideal.ieee, -EReal.coe_mul]; norm_num

/-- A tile's scores: rows of the scaled query block against columns of the transposed key block. -/
def scores (qb : Fin 1024 → Fin 64 → EReal) (kt : Fin 64 → Fin 1024 → EReal) (r k : Fin 1024) : EReal :=
  ∑ d : Fin 64, (qb r d * eighth) * kt d k
/-- The causal mask inside a diagonal tile. -/
def masked (s : Fin 1024 → Fin 1024 → EReal) (r k : Fin 1024) : EReal := if k ≤ r then s r k else ⊥
/-- The running maximum after a tile with scores `s`. -/
def newMax (s : Fin 1024 → Fin 1024 → EReal) (m : Fin 1024 → EReal) (r : Fin 1024) : EReal :=
  max (m r) ((Finset.univ : Finset (Fin 1024)).fold max ⊥ (s r))
/-- The running sum of exponentials, rescaled to the new maximum. -/
def newSum (s : Fin 1024 → Fin 1024 → EReal) (m l : Fin 1024 → EReal) (r : Fin 1024) : EReal :=
  Ideal.exp (m r - newMax s m r) * l r + ∑ k : Fin 1024, Ideal.exp (s r k - newMax s m r)
/-- The running weighted sum of value rows, rescaled to the new maximum. -/
def newAcc (s : Fin 1024 → Fin 1024 → EReal) (vb : Fin 1024 → Fin 64 → EReal) (m : Fin 1024 → EReal)
    (acc : Fin 1024 → Fin 64 → EReal) (r : Fin 1024) (d : Fin 64) : EReal :=
  Ideal.exp (m r - newMax s m r) * acc r d + ∑ k : Fin 1024, Ideal.exp (s r k - newMax s m r) * vb k d
/-- The result block: weighted sum over sum. -/
def quot (l : Fin 1024 → EReal) (acc : Fin 1024 → Fin 64 → EReal) (r : Fin 1024) (d : Fin 64) : EReal :=
  Ideal.div (acc r d) (l r)

/-- Row `r` of the lower tile and of the upper tile among the 2048 rows. -/
def lo (r : Fin 1024) : Fin 2048 := ⟨r.val, by omega⟩
def hi (r : Fin 1024) : Fin 2048 := ⟨1024 + r.val, by omega⟩

/-! ## The reference's one softmax over all keys -/

def refScore (Q K : Fin 2048 → Fin 64 → EReal) (q k : Fin 2048) : EReal := (∑ d : Fin 64, Q q d * K k d) * eighth
def refMasked (Q K : Fin 2048 → Fin 64 → EReal) (q k : Fin 2048) : EReal := if k ≤ q then refScore Q K q k else ⊥
def refTop (Q K : Fin 2048 → Fin 64 → EReal) (q : Fin 2048) : EReal :=
  max ⊥ ((Finset.univ : Finset (Fin 2048)).fold max ⊥ (refMasked Q K q))
def refDen (Q K : Fin 2048 → Fin 64 → EReal) (q : Fin 2048) : EReal :=
  0 + ∑ k : Fin 2048, Ideal.exp (refMasked Q K q k - refTop Q K q)
def refOut (Q K V : Fin 2048 → Fin 64 → EReal) (q : Fin 2048) (d : Fin 64) : EReal :=
  ∑ k : Fin 2048, Ideal.div (Ideal.exp (refMasked Q K q k - refTop Q K q)) (refDen Q K q) * V k d

end Cert.Attn

end
-- ==== Proof.Ideal.PayScores.lean ====
/-
  The pure values the tiled kernel stores, read at an index (first part): the reset values, a tile's scores as
  the sum over the 64 features of (query · 1/8) · key, the causal mask inside a diagonal tile (row ≥ column keeps
  the score, otherwise the bottom element), the product of a tile of weights with a block of value rows, and the
  final quotient.
-/
import proofs.«401446_j86672440033785_3_alg».proof.Proof.Gen.KernelIdeal.Skeleton
import proofs.«401446_j86672440033785_3_alg».proof.Proof.Tile
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Cert.KernelIdeal Cert.KernelIdeal.Gen
open Idealize.ShloMosaic Idealize.ShloMosaic.ValueIdx Cert.Attn

/-- A [1, 1024, 1024] tile, a [1, 1024, 64] block, a transposed [1, 64, 1024] block and a [1, 1024, 1] column as plain
    functions of their coordinates. -/
abbrev tileOf (s : FVec Ideal S1x1024x1024 .f32) : Fin 1024 → Fin 1024 → EReal := fun r k => s (ix3 0 r k)
abbrev qOf (x : FVec Ideal S1x1024x64 .f32) : Fin 1024 → Fin 64 → EReal := fun r d => x (ix3 0 r d)
abbrev ktOf (x : FVec Ideal S1x64x1024 .f32) : Fin 64 → Fin 1024 → EReal := fun d k => x (ix3 0 d k)
abbrev colOf (x : FVec Ideal S1x1024x1 .f32) : Fin 1024 → EReal := fun r => x (ix3 0 r 0)

/-- The named large negative constant is the bottom element of the extended reals. -/
private theorem negBig_eq : Named.named (F := Ideal) Cert.KernelIdeal.κ "neg_big" (φ := .f32) 0xFF333332#32 = (⊥ : EReal) :=
  IdealRules.named_const.ideal_named_scalar _ _ _ _ rfl

/-- The reset values: the named bottom element, and zero. -/
theorem pay1_apply (i : S1x1024x1.Idx) : k0_pay1 (F := Ideal) i = ⊥ := by
  unfold k0_pay1
  simp only [shapeCast_self]
  exact negBig_eq
theorem pay2_apply (i : S1x1024x1.Idx) : k0_pay2 (F := Ideal) i = 0 := by
  unfold k0_pay2
  simp only [shapeCast_self]
  exact Ideal.ofBits_zero_f32
theorem pay3_apply (i : S1x1024x64.Idx) : k0_pay3 (F := Ideal) i = 0 := by
  unfold k0_pay3
  simp only [shapeCast_self]
  exact Ideal.ofBits_zero_f32

/-- A re-lay to the same shape changes nothing. -/
theorem pay5_eq (v : FVec Ideal S1x1024x1 .f32) : k0_pay5 (F := Ideal) v = v := by
  unfold k0_pay5
  exact shapeCast_self _ _

/-- A column spread over the 64 features reads its row. -/
private theorem bcast_col64 (l : FVec Ideal S1x1024x1 .f32) (r : Fin 1024) (d : Fin 64) :
    broadcastTo S1x1024x64 l broadcasts_S1x1024x1_S1x1024x64 (ix3 0 r d) = l (ix3 0 r 0) :=
  broadcastTo_apply _ _ _ _ (fun a => by
    match a with
    | ⟨0, _⟩ => rfl
    | ⟨1, _⟩ => rfl
    | ⟨2, _⟩ => rfl)

/-- The result block. -/
theorem pay6_apply (acc : Vec Ideal S1x1024x64 .f32) (l : Vec Ideal S1x1024x1 .f32) (r : Fin 1024) (d : Fin 64) :
    k0_pay6 (F := Ideal) acc l (ix3 0 r d) = quot (colOf l) (qOf acc) r d := by
  unfold k0_pay6
  show Ideal.div (acc (ix3 0 r d)) (broadcastTo S1x1024x64 l broadcasts_S1x1024x1_S1x1024x64 (ix3 0 r d)) = _
  rw [bcast_col64]
  rfl

/-! ## The two contractions: the operand indices, axis by axis -/

private theorem lhs_wv_0 (i : S1x1024x64.Idx) (q : dot_S1x1024x1024_S1x1024x64_S1x1024x64_2_1_1_2_0_0.contr.Idx) :
    (dot_S1x1024x1024_S1x1024x64_S1x1024x64_2_1_1_2_0_0.lhsIdx i q 0).val = (i 0).val := by
  unfold DotDims.lhsIdx
  rw [dif_pos (show (0 : Fin S1x1024x1024.rank) ∈ dot_S1x1024x1024_S1x1024x64_S1x1024x64_2_1_1_2_0_0.lhsBatch by decide)]
  rfl
private theorem lhs_wv_1 (i : S1x1024x64.Idx) (q : dot_S1x1024x1024_S1x1024x64_S1x1024x64_2_1_1_2_0_0.contr.Idx) :
    (dot_S1x1024x1024_S1x1024x64_S1x1024x64_2_1_1_2_0_0.lhsIdx i q 1).val = (i 1).val := by
  unfold DotDims.lhsIdx
  rw [dif_neg (show ¬(1 : Fin S1x1024x1024.rank) ∈ dot_S1x1024x1024_S1x1024x64_S1x1024x64_2_1_1_2_0_0.lhsBatch by decide), dif_pos (show (1 : Fin S1x1024x1024.rank) ∈ dot_S1x1024x1024_S1x1024x64_S1x1024x64_2_1_1_2_0_0.lhsNonContracting by decide)]
  rfl
private theorem lhs_wv_2 (i : S1x1024x64.Idx) (q : dot_S1x1024x1024_S1x1024x64_S1x1024x64_2_1_1_2_0_0.contr.Idx) :
    (dot_S1x1024x1024_S1x1024x64_S1x1024x64_2_1_1_2_0_0.lhsIdx i q 2).val = (q ⟨0, by decide⟩).val :=
  dot_S1x1024x1024_S1x1024x64_S1x1024x64_2_1_1_2_0_0.lhsIdx_val_of_single rfl i q
private theorem rhs_wv_0 (i : S1x1024x64.Idx) (q : dot_S1x1024x1024_S1x1024x64_S1x1024x64_2_1_1_2_0_0.contr.Idx) :
    (dot_S1x1024x1024_S1x1024x64_S1x1024x64_2_1_1_2_0_0.rhsIdx i q 0).val = (i 0).val := by
  unfold DotDims.rhsIdx
  rw [dif_pos (show (0 : Fin S1x1024x64.rank) ∈ dot_S1x1024x1024_S1x1024x64_S1x1024x64_2_1_1_2_0_0.rhsBatch by decide)]
  rfl
private theorem rhs_wv_1 (i : S1x1024x64.Idx) (q : dot_S1x1024x1024_S1x1024x64_S1x1024x64_2_1_1_2_0_0.contr.Idx) :
    (dot_S1x1024x1024_S1x1024x64_S1x1024x64_2_1_1_2_0_0.rhsIdx i q 1).val = (q ⟨0, by decide⟩).val :=
  dot_S1x1024x1024_S1x1024x64_S1x1024x64_2_1_1_2_0_0.rhsIdx_val_of_single rfl i q
private theorem rhs_wv_2 (i : S1x1024x64.Idx) (q : dot_S1x1024x1024_S1x1024x64_S1x1024x64_2_1_1_2_0_0.contr.Idx) :
    (dot_S1x1024x1024_S1x1024x64_S1x1024x64_2_1_1_2_0_0.rhsIdx i q 2).val = (i 2).val := by
  unfold DotDims.rhsIdx
  rw [dif_neg (show ¬(2 : Fin S1x1024x64.rank) ∈ dot_S1x1024x1024_S1x1024x64_S1x1024x64_2_1_1_2_0_0.rhsBatch by decide), dif_pos (show (2 : Fin S1x1024x64.rank) ∈ dot_S1x1024x1024_S1x1024x64_S1x1024x64_2_1_1_2_0_0.rhsNonContracting by decide)]
  rfl

private theorem lhs_sc_0 (i : S1x1024x1024.Idx) (q : dot_S1x1024x64_S1x64x1024_S1x1024x1024_2_1_1_2_0_0.contr.Idx) :
    (dot_S1x1024x64_S1x64x1024_S1x1024x1024_2_1_1_2_0_0.lhsIdx i q 0).val = (i 0).val := by
  unfold DotDims.lhsIdx
  rw [dif_pos (show (0 : Fin S1x1024x64.rank) ∈ dot_S1x1024x64_S1x64x1024_S1x1024x1024_2_1_1_2_0_0.lhsBatch by decide)]
  rfl
private theorem lhs_sc_1 (i : S1x1024x1024.Idx) (q : dot_S1x1024x64_S1x64x1024_S1x1024x1024_2_1_1_2_0_0.contr.Idx) :
    (dot_S1x1024x64_S1x64x1024_S1x1024x1024_2_1_1_2_0_0.lhsIdx i q 1).val = (i 1).val := by
  unfold DotDims.lhsIdx
  rw [dif_neg (show ¬(1 : Fin S1x1024x64.rank) ∈ dot_S1x1024x64_S1x64x1024_S1x1024x1024_2_1_1_2_0_0.lhsBatch by decide), dif_pos (show (1 : Fin S1x1024x64.rank) ∈ dot_S1x1024x64_S1x64x1024_S1x1024x1024_2_1_1_2_0_0.lhsNonContracting by decide)]
  rfl
private theorem lhs_sc_2 (i : S1x1024x1024.Idx) (q : dot_S1x1024x64_S1x64x1024_S1x1024x1024_2_1_1_2_0_0.contr.Idx) :
    (dot_S1x1024x64_S1x64x1024_S1x1024x1024_2_1_1_2_0_0.lhsIdx i q 2).val = (q ⟨0, by decide⟩).val :=
  dot_S1x1024x64_S1x64x1024_S1x1024x1024_2_1_1_2_0_0.lhsIdx_val_of_single rfl i q
private theorem rhs_sc_0 (i : S1x1024x1024.Idx) (q : dot_S1x1024x64_S1x64x1024_S1x1024x1024_2_1_1_2_0_0.contr.Idx) :
    (dot_S1x1024x64_S1x64x1024_S1x1024x1024_2_1_1_2_0_0.rhsIdx i q 0).val = (i 0).val := by
  unfold DotDims.rhsIdx
  rw [dif_pos (show (0 : Fin S1x64x1024.rank) ∈ dot_S1x1024x64_S1x64x1024_S1x1024x1024_2_1_1_2_0_0.rhsBatch by decide)]
  rfl
private theorem rhs_sc_1 (i : S1x1024x1024.Idx) (q : dot_S1x1024x64_S1x64x1024_S1x1024x1024_2_1_1_2_0_0.contr.Idx) :
    (dot_S1x1024x64_S1x64x1024_S1x1024x1024_2_1_1_2_0_0.rhsIdx i q 1).val = (q ⟨0, by decide⟩).val :=
  dot_S1x1024x64_S1x64x1024_S1x1024x1024_2_1_1_2_0_0.rhsIdx_val_of_single rfl i q
private theorem rhs_sc_2 (i : S1x1024x1024.Idx) (q : dot_S1x1024x64_S1x64x1024_S1x1024x1024_2_1_1_2_0_0.contr.Idx) :
    (dot_S1x1024x64_S1x64x1024_S1x1024x1024_2_1_1_2_0_0.rhsIdx i q 2).val = (i 2).val := by
  unfold DotDims.rhsIdx
  rw [dif_neg (show ¬(2 : Fin S1x64x1024.rank) ∈ dot_S1x1024x64_S1x64x1024_S1x1024x1024_2_1_1_2_0_0.rhsBatch by decide), dif_pos (show (2 : Fin S1x64x1024.rank) ∈ dot_S1x1024x64_S1x64x1024_S1x1024x1024_2_1_1_2_0_0.rhsNonContracting by decide)]
  rfl

/-- Weights times value rows (both operands pass through a change of float format, the identity here). -/
theorem weights_values_apply (p : FVec Ideal S1x1024x1024 .f32) (v : Vec Ideal S1x1024x64 .f32) (r : Fin 1024) (d : Fin 64) :
    matmul dot_S1x1024x1024_S1x1024x64_S1x1024x64_2_1_1_2_0_0 none (truncf .bf16 p bitsLt_bf16_f32)
        (truncf .bf16 (shapeCast S1x1024x64 v shapeCasts_S1x1024x64_S1x1024x64) bitsLt_bf16_f32)
        (constant (F := Ideal) S1x1024x64 .f32 0x00000000#32) (ix3 0 r d)
      = ∑ k : Fin 1024, p (ix3 0 r k) * v (ix3 0 k d) := by
  simp only [matmul]
  rw [Ideal.matmul_constant_zero_apply, ← Equiv.sum_comp (ValueIdx.contrEquiv1 dot_S1x1024x1024_S1x1024x64_S1x1024x64_2_1_1_2_0_0 1024 rfl rfl).symm]
  refine Finset.sum_congr rfl fun k _ => ?_
  have hk := ValueIdx.contrEquiv1_symm_val dot_S1x1024x1024_S1x1024x64_S1x1024x64_2_1_1_2_0_0 1024 rfl rfl k
  have el : dot_S1x1024x1024_S1x1024x64_S1x1024x64_2_1_1_2_0_0.lhsIdx (ix3 0 r d) ((ValueIdx.contrEquiv1 dot_S1x1024x1024_S1x1024x64_S1x1024x64_2_1_1_2_0_0 1024 rfl rfl).symm k) = ix3 0 r k := funext fun a => Fin.ext (by
    match a with
    | ⟨0, _⟩ => exact lhs_wv_0 _ _
    | ⟨1, _⟩ => exact lhs_wv_1 _ _
    | ⟨2, _⟩ => exact (lhs_wv_2 _ _).trans hk)
  have er : dot_S1x1024x1024_S1x1024x64_S1x1024x64_2_1_1_2_0_0.rhsIdx (ix3 0 r d) ((ValueIdx.contrEquiv1 dot_S1x1024x1024_S1x1024x64_S1x1024x64_2_1_1_2_0_0 1024 rfl rfl).symm k) = ix3 0 k d := funext fun a => Fin.ext (by
    match a with
    | ⟨0, _⟩ => exact rhs_wv_0 _ _
    | ⟨1, _⟩ => exact (rhs_wv_1 _ _).trans hk
    | ⟨2, _⟩ => exact rhs_wv_2 _ _)
  rw [el, er, truncf_apply, truncf_apply, shapeCast_self]

/-- A tile's scores. -/
theorem pay4_apply (x0 : Vec Ideal S1x1024x64 .f32) (x1 : Vec Ideal S1x64x1024 .f32) (r k : Fin 1024) :
    k0_pay4 (F := Ideal) x0 x1 (ix3 0 r k) = scores (qOf x0) (ktOf x1) r k := by
  unfold k0_pay4
  simp only [matmul]
  rw [Ideal.matmul_constant_zero_apply, ← Equiv.sum_comp (ValueIdx.contrEquiv1 dot_S1x1024x64_S1x64x1024_S1x1024x1024_2_1_1_2_0_0 64 rfl rfl).symm]
  unfold scores
  refine Finset.sum_congr rfl fun d _ => ?_
  have hd := ValueIdx.contrEquiv1_symm_val dot_S1x1024x64_S1x64x1024_S1x1024x1024_2_1_1_2_0_0 64 rfl rfl d
  have el : dot_S1x1024x64_S1x64x1024_S1x1024x1024_2_1_1_2_0_0.lhsIdx (ix3 0 r k) ((ValueIdx.contrEquiv1 dot_S1x1024x64_S1x64x1024_S1x1024x1024_2_1_1_2_0_0 64 rfl rfl).symm d) = ix3 0 r d := funext fun a => Fin.ext (by
    match a with
    | ⟨0, _⟩ => exact lhs_sc_0 _ _
    | ⟨1, _⟩ => exact lhs_sc_1 _ _
    | ⟨2, _⟩ => exact (lhs_sc_2 _ _).trans hd)
  have er : dot_S1x1024x64_S1x64x1024_S1x1024x1024_2_1_1_2_0_0.rhsIdx (ix3 0 r k) ((ValueIdx.contrEquiv1 dot_S1x1024x64_S1x64x1024_S1x1024x1024_2_1_1_2_0_0 64 rfl rfl).symm d) = ix3 0 d k := funext fun a => Fin.ext (by
    match a with
    | ⟨0, _⟩ => exact rhs_sc_0 _ _
    | ⟨1, _⟩ => exact (rhs_sc_1 _ _).trans hd
    | ⟨2, _⟩ => exact rhs_sc_2 _ _)
  rw [el, er, truncf_apply, truncf_apply, shapeCast_self, shapeCast_self]
  rfl

/-! ## The causal mask: row and column numbers as 32-bit words -/

/-- A column of row numbers spread over a tile reads its row. -/
private theorem bcast_col1024 {α : Type} (x : S1x1024x1.Idx → α) (r k : Fin 1024) :
    broadcastTo S1x1024x1024 x broadcasts_S1x1024x1_S1x1024x1024 (ix3 0 r k) = x (ix3 0 r 0) :=
  broadcastTo_apply _ _ _ _ (fun a => by
    match a with
    | ⟨0, _⟩ => rfl
    | ⟨1, _⟩ => rfl
    | ⟨2, _⟩ => rfl)

/-- A row of column numbers spread over a tile reads its column. -/
private theorem bcast_row1024 {α : Type} (x : S1x1x1024.Idx → α) (r k : Fin 1024) :
    broadcastTo S1x1024x1024 x broadcasts_S1x1x1024_S1x1024x1024 (ix3 0 r k) = x (ix3 0 0 k) :=
  broadcastTo_apply _ _ _ _ (fun a => by
    match a with
    | ⟨0, _⟩ => rfl
    | ⟨1, _⟩ => rfl
    | ⟨2, _⟩ => rfl)

/-- A natural below 1024 read back, signed, from its 32-bit word. -/
private theorem toInt_ofNat_small (a : Nat) (ha : a < 1024) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- The signed comparison "row ≥ column" of two such words is the comparison of the naturals. -/
private theorem cmpi_sge_small (a b : Nat) (ha : a < 1024) (hb : b < 1024) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle_eq_decide, toInt_ofNat_small a ha, toInt_ofNat_small b hb]
  by_cases h : b ≤ a
  · rw [if_pos h, decide_eq_true (by omega : (b : Int) ≤ (a : Int))]; rfl
  · rw [if_neg h, decide_eq_false (by omega : ¬ (b : Int) ≤ (a : Int))]; rfl

/-- The causal mask. -/
theorem pay13_apply (s : FVec Ideal S1x1024x1024 .f32) (r k : Fin 1024) :
    k0_pay13 (F := Ideal) s (ix3 0 r k) = masked (tileOf s) r k := by
  unfold k0_pay13
  simp only [select_apply, broadcast_apply]
  show Scalar.select (IntOp.cmpi .sge
      (broadcastTo S1x1024x1024 (iota .tc S1x1024x1 32 [1] iota_S1x1024x1_d1_w32) broadcasts_S1x1024x1_S1x1024x1024 (ix3 0 r k))
      (broadcastTo S1x1024x1024 (iota .tc S1x1x1024 32 [2] iota_S1x1x1024_d2_w32) broadcasts_S1x1x1024_S1x1024x1024 (ix3 0 r k)))
    (s (ix3 0 r k)) _ = _
  rw [bcast_col1024, bcast_row1024, iota_single_apply, iota_single_apply, negBig_eq]
  show Scalar.select (IntOp.cmpi .sge (BitVec.ofNat 32 r.val) (BitVec.ofNat 32 k.val)) (s (ix3 0 r k)) ⊥ = _
  rw [cmpi_sge_small r.val k.val r.isLt k.isLt]
  unfold masked
  by_cases h : k ≤ r
  · rw [if_pos h, if_pos (show k.val ≤ r.val from h), select_one]
  · rw [if_neg h, if_neg (show ¬ k.val ≤ r.val from h), select_zero]

end Cert.KernelIdeal.Pay

end
-- ==== Proof.Ideal.PayUpdate.lean ====
/-
  The pure values the tiled kernel stores, read at an index (second part): the running maximum, the running sum
  of exponentials and the running weighted sum after a tile — over the masked scores of a diagonal tile, and over
  the plain scores of a tile below the diagonal.
-/
import proofs.«401446_j86672440033785_3_alg».proof.Proof.Ideal.PayScores

noncomputable section

namespace Cert.KernelIdeal.Pay

open Cert.KernelIdeal Cert.KernelIdeal.Gen
open Idealize.ShloMosaic Idealize.ShloMosaic.ValueIdx Cert.Attn

/-- A row's index with lane `k` put back is (0, r, k). -/
private theorem lift_row (h : S1x1024x1024.Reduces [2] S1x1024) (r : Fin 1024) (k : Fin (S1x1024x1024.size 2)) :
    h.lift (ix2 (0 : Fin 1) r) k = ix3 (0 : Fin 1) r (⟨k.val, k.isLt⟩ : Fin 1024) := by
  funext c; apply Fin.ext
  fin_cases c <;> rfl

/-- A [1, 1024] row vector cast to a [1, 1024, 1] column, read at (0, r, 0), is entry (0, r). -/
private theorem colCast_apply (z : FVec Ideal S1x1024 .f32) (h : S1x1024.ShapeCasts S1x1024x1) (r : Fin 1024) :
    shapeCast S1x1024x1 z h (ix3 (0 : Fin 1) r (0 : Fin 1)) = z (ix2 (0 : Fin 1) r) :=
  shapeCast_apply z h _ _ (by
    rw [Shape.rowMajor_val_three, Shape.rowMajor_val_two]
    show 0 * 1024 + r.val = (0 * 1024 + r.val) * 1 + 0
    omega)

/-- A [1, 1024, 1] column broadcast over 1024 lanes, read at (0, r, k), is the column at row r. -/
private theorem bcast1024_apply {α : Type} (c : S1x1024x1.Idx → α) (h : S1x1024x1.Broadcasts S1x1024x1024) (r k : Fin 1024) :
    broadcastTo S1x1024x1024 c h (ix3 (0 : Fin 1) r k) = c (ix3 (0 : Fin 1) r (0 : Fin 1)) := by
  refine broadcastTo_apply c h _ _ fun ax => ?_
  match ax with
  | ⟨0, _⟩ => rfl
  | ⟨1, _⟩ => rfl
  | ⟨2, _⟩ => rfl

/-- A [1, 1024, 1] column broadcast over 64 lanes, read at (0, r, d), is the column at row r. -/
private theorem bcast64_apply {α : Type} (c : S1x1024x1.Idx → α) (h : S1x1024x1.Broadcasts S1x1024x64) (r : Fin 1024) (d : Fin 64) :
    broadcastTo S1x1024x64 c h (ix3 (0 : Fin 1) r d) = c (ix3 (0 : Fin 1) r (0 : Fin 1)) := by
  refine broadcastTo_apply c h _ _ fun ax => ?_
  match ax with
  | ⟨0, _⟩ => rfl
  | ⟨1, _⟩ => rfl
  | ⟨2, _⟩ => rfl

/-- The row maximum of a tile, as a column. -/
private theorem rowMax_apply (t : FVec Ideal S1x1024x1024 .f32) (r : Fin 1024) :
    shapeCast S1x1024x1 (multiReduction (F := Ideal) .maximumf [2] S1x1024 t 0xFF800000#32 reduces_S1x1024x1024_S1x1024 (.inl rfl) rfl)
        shapeCasts_S1x1024_S1x1024x1 (ix3 (0 : Fin 1) r (0 : Fin 1))
      = (Finset.univ : Finset (Fin 1024)).fold max ⊥ (tileOf t r) := by
  rw [colCast_apply]
  refine (Ideal.multiReduction_maximumf_single t _ reduces_S1x1024x1024_S1x1024 _ _ (ix2 (0 : Fin 1) r)).trans ?_
  have hb : (FloatOps.ofBits (F := Ideal) .f32 0xFF800000#32 : EReal) = ⊥ := by
    show Ideal.ofBits .f32 0xFF800000#32 = ⊥
    simp [Ideal.ofBits, Ideal.ieee]
  have hf : (t ∘ reduces_S1x1024x1024_S1x1024.lift (ix2 (0 : Fin 1) r)) = tileOf t r :=
    funext fun k => congrArg t (lift_row _ r k)
  rw [hb, hf]
  rfl

/-- The row sum of a tile, as a column. -/
private theorem rowSum_apply (t : FVec Ideal S1x1024x1024 .f32) (r : Fin 1024) :
    shapeCast S1x1024x1 (multiReduction (F := Ideal) .add [2] S1x1024 t 0x00000000#32 reduces_S1x1024x1024_S1x1024 (.inl rfl) rfl)
        shapeCasts_S1x1024_S1x1024x1 (ix3 (0 : Fin 1) r (0 : Fin 1))
      = ∑ k : Fin 1024, tileOf t r k := by
  rw [colCast_apply]
  refine (Ideal.multiReduction_add_single t _ reduces_S1x1024x1024_S1x1024 _ _ (ix2 (0 : Fin 1) r)).trans ?_
  exact Finset.sum_congr rfl fun k _ => congrArg t (lift_row _ r k)

/-! ## One tile's update, for any tile of scores `t` -/

/-- The running maximum after a tile of scores `t`. -/
private def updMax (t : FVec Ideal S1x1024x1024 .f32) (m : Vec Ideal S1x1024x1 .f32) : FVec Ideal S1x1024x1 .f32 :=
  maximumf m (shapeCast S1x1024x1
    (multiReduction (F := Ideal) .maximumf [2] S1x1024 t 0xFF800000#32 reduces_S1x1024x1024_S1x1024 (.inl rfl) rfl)
    shapeCasts_S1x1024_S1x1024x1)
/-- The factor that rescales the old sums to the new maximum. -/
private def updScale (t : FVec Ideal S1x1024x1024 .f32) (m : Vec Ideal S1x1024x1 .f32) : FVec Ideal S1x1024x1 .f32 :=
  exp (subf m (updMax t m))
/-- The tile's weights: exponentials of the scores less the new maximum. -/
private def updWeights (t : FVec Ideal S1x1024x1024 .f32) (m : Vec Ideal S1x1024x1 .f32) : FVec Ideal S1x1024x1024 .f32 :=
  exp (subf t (broadcastTo S1x1024x1024 (updMax t m) broadcasts_S1x1024x1_S1x1024x1024))
/-- The running sum after the tile. -/
private def updSum (t : FVec Ideal S1x1024x1024 .f32) (m l : Vec Ideal S1x1024x1 .f32) : FVec Ideal S1x1024x1 .f32 :=
  shapeCast S1x1024x1
    (addf (mulf (updScale t m) l)
      (shapeCast S1x1024x1
        (multiReduction (F := Ideal) .add [2] S1x1024 (updWeights t m) 0x00000000#32 reduces_S1x1024x1024_S1x1024 (.inl rfl) rfl)
        shapeCasts_S1x1024_S1x1024x1))
    shapeCasts_S1x1024x1_S1x1024x1
/-- The running weighted sum after the tile. -/
private def updAcc (t : FVec Ideal S1x1024x1024 .f32) (m : Vec Ideal S1x1024x1 .f32) (x2 acc : Vec Ideal S1x1024x64 .f32) :
    FVec Ideal S1x1024x64 .f32 :=
  shapeCast S1x1024x64
    (addf (mulf (broadcastTo S1x1024x64 (updScale t m) broadcasts_S1x1024x1_S1x1024x64) acc)
      (matmul dot_S1x1024x1024_S1x1024x64_S1x1024x64_2_1_1_2_0_0 none (truncf .bf16 (updWeights t m) bitsLt_bf16_f32)
        (truncf .bf16 (shapeCast S1x1024x64 x2 shapeCasts_S1x1024x64_S1x1024x64) bitsLt_bf16_f32)
        (constant (F := Ideal) S1x1024x64 .f32 0x00000000#32)))
    shapeCasts_S1x1024x64_S1x1024x64

private theorem updMax_apply (t : FVec Ideal S1x1024x1024 .f32) (m : Vec Ideal S1x1024x1 .f32) (r : Fin 1024) :
    updMax t m (ix3 (0 : Fin 1) r (0 : Fin 1)) = newMax (tileOf t) (colOf m) r := by
  unfold updMax
  rw [maximumf_apply, rowMax_apply]
  rfl

private theorem updScale_apply (t : FVec Ideal S1x1024x1024 .f32) (m : Vec Ideal S1x1024x1 .f32) (r : Fin 1024) :
    updScale t m (ix3 (0 : Fin 1) r (0 : Fin 1)) = Ideal.exp (colOf m r - newMax (tileOf t) (colOf m) r) := by
  show Ideal.exp (m (ix3 (0 : Fin 1) r (0 : Fin 1)) - updMax t m (ix3 (0 : Fin 1) r (0 : Fin 1))) = _
  rw [updMax_apply]

private theorem updWeights_apply (t : FVec Ideal S1x1024x1024 .f32) (m : Vec Ideal S1x1024x1 .f32) (r k : Fin 1024) :
    updWeights t m (ix3 (0 : Fin 1) r k) = Ideal.exp (tileOf t r k - newMax (tileOf t) (colOf m) r) := by
  show Ideal.exp (t (ix3 (0 : Fin 1) r k)
    - broadcastTo S1x1024x1024 (updMax t m) broadcasts_S1x1024x1_S1x1024x1024 (ix3 (0 : Fin 1) r k)) = _
  rw [bcast1024_apply, updMax_apply]

private theorem updSum_apply (t : FVec Ideal S1x1024x1024 .f32) (m l : Vec Ideal S1x1024x1 .f32) (r : Fin 1024) :
    updSum t m l (ix3 (0 : Fin 1) r (0 : Fin 1)) = newSum (tileOf t) (colOf m) (colOf l) r := by
  unfold updSum
  rw [shapeCast_self, addf_apply, mulf_apply, rowSum_apply, updScale_apply]
  unfold newSum
  congr 1
  exact Finset.sum_congr rfl fun k _ => updWeights_apply t m r k

private theorem updAcc_apply (t : FVec Ideal S1x1024x1024 .f32) (m : Vec Ideal S1x1024x1 .f32) (x2 acc : Vec Ideal S1x1024x64 .f32)
    (r : Fin 1024) (d : Fin 64) :
    updAcc t m x2 acc (ix3 (0 : Fin 1) r d) = newAcc (tileOf t) (qOf x2) (colOf m) (qOf acc) r d := by
  unfold updAcc
  rw [shapeCast_self, addf_apply, mulf_apply, bcast64_apply, updScale_apply, weights_values_apply]
  unfold newAcc
  congr 1
  exact Finset.sum_congr rfl fun k _ => by rw [updWeights_apply]

/-- The masked tile, as a function of row and lane. -/
private theorem tileOf_pay13 (s : FVec Ideal S1x1024x1024 .f32) : tileOf (k0_pay13 (F := Ideal) s) = masked (tileOf s) :=
  funext fun r => funext fun k => pay13_apply s r k
/-- The plain tile, as a function of row and lane. -/
private theorem tileOf_pay4 (x0 : Vec Ideal S1x1024x64 .f32) (x1 : Vec Ideal S1x64x1024 .f32) :
    tileOf (k0_pay4 (F := Ideal) x0 x1) = scores (qOf x0) (ktOf x1) :=
  funext fun r => funext fun k => pay4_apply x0 x1 r k

/-! ## After a diagonal tile (scores `s`, masked) -/

theorem pay14_apply (s : FVec Ideal S1x1024x1024 .f32) (m : Vec Ideal S1x1024x1 .f32) (r : Fin 1024) :
    k0_pay14 (F := Ideal) s m (ix3 0 r 0) = newMax (masked (tileOf s)) (colOf m) r := by
  show updMax (k0_pay13 (F := Ideal) s) m (ix3 (0 : Fin 1) r (0 : Fin 1)) = _
  rw [updMax_apply, tileOf_pay13]
theorem pay17_apply (s : FVec Ideal S1x1024x1024 .f32) (m l : Vec Ideal S1x1024x1 .f32) (r : Fin 1024) :
    k0_pay17 (F := Ideal) s m l (ix3 0 r 0) = newSum (masked (tileOf s)) (colOf m) (colOf l) r := by
  show updSum (k0_pay13 (F := Ideal) s) m l (ix3 (0 : Fin 1) r (0 : Fin 1)) = _
  rw [updSum_apply, tileOf_pay13]
theorem pay18_apply (s : FVec Ideal S1x1024x1024 .f32) (m : Vec Ideal S1x1024x1 .f32) (x2 acc : Vec Ideal S1x1024x64 .f32)
    (r : Fin 1024) (d : Fin 64) :
    k0_pay18 (F := Ideal) s m x2 acc (ix3 0 r d) = newAcc (masked (tileOf s)) (qOf x2) (colOf m) (qOf acc) r d := by
  show updAcc (k0_pay13 (F := Ideal) s) m x2 acc (ix3 (0 : Fin 1) r d) = _
  rw [updAcc_apply, tileOf_pay13]

/-! ## After a tile below the diagonal (query block `x0`, transposed key block `x1`, no mask) -/

theorem pay7_apply (x0 : Vec Ideal S1x1024x64 .f32) (x1 : Vec Ideal S1x64x1024 .f32) (m : Vec Ideal S1x1024x1 .f32) (r : Fin 1024) :
    k0_pay7 (F := Ideal) x0 x1 m (ix3 0 r 0) = newMax (scores (qOf x0) (ktOf x1)) (colOf m) r := by
  show updMax (k0_pay4 (F := Ideal) x0 x1) m (ix3 (0 : Fin 1) r (0 : Fin 1)) = _
  rw [updMax_apply, tileOf_pay4]
theorem pay12_eq (x0 : Vec Ideal S1x1024x64 .f32) (x1 : Vec Ideal S1x64x1024 .f32) (m : Vec Ideal S1x1024x1 .f32) :
    k0_pay12 (F := Ideal) x0 x1 m = k0_pay7 (F := Ideal) x0 x1 m := by
  unfold k0_pay12
  exact shapeCast_self _ _
theorem pay10_apply (x0 : Vec Ideal S1x1024x64 .f32) (x1 : Vec Ideal S1x64x1024 .f32) (m l : Vec Ideal S1x1024x1 .f32) (r : Fin 1024) :
    k0_pay10 (F := Ideal) x0 x1 m l (ix3 0 r 0) = newSum (scores (qOf x0) (ktOf x1)) (colOf m) (colOf l) r := by
  show updSum (k0_pay4 (F := Ideal) x0 x1) m l (ix3 (0 : Fin 1) r (0 : Fin 1)) = _
  rw [updSum_apply, tileOf_pay4]
theorem pay11_apply (x0 : Vec Ideal S1x1024x64 .f32) (x1 : Vec Ideal S1x64x1024 .f32) (m : Vec Ideal S1x1024x1 .f32)
    (x2 acc : Vec Ideal S1x1024x64 .f32) (r : Fin 1024) (d : Fin 64) :
    k0_pay11 (F := Ideal) x0 x1 m x2 acc (ix3 0 r d) = newAcc (scores (qOf x0) (ktOf x1)) (qOf x2) (colOf m) (qOf acc) r d := by
  show updAcc (k0_pay4 (F := Ideal) x0 x1) m x2 acc (ix3 (0 : Fin 1) r d) = _
  rw [updAcc_apply, tileOf_pay4]

end Cert.KernelIdeal.Pay

end
-- ==== Proof.Ideal.Blocks.lean ====
/-
  Where the tiles sit in the arrays. Point `t` of the launch works on head `t / 3`; its query rows and result
  rows are tile 0 of that head when `t % 3 = 0` and tile 1 otherwise; its key and value rows are tile 1 when
  `t % 3 = 2` and tile 0 otherwise. The launch's arrays are the arguments re-laid head-major (head 16·b + h), the
  keys also transposed; the program's result is the launch's result re-laid back.
-/
import proofs.«401446_j86672440033785_3_alg».proof.Proof.Ideal.Kit
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (m : (ℓ : Loc nD τ sig) → Buf (Elt Ideal) ℓ)

/-- Head, query tile and key tile of a point. -/
def headOf (t : Fin cfgL.N) : Fin 64 := ⟨t.val / 3, by have := lt_of_lt_of_eq t.isLt N_L; omega⟩
def qRow (t : Fin cfgL.N) (r : Fin 1024) : Fin 2048 := ⟨(if t.val % 3 = 0 then 0 else 1024) + r.val, by split <;> omega⟩
def kRow (t : Fin cfgL.N) (k : Fin 1024) : Fin 2048 := ⟨(if t.val % 3 = 2 then 1024 else 0) + k.val, by split <;> omega⟩
def batchOf (g : Fin 64) : Fin 4 := ⟨g.val / 16, by omega⟩
def chanOf (g : Fin 64) : Fin 16 := ⟨g.val % 16, by omega⟩

/-! ## The index maps, decided over the 192 points -/

theorem idx0 : ∀ t : Fin cfgL.N, (cfgL.win 0).index t = ![t.val / 3, if t.val % 3 = 0 then 0 else 1, 0] := by decide +kernel
theorem idx1 : ∀ t : Fin cfgL.N, (cfgL.win 1).index t = ![t.val / 3, 0, if t.val % 3 = 2 then 1 else 0] := by decide +kernel
theorem idx2 : ∀ t : Fin cfgL.N, (cfgL.win 2).index t = ![t.val / 3, if t.val % 3 = 2 then 1 else 0, 0] := by decide +kernel
theorem idx3 : ∀ t : Fin cfgL.N, (cfgL.win 3).index t = ![t.val / 3, if t.val % 3 = 0 then 0 else 1, 0] := by decide +kernel

/-! ## Where a block's element sits in its array: block index times block size plus the coordinate -/

theorem emb0 (t : Fin cfgL.N) (r : Fin 1024) (d : Fin 64) :
    (((cfgL.win 0).blk t).view.emb (ix3 0 r d : S1x1024x64.Idx) : S64x2048x64.Idx) = ix3 (headOf t) (qRow t r) d := by
  have e0 : (cfgL.win 0).index t (0 : Fin 3) = t.val / 3 := congrFun (idx0 t) 0
  have e1 : (cfgL.win 0).index t (1 : Fin 3) = if t.val % 3 = 0 then 0 else 1 := congrFun (idx0 t) 1
  have e2 : (cfgL.win 0).index t (2 : Fin 3) = 0 := congrFun (idx0 t) 2
  funext a; apply Fin.ext
  match a with
  | ⟨0, _⟩ =>
    show (cfgL.win 0).index t (0 : Fin 3) * 1 + 1 * (0 : Fin 1).val = t.val / 3
    rw [e0]; simp
  | ⟨1, _⟩ =>
    show (cfgL.win 0).index t (1 : Fin 3) * 1024 + 1 * r.val = (if t.val % 3 = 0 then 0 else 1024) + r.val
    rw [e1]; split <;> omega
  | ⟨2, _⟩ =>
    show (cfgL.win 0).index t (2 : Fin 3) * 64 + 1 * d.val = d.val
    rw [e2]; omega

theorem emb1 (t : Fin cfgL.N) (d : Fin 64) (k : Fin 1024) :
    (((cfgL.win 1).blk t).view.emb (ix3 0 d k : S1x64x1024.Idx) : S64x64x2048.Idx) = ix3 (headOf t) d (kRow t k) := by
  have e0 : (cfgL.win 1).index t (0 : Fin 3) = t.val / 3 := congrFun (idx1 t) 0
  have e1 : (cfgL.win 1).index t (1 : Fin 3) = 0 := congrFun (idx1 t) 1
  have e2 : (cfgL.win 1).index t (2 : Fin 3) = if t.val % 3 = 2 then 1 else 0 := congrFun (idx1 t) 2
  funext a; apply Fin.ext
  match a with
  | ⟨0, _⟩ =>
    show (cfgL.win 1).index t (0 : Fin 3) * 1 + 1 * (0 : Fin 1).val = t.val / 3
    rw [e0]; simp
  | ⟨1, _⟩ =>
    show (cfgL.win 1).index t (1 : Fin 3) * 64 + 1 * d.val = d.val
    rw [e1]; omega
  | ⟨2, _⟩ =>
    show (cfgL.win 1).index t (2 : Fin 3) * 1024 + 1 * k.val = (if t.val % 3 = 2 then 1024 else 0) + k.val
    rw [e2]; split <;> omega

theorem emb2 (t : Fin cfgL.N) (k : Fin 1024) (d : Fin 64) :
    (((cfgL.win 2).blk t).view.emb (ix3 0 k d : S1x1024x64.Idx) : S64x2048x64.Idx) = ix3 (headOf t) (kRow t k) d := by
  have e0 : (cfgL.win 2).index t (0 : Fin 3) = t.val / 3 := congrFun (idx2 t) 0
  have e1 : (cfgL.win 2).index t (1 : Fin 3) = if t.val % 3 = 2 then 1 else 0 := congrFun (idx2 t) 1
  have e2 : (cfgL.win 2).index t (2 : Fin 3) = 0 := congrFun (idx2 t) 2
  funext a; apply Fin.ext
  match a with
  | ⟨0, _⟩ =>
    show (cfgL.win 2).index t (0 : Fin 3) * 1 + 1 * (0 : Fin 1).val = t.val / 3
    rw [e0]; simp
  | ⟨1, _⟩ =>
    show (cfgL.win 2).index t (1 : Fin 3) * 1024 + 1 * k.val = (if t.val % 3 = 2 then 1024 else 0) + k.val
    rw [e1]; split <;> omega
  | ⟨2, _⟩ =>
    show (cfgL.win 2).index t (2 : Fin 3) * 64 + 1 * d.val = d.val
    rw [e2]; omega

/-! ## The launch's arrays as the host left them, read at an element -/

/-- The head-major re-lay read at (head, row, feature): head g is batch g / 16, channel g % 16. -/
theorem lay_apply (A : FVec Ideal S4x16x2048x64 .f32) (g : Fin 64) (q : Fin 2048) (d : Fin 64) :
    shapeCast S64x2048x64 A shapeCasts_S4x16x2048x64_S64x2048x64 (ix3 g q d) = A (ix4 (batchOf g) (chanOf g) q d) := by
  refine shapeCast_apply A _ _ _ ?_
  rw [Shape.rowMajor_val_three, Shape.rowMajor_val_four]
  show (((g.val / 16) * 16 + g.val % 16) * 2048 + q.val) * 64 + d.val = ((g.val * 2048 + q.val) * 64 + d.val)
  have := Nat.div_add_mod g.val 16
  omega

/-- The transpose of the last two axes read at (head, feature, row). -/
theorem tr_apply (A : FVec Ideal S64x2048x64 .f32) (g : Fin 64) (d : Fin 64) (k : Fin 2048) :
    transpose S64x64x2048 [0, 2, 1] A transposes_S64x2048x64_S64x64x2048_0_2_1 (ix3 g d k) = A (ix3 g k d) := by
  refine transpose_apply _ A _ _ _ ?_
  intro b
  match b with
  | ⟨0, _⟩ => rfl
  | ⟨1, _⟩ => rfl
  | ⟨2, _⟩ => rfl

theorem V_v0 (c : Dev nD) : (V m c main_v0 : S64x2048x64.Idx → EReal)
    = shapeCast S64x2048x64 (m ((c : Thread nD τ).loc main_arg0) : FVec Ideal S4x16x2048x64 .f32) shapeCasts_S4x16x2048x64_S64x2048x64 := by
  dsimp only [V, V0]
  simp only [hostOps0, List.flatten_cons, List.flatten_nil, List.append_nil, List.cons_append, List.nil_append]
  after_results; rfl

theorem V_v2 (c : Dev nD) : (V m c main_v2 : S64x2048x64.Idx → EReal)
    = shapeCast S64x2048x64 (m ((c : Thread nD τ).loc main_arg2) : FVec Ideal S4x16x2048x64 .f32) shapeCasts_S4x16x2048x64_S64x2048x64 := by
  dsimp only [V, V0]
  simp only [hostOps0, List.flatten_cons, List.flatten_nil, List.append_nil, List.cons_append, List.nil_append]
  after_results; rfl

theorem V_v3 (c : Dev nD) : (V m c main_v3 : S64x64x2048.Idx → EReal)
    = transpose S64x64x2048 [0, 2, 1] (shapeCast S64x2048x64 (m ((c : Thread nD τ).loc main_arg1) : FVec Ideal S4x16x2048x64 .f32) shapeCasts_S4x16x2048x64_S64x2048x64) transposes_S64x2048x64_S64x64x2048_0_2_1 := by
  dsimp only [V, V0]
  simp only [hostOps0, List.flatten_cons, List.flatten_nil, List.append_nil, List.cons_append, List.nil_append]
  after_results; rfl

/-- The three input blocks of a point, at an element, are elements of the three arguments. -/
theorem q_block (c : Dev nD) (t : Fin cfgL.N) (r : Fin 1024) (d : Fin 64) :
    (iblk m c 0 t : Vec Ideal S1x1024x64 .f32) (ix3 0 r d)
      = (m ((c : Thread nD τ).loc main_arg0) : FVec Ideal S4x16x2048x64 .f32) (ix4 (batchOf (headOf t)) (chanOf (headOf t)) (qRow t r) d) := by
  show (V m c main_v0 : S64x2048x64.Idx → EReal) (((cfgL.win 0).blk t).view.emb (ix3 0 r d : S1x1024x64.Idx)) = _
  rw [emb0, V_v0, lay_apply]
theorem kt_block (c : Dev nD) (t : Fin cfgL.N) (d : Fin 64) (k : Fin 1024) :
    (iblk m c 1 t : Vec Ideal S1x64x1024 .f32) (ix3 0 d k)
      = (m ((c : Thread nD τ).loc main_arg1) : FVec Ideal S4x16x2048x64 .f32) (ix4 (batchOf (headOf t)) (chanOf (headOf t)) (kRow t k) d) := by
  show (V m c main_v3 : S64x64x2048.Idx → EReal) (((cfgL.win 1).blk t).view.emb (ix3 0 d k : S1x64x1024.Idx)) = _
  rw [emb1, V_v3, tr_apply, lay_apply]
theorem v_block (c : Dev nD) (t : Fin cfgL.N) (k : Fin 1024) (d : Fin 64) :
    (iblk m c 2 t : Vec Ideal S1x1024x64 .f32) (ix3 0 k d)
      = (m ((c : Thread nD τ).loc main_arg2) : FVec Ideal S4x16x2048x64 .f32) (ix4 (batchOf (headOf t)) (chanOf (headOf t)) (kRow t k) d) := by
  show (V m c main_v2 : S64x2048x64.Idx → EReal) (((cfgL.win 2).blk t).view.emb (ix3 0 k d : S1x1024x64.Idx)) = _
  rw [emb2, V_v2, lay_apply]

/-- An element of the result block of a point sits in the launch's result array at (head, query row, feature). -/
theorem out_emb (t : Fin cfgL.N) (r : Fin 1024) (d : Fin 64) :
    (((cfgL.win 3).blk t).view.emb (ix3 0 r d : S1x1024x64.Idx) : S64x2048x64.Idx) = ix3 (headOf t) (qRow t r) d := by
  have e0 : (cfgL.win 3).index t (0 : Fin 3) = t.val / 3 := congrFun (idx3 t) 0
  have e1 : (cfgL.win 3).index t (1 : Fin 3) = if t.val % 3 = 0 then 0 else 1 := congrFun (idx3 t) 1
  have e2 : (cfgL.win 3).index t (2 : Fin 3) = 0 := congrFun (idx3 t) 2
  funext a; apply Fin.ext
  match a with
  | ⟨0, _⟩ =>
    show (cfgL.win 3).index t (0 : Fin 3) * 1 + 1 * (0 : Fin 1).val = t.val / 3
    rw [e0]; simp
  | ⟨1, _⟩ =>
    show (cfgL.win 3).index t (1 : Fin 3) * 1024 + 1 * r.val = (if t.val % 3 = 0 then 0 else 1024) + r.val
    rw [e1]; split <;> omega
  | ⟨2, _⟩ =>
    show (cfgL.win 3).index t (2 : Fin 3) * 64 + 1 * d.val = d.val
    rw [e2]; omega

/-- Every element of the launch's result array lies in the block of a point that writes it back (pair 0 of its
    head for the first 1024 rows, pair 2 for the last). -/
theorem out_cover (i : S64x2048x64.Idx) :
    ∃ t : Fin cfgL.N, (cfgL.win 3).flush t = true ∧ i ∈ ((cfgL.win 3).blk t).view.set := by
  obtain ⟨g, q, d, rfl⟩ : ∃ (g : Fin 64) (q : Fin 2048) (d : Fin 64), i = ix3 g q d := ⟨i 0, i 1, i 2, eq_ix3 i⟩
  by_cases hq : q.val < 1024
  · have ht : 3 * g.val < cfgL.N := by rw [N_L]; omega
    refine ⟨⟨3 * g.val, ht⟩, ?_, ?_⟩
    · rw [flush3]; exact decide_eq_true (by show 3 * g.val % 3 ≠ 1; omega)
    · have hg : headOf ⟨3 * g.val, ht⟩ = g := Fin.ext (by show 3 * g.val / 3 = g.val; omega)
      have hr : qRow ⟨3 * g.val, ht⟩ ⟨q.val, hq⟩ = q :=
        Fin.ext (by show (if 3 * g.val % 3 = 0 then 0 else 1024) + q.val = q.val; rw [if_pos (by omega)]; omega)
      have h := View.emb_mem_set (v := ((cfgL.win 3).blk ⟨3 * g.val, ht⟩).view) (ix3 0 ⟨q.val, hq⟩ d : S1x1024x64.Idx)
      rw [out_emb, hg, hr] at h
      exact h
  · have ht : 3 * g.val + 2 < cfgL.N := by rw [N_L]; omega
    have hq' : q.val - 1024 < 1024 := by omega
    refine ⟨⟨3 * g.val + 2, ht⟩, ?_, ?_⟩
    · rw [flush3]; exact decide_eq_true (by show (3 * g.val + 2) % 3 ≠ 1; omega)
    · have hg : headOf ⟨3 * g.val + 2, ht⟩ = g := Fin.ext (by show (3 * g.val + 2) / 3 = g.val; omega)
      have hr : qRow ⟨3 * g.val + 2, ht⟩ ⟨q.val - 1024, hq'⟩ = q :=
        Fin.ext (by show (if (3 * g.val + 2) % 3 = 0 then 0 else 1024) + (q.val - 1024) = q.val; rw [if_neg (by omega)]; omega)
      have h := View.emb_mem_set (v := ((cfgL.win 3).blk ⟨3 * g.val + 2, ht⟩).view) (ix3 0 ⟨q.val - 1024, hq'⟩ d : S1x1024x64.Idx)
      rw [out_emb, hg, hr] at h
      exact h

/-- The closing re-lay, read at an element. -/
theorem relay_apply (A : FVec Ideal S64x2048x64 .f32) (b : Fin 4) (h : Fin 16) (q : Fin 2048) (d : Fin 64) :
    shapeCast S4x16x2048x64 A shapeCasts_S64x2048x64_S4x16x2048x64 (ix4 b h q d) = A (ix3 ⟨16 * b.val + h.val, by omega⟩ q d) := by
  refine shapeCast_apply A _ _ _ ?_
  rw [Shape.rowMajor_val_three, Shape.rowMajor_val_four]
  show ((16 * b.val + h.val) * 2048 + q.val) * 64 + d.val = (((b.val * 16 + h.val) * 2048 + q.val) * 64 + d.val)
  omega

end Cert.KernelIdeal.Hand

end
-- ==== Proof.TileCalc.lean ====
/-
  The tile-by-tile computation of causal attention gives the textbook value: one masked tile for the first
  1024 query rows; an unmasked tile then a masked tile, the running sums rescaled by exp (old maximum - new
  maximum), for the last 1024.
-/
import proofs.«401446_j86672440033785_3_alg».proof.Proof.Tile

noncomputable section

namespace Cert.Attn

open Idealize.ShloMosaic

namespace TileCalc

/-! ## Coercions of finite sums and maxima -/

theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_max' (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- A tile's scores at real inputs are real. -/
theorem scores_coe (A B : Fin 1024 → Fin 64 → ℝ) (r k : Fin 1024) :
    scores (fun r d => (A r d : EReal)) (fun d k => (B k d : EReal)) r k
      = (((∑ d : Fin 64, A r d * B k d) * (1 / 8) : ℝ) : EReal) := by
  unfold scores
  rw [eighth_eq, Finset.sum_mul, coe_sum]
  refine Finset.sum_congr rfl (fun d _ => ?_)
  rw [← EReal.coe_mul, ← EReal.coe_mul]
  congr 1; ring

/-- The maximum of a row whose entries are reals where `p` holds and the bottom element elsewhere. -/
theorem fold_max_eq {p : Fin 1024 → Prop} [DecidablePred p] (g : Fin 1024 → EReal) (f : Fin 1024 → ℝ)
    (hg : ∀ k, g k = if p k then (f k : EReal) else ⊥) (hp : (Finset.univ.filter p).Nonempty) :
    (Finset.univ : Finset (Fin 1024)).fold max ⊥ g = ((Finset.univ.filter p).sup' hp f : ℝ) := by
  have h : (Finset.univ : Finset (Fin 1024)).fold max ⊥ g = Finset.univ.sup g := rfl
  rw [h]
  apply le_antisymm
  · refine Finset.sup_le (fun k _ => ?_)
    rw [hg k]
    split_ifs with hk
    · exact EReal.coe_le_coe_iff.2 (Finset.le_sup' f (Finset.mem_filter.2 ⟨Finset.mem_univ k, hk⟩))
    · exact bot_le
  · obtain ⟨k, hk, hke⟩ := Finset.exists_mem_eq_sup' hp f
    rw [hke]
    have : (f k : EReal) = g k := by rw [hg k, if_pos (Finset.mem_filter.1 hk).2]
    rw [this]
    exact Finset.le_sup (Finset.mem_univ k)

/-! ## One row of a tile whose entries are reals on a set of keys `t` and the bottom element off it -/

section Row
variable {t : Finset (Fin 1024)} {s : Fin 1024 → Fin 1024 → EReal} {r : Fin 1024} {f : Fin 1024 → ℝ}

theorem fold_max_mem (g : Fin 1024 → EReal) (f : Fin 1024 → ℝ) {t : Finset (Fin 1024)}
    (hg : ∀ k, g k = if k ∈ t then (f k : EReal) else ⊥) (ht : t.Nonempty) :
    (Finset.univ : Finset (Fin 1024)).fold max ⊥ g = ((t.sup' ht f : ℝ) : EReal) := by
  have h : (Finset.univ : Finset (Fin 1024)).fold max ⊥ g = Finset.univ.sup g := rfl
  rw [h]
  apply le_antisymm
  · refine Finset.sup_le (fun k _ => ?_)
    rw [hg k]
    split_ifs with hk
    · exact EReal.coe_le_coe_iff.2 (Finset.le_sup' f hk)
    · exact bot_le
  · obtain ⟨k, hk, hke⟩ := Finset.exists_mem_eq_sup' ht f
    rw [hke]
    have : (f k : EReal) = g k := by rw [hg k, if_pos hk]
    rw [this]
    exact Finset.le_sup (Finset.mem_univ k)

theorem exp_entry (hs : ∀ k, s r k = if k ∈ t then (f k : EReal) else ⊥) (M : ℝ) (k : Fin 1024) :
    Ideal.exp (s r k - (M : EReal)) = ((if k ∈ t then Real.exp (f k - M) else 0 : ℝ) : EReal) := by
  rw [hs k]
  split_ifs with hk
  · rw [← EReal.coe_sub, Ideal.exp_coe]
  · rw [EReal.bot_sub, Ideal.exp_bot, EReal.coe_zero]

theorem sum_exp_eq (hs : ∀ k, s r k = if k ∈ t then (f k : EReal) else ⊥) (M : ℝ) :
    ∑ k : Fin 1024, Ideal.exp (s r k - (M : EReal)) = ((∑ k ∈ t, Real.exp (f k - M) : ℝ) : EReal) := by
  rw [← Finset.univ_inter t, ← Finset.sum_ite_mem, coe_sum]
  exact Finset.sum_congr rfl (fun k _ => exp_entry hs M k)

theorem sum_exp_mul_eq (hs : ∀ k, s r k = if k ∈ t then (f k : EReal) else ⊥) (M : ℝ) (v : Fin 1024 → ℝ) :
    ∑ k : Fin 1024, Ideal.exp (s r k - (M : EReal)) * (v k : EReal)
      = ((∑ k ∈ t, Real.exp (f k - M) * v k : ℝ) : EReal) := by
  rw [← Finset.univ_inter t, ← Finset.sum_ite_mem, coe_sum]
  refine Finset.sum_congr rfl (fun k _ => ?_)
  rw [exp_entry hs M k, ← EReal.coe_mul]
  congr 1
  split_ifs <;> simp

theorem newMax_bot (hs : ∀ k, s r k = if k ∈ t then (f k : EReal) else ⊥) (ht : t.Nonempty) :
    newMax s (fun _ => ⊥) r = ((t.sup' ht f : ℝ) : EReal) := by
  unfold newMax
  rw [fold_max_mem (s r) f hs ht, max_eq_right bot_le]

theorem newMax_coe (hs : ∀ k, s r k = if k ∈ t then (f k : EReal) else ⊥) (ht : t.Nonempty)
    {m : Fin 1024 → EReal} {M1 : ℝ} (hm : m r = (M1 : EReal)) :
    newMax s m r = ((max M1 (t.sup' ht f) : ℝ) : EReal) := by
  unfold newMax
  rw [fold_max_mem (s r) f hs ht, hm, coe_max']

theorem newSum_bot (hs : ∀ k, s r k = if k ∈ t then (f k : EReal) else ⊥) (ht : t.Nonempty) :
    newSum s (fun _ => ⊥) (fun _ => 0) r = ((∑ k ∈ t, Real.exp (f k - t.sup' ht f) : ℝ) : EReal) := by
  unfold newSum
  rw [newMax_bot hs ht, sum_exp_eq hs, mul_zero, zero_add]

theorem newAcc_bot (hs : ∀ k, s r k = if k ∈ t then (f k : EReal) else ⊥) (ht : t.Nonempty)
    (v : Fin 1024 → Fin 64 → ℝ) (d : Fin 64) :
    newAcc s (fun k d => (v k d : EReal)) (fun _ => ⊥) (fun _ _ => 0) r d
      = ((∑ k ∈ t, Real.exp (f k - t.sup' ht f) * v k d : ℝ) : EReal) := by
  unfold newAcc
  rw [newMax_bot hs ht, sum_exp_mul_eq hs _ (fun k => v k d), mul_zero, zero_add]

theorem newSum_coe (hs : ∀ k, s r k = if k ∈ t then (f k : EReal) else ⊥) (ht : t.Nonempty)
    {m l : Fin 1024 → EReal} {M1 L1 : ℝ} (hm : m r = (M1 : EReal)) (hl : l r = (L1 : EReal)) :
    newSum s m l r = ((Real.exp (M1 - max M1 (t.sup' ht f)) * L1
        + ∑ k ∈ t, Real.exp (f k - max M1 (t.sup' ht f)) : ℝ) : EReal) := by
  unfold newSum
  rw [newMax_coe hs ht hm, sum_exp_eq hs, hm, hl, ← EReal.coe_sub, Ideal.exp_coe, ← EReal.coe_mul, ← EReal.coe_add]

theorem newAcc_coe (hs : ∀ k, s r k = if k ∈ t then (f k : EReal) else ⊥) (ht : t.Nonempty)
    (v : Fin 1024 → Fin 64 → ℝ) (d : Fin 64)
    {m : Fin 1024 → EReal} {acc : Fin 1024 → Fin 64 → EReal} {M1 A1 : ℝ}
    (hm : m r = (M1 : EReal)) (ha : acc r d = (A1 : EReal)) :
    newAcc s (fun k d => (v k d : EReal)) m acc r d = ((Real.exp (M1 - max M1 (t.sup' ht f)) * A1
        + ∑ k ∈ t, Real.exp (f k - max M1 (t.sup' ht f)) * v k d : ℝ) : EReal) := by
  unfold newAcc
  rw [newMax_coe hs ht hm, sum_exp_mul_eq hs _ (fun k => v k d), hm, ha, ← EReal.coe_sub, Ideal.exp_coe,
    ← EReal.coe_mul, ← EReal.coe_add]

end Row

theorem quot_coe {l : Fin 1024 → EReal} {acc : Fin 1024 → Fin 64 → EReal} {r : Fin 1024} {d : Fin 64} {a b : ℝ}
    (hl : l r = (b : EReal)) (ha : acc r d = (a : EReal)) (hb : b ≠ 0) :
    quot l acc r d = ((a / b : ℝ) : EReal) := by
  unfold quot
  rw [hl, ha, Ideal.div_coe hb, ← EReal.coe_mul, mul_one_div]

/-! ## The keys a row attends to, tile by tile -/

theorem lo_injective : Function.Injective lo := by
  intro a b h
  have h' : (lo a).val = (lo b).val := congrArg Fin.val h
  exact Fin.ext h'

theorem hi_injective : Function.Injective hi := by
  intro a b h
  have h' : 1024 + a.val = 1024 + b.val := congrArg Fin.val h
  exact Fin.ext (by omega)

/-- The keys of the diagonal tile a row attends to. -/
def upto (r : Fin 1024) : Finset (Fin 1024) := Finset.univ.filter (· ≤ r)
theorem mem_upto {r k : Fin 1024} : k ∈ upto r ↔ k ≤ r := by simp [upto]
theorem upto_nonempty (r : Fin 1024) : (upto r).Nonempty := ⟨r, mem_upto.2 le_rfl⟩

theorem seen_lo (r : Fin 1024) : seen (lo r) = (upto r).image lo := by
  ext k
  simp only [seen, Finset.mem_filter, Finset.mem_univ, true_and, Finset.mem_image, mem_upto]
  constructor
  · intro h
    have hk : k.val ≤ r.val := h
    have hr := r.isLt
    exact ⟨⟨k.val, by omega⟩, hk, Fin.ext rfl⟩
  · rintro ⟨a, ha, rfl⟩
    exact ha

theorem seen_hi (r : Fin 1024) : seen (hi r) = Finset.univ.image lo ∪ (upto r).image hi := by
  ext k
  simp only [seen, Finset.mem_filter, Finset.mem_univ, true_and, Finset.mem_image, Finset.mem_union, mem_upto]
  constructor
  · intro h
    have hk : k.val ≤ 1024 + r.val := h
    have hr := r.isLt
    by_cases hlt : k.val < 1024
    · exact Or.inl ⟨⟨k.val, hlt⟩, Fin.ext rfl⟩
    · refine Or.inr ⟨⟨k.val - 1024, by omega⟩, ?_, Fin.ext ?_⟩
      · show k.val - 1024 ≤ r.val
        omega
      · show 1024 + (k.val - 1024) = k.val
        omega
  · rintro (⟨a, rfl⟩ | ⟨a, ha, rfl⟩)
    · show a.val ≤ 1024 + r.val
      have := a.isLt
      omega
    · show 1024 + a.val ≤ 1024 + r.val
      have ha' : a.val ≤ r.val := ha
      omega

theorem disjoint_lo_hi (r : Fin 1024) : Disjoint (Finset.univ.image lo) ((upto r).image hi) := by
  rw [Finset.disjoint_left]
  intro k h1 h2
  obtain ⟨a, _, rfl⟩ := Finset.mem_image.1 h1
  obtain ⟨b, _, hb⟩ := Finset.mem_image.1 h2
  have h' : 1024 + b.val = a.val := congrArg Fin.val hb
  have := a.isLt
  omega

theorem sum_seen_lo (r : Fin 1024) (F : Fin 2048 → ℝ) :
    ∑ k ∈ seen (lo r), F k = ∑ k ∈ upto r, F (lo k) := by
  rw [seen_lo, Finset.sum_image (fun a _ b _ h => lo_injective h)]

theorem sum_seen_hi (r : Fin 1024) (F : Fin 2048 → ℝ) :
    ∑ k ∈ seen (hi r), F k = ∑ k : Fin 1024, F (lo k) + ∑ k ∈ upto r, F (hi k) := by
  rw [seen_hi, Finset.sum_union (disjoint_lo_hi r), Finset.sum_image (fun a _ b _ h => lo_injective h),
    Finset.sum_image (fun a _ b _ h => hi_injective h)]

theorem top_lo (Q K : Fin 2048 → Fin 64 → ℝ) (r : Fin 1024) :
    top Q K (lo r) = (upto r).sup' (upto_nonempty r) (fun k => score Q K (lo r) (lo k)) := by
  unfold top
  apply le_antisymm
  · refine Finset.sup'_le _ _ (fun k hk => ?_)
    rw [seen_lo] at hk
    obtain ⟨a, ha, rfl⟩ := Finset.mem_image.1 hk
    exact Finset.le_sup' (fun k => score Q K (lo r) (lo k)) ha
  · refine Finset.sup'_le _ _ (fun a ha => ?_)
    exact Finset.le_sup' (score Q K (lo r)) (by rw [seen_lo]; exact Finset.mem_image_of_mem lo ha)

theorem top_hi (Q K : Fin 2048 → Fin 64 → ℝ) (r : Fin 1024) :
    top Q K (hi r) = max (Finset.univ.sup' Finset.univ_nonempty (fun k => score Q K (hi r) (lo k)))
      ((upto r).sup' (upto_nonempty r) (fun k => score Q K (hi r) (hi k))) := by
  unfold top
  apply le_antisymm
  · refine Finset.sup'_le _ _ (fun k hk => ?_)
    rw [seen_hi] at hk
    rcases Finset.mem_union.1 hk with h | h
    · obtain ⟨a, ha, rfl⟩ := Finset.mem_image.1 h
      exact le_max_of_le_left (Finset.le_sup' (fun k => score Q K (hi r) (lo k)) ha)
    · obtain ⟨a, ha, rfl⟩ := Finset.mem_image.1 h
      exact le_max_of_le_right (Finset.le_sup' (fun k => score Q K (hi r) (hi k)) ha)
  · refine max_le (Finset.sup'_le _ _ (fun a ha => ?_)) (Finset.sup'_le _ _ (fun a ha => ?_))
    · exact Finset.le_sup' (score Q K (hi r))
        (by rw [seen_hi]; exact Finset.mem_union_left _ (Finset.mem_image_of_mem lo ha))
    · exact Finset.le_sup' (score Q K (hi r))
        (by rw [seen_hi]; exact Finset.mem_union_right _ (Finset.mem_image_of_mem hi ha))

/-! ## Rescaling a sum of exponentials to a new maximum -/

theorem rescale_mul {ι : Type*} (t : Finset ι) (f w : ι → ℝ) (M1 M : ℝ) :
    Real.exp (M1 - M) * ∑ k ∈ t, Real.exp (f k - M1) * w k = ∑ k ∈ t, Real.exp (f k - M) * w k := by
  rw [Finset.mul_sum]
  refine Finset.sum_congr rfl (fun k _ => ?_)
  rw [← mul_assoc, ← Real.exp_add]
  congr 2
  ring

theorem rescale {ι : Type*} (t : Finset ι) (f : ι → ℝ) (M1 M : ℝ) :
    Real.exp (M1 - M) * ∑ k ∈ t, Real.exp (f k - M1) = ∑ k ∈ t, Real.exp (f k - M) := by
  rw [Finset.mul_sum]
  refine Finset.sum_congr rfl (fun k _ => ?_)
  rw [← Real.exp_add]
  congr 1
  ring

/-! ## The tiles' rows at the inputs of causal attention -/

theorem masked_scores (Q K : Fin 2048 → Fin 64 → ℝ) (qi ki : Fin 1024 → Fin 2048) (r k : Fin 1024) :
    masked (scores (fun r d => (Q (qi r) d : EReal)) (fun d k => (K (ki k) d : EReal))) r k
      = if k ∈ upto r then ((score Q K (qi r) (ki k) : ℝ) : EReal) else ⊥ := by
  unfold masked
  rw [scores_coe (fun r d => Q (qi r) d) (fun k d => K (ki k) d)]
  by_cases h : k ≤ r
  · rw [if_pos h, if_pos (mem_upto.2 h)]
    rfl
  · rw [if_neg h, if_neg (fun h' => h (mem_upto.1 h'))]

theorem plain_scores (Q K : Fin 2048 → Fin 64 → ℝ) (qi ki : Fin 1024 → Fin 2048) (r k : Fin 1024) :
    scores (fun r d => (Q (qi r) d : EReal)) (fun d k => (K (ki k) d : EReal)) r k
      = if k ∈ (Finset.univ : Finset (Fin 1024)) then ((score Q K (qi r) (ki k) : ℝ) : EReal) else ⊥ := by
  rw [if_pos (Finset.mem_univ k), scores_coe (fun r d => Q (qi r) d) (fun k d => K (ki k) d)]
  rfl

end TileCalc

open TileCalc

section Tiles
variable (Q K V : Fin 2048 → Fin 64 → ℝ)

/-- Query tile 0: one masked tile from the reset state gives the attention of rows 0 … 1023. -/
theorem tile0 (r : Fin 1024) (d : Fin 64) :
    quot (newSum (masked (scores (fun r d => (Q (lo r) d : EReal)) (fun d k => (K (lo k) d : EReal)))) (fun _ => ⊥) (fun _ => 0))
      (newAcc (masked (scores (fun r d => (Q (lo r) d : EReal)) (fun d k => (K (lo k) d : EReal)))) (fun k d => (V (lo k) d : EReal)) (fun _ => ⊥) (fun _ _ => 0)) r d
      = ((attn Q K V (lo r) d : ℝ) : EReal) := by
  have hs := masked_scores Q K lo lo r
  have hL := newSum_bot hs (upto_nonempty r)
  have hA := newAcc_bot hs (upto_nonempty r) (fun k d => V (lo k) d) d
  refine (quot_coe hL hA ?_).trans ?_
  · exact (Finset.sum_pos (fun k _ => Real.exp_pos _) (upto_nonempty r)).ne'
  · refine congrArg Real.toEReal ?_
    unfold attn
    rw [sum_seen_lo, sum_seen_lo, top_lo]

/-- Query tile 1: the unmasked tile against keys 0 … 1023 from the reset state, then the masked tile against keys
    1024 … 2047, give the attention of rows 1024 … 2047. -/
theorem tile1 (r : Fin 1024) (d : Fin 64) :
    quot
      (newSum (masked (scores (fun r d => (Q (hi r) d : EReal)) (fun d k => (K (hi k) d : EReal))))
        (newMax (scores (fun r d => (Q (hi r) d : EReal)) (fun d k => (K (lo k) d : EReal))) (fun _ => ⊥))
        (newSum (scores (fun r d => (Q (hi r) d : EReal)) (fun d k => (K (lo k) d : EReal))) (fun _ => ⊥) (fun _ => 0)))
      (newAcc (masked (scores (fun r d => (Q (hi r) d : EReal)) (fun d k => (K (hi k) d : EReal)))) (fun k d => (V (hi k) d : EReal))
        (newMax (scores (fun r d => (Q (hi r) d : EReal)) (fun d k => (K (lo k) d : EReal))) (fun _ => ⊥))
        (newAcc (scores (fun r d => (Q (hi r) d : EReal)) (fun d k => (K (lo k) d : EReal))) (fun k d => (V (lo k) d : EReal)) (fun _ => ⊥) (fun _ _ => 0)))
      r d
      = ((attn Q K V (hi r) d : ℝ) : EReal) := by
  have hs1 := plain_scores Q K hi lo r
  have hs2 := masked_scores Q K hi hi r
  have hM1 := newMax_bot hs1 Finset.univ_nonempty
  have hL1 := newSum_bot hs1 Finset.univ_nonempty
  have hA1 := newAcc_bot hs1 Finset.univ_nonempty (fun k d => V (lo k) d) d
  have hL := newSum_coe hs2 (upto_nonempty r) hM1 hL1
  have hA := newAcc_coe hs2 (upto_nonempty r) (fun k d => V (hi k) d) d hM1 hA1
  refine (quot_coe hL hA ?_).trans ?_
  · exact (add_pos (mul_pos (Real.exp_pos _) (Finset.sum_pos (fun k _ => Real.exp_pos _) Finset.univ_nonempty))
      (Finset.sum_pos (fun k _ => Real.exp_pos _) (upto_nonempty r))).ne'
  · refine congrArg Real.toEReal ?_
    unfold attn
    rw [sum_seen_hi, sum_seen_hi, top_hi, rescale_mul, rescale]

end Tiles

end Cert.Attn

end
-- ==== Proof.Goal.lean ====
/-
  The common value of the two programs: for every batch, head, query row and feature, the causal attention of
  Proof/Tile.lean over that head's rows of the three arguments (read as reals: the inputs are finite).
-/
import proofs.«401446_j86672440033785_3_alg».proof.Proof.Tile
import Idealize.ShloMosaic.Lib.ValueIdx

noncomputable section

namespace Cert.Goal

open Idealize.ShloMosaic Idealize.ShloMosaic.ValueIdx Cert.Attn

abbrev S4x16x2048x64 : Shape := ⟨4, ![4, 16, 2048, 64]⟩

/-- Head (b, h) of an argument, as a real array of 2048 rows of 64 features. -/
def headR (x : S4x16x2048x64.Idx → EReal) (b : Fin 4) (h : Fin 16) : Fin 2048 → Fin 64 → ℝ :=
  fun q d => (x (ix4 b h q d)).toReal

/-- Causal attention of every head, element by element. -/
def G (X0 X1 X2 : S4x16x2048x64.Idx → EReal) : S4x16x2048x64.Idx → EReal := fun i =>
  ((attn (headR X0 (i 0) (i 1)) (headR X1 (i 0) (i 1)) (headR X2 (i 0) (i 1)) (i 2) (i 3) : ℝ) : EReal)

theorem G_apply (X0 X1 X2 : S4x16x2048x64.Idx → EReal) (b : Fin 4) (h : Fin 16) (q : Fin 2048) (d : Fin 64) :
    G X0 X1 X2 (ix4 b h q d) = ((attn (headR X0 b h) (headR X1 b h) (headR X2 b h) q d : ℝ) : EReal) := rfl

/-- A finite element is the coercion of its real part. -/
theorem coe_toReal_of_real {x : EReal} (h : ∃ r : ℝ, x = (r : EReal)) : ((x.toReal : ℝ) : EReal) = x := by
  obtain ⟨r, rfl⟩ := h; rfl

end Cert.Goal

end
-- ==== Proof.Ideal.Traj.lean ====
/-
  The result block a diagonal pair writes back is the causal attention of its head on its 1024 query rows:
  pair 0 computes it from one masked tile; pair 2 continues from the running maximum, sum and weighted sum that
  pair 1 left after the unmasked tile below the diagonal.
-/
import proofs.«401446_j86672440033785_3_alg».proof.Proof.Ideal.Frame
import proofs.«401446_j86672440033785_3_alg».proof.Proof.Ideal.Pieces
import proofs.«401446_j86672440033785_3_alg».proof.Proof.Ideal.PayUpdate
import proofs.«401446_j86672440033785_3_alg».proof.Proof.Ideal.Blocks
import proofs.«401446_j86672440033785_3_alg».proof.Proof.TileCalc
import proofs.«401446_j86672440033785_3_alg».proof.Proof.Goal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Attn Cert.KernelIdeal.Pay

variable (m : (ℓ : Loc nD τ sig) → Buf (Elt Ideal) ℓ)

/-! ## The values a pair stores, as the steps over rows and lanes -/

private theorem colOf_pay1 : colOf (k0_pay1 (F := Ideal)) = fun _ => (⊥ : EReal) := funext fun r => pay1_apply _
private theorem colOf_pay2 : colOf (k0_pay2 (F := Ideal)) = fun _ => (0 : EReal) := funext fun r => pay2_apply _
private theorem qOf_pay3 : qOf (k0_pay3 (F := Ideal)) = fun _ _ => (0 : EReal) := funext fun r => funext fun d => pay3_apply _
private theorem tileOf_pay4 (x0 : Vec Ideal S1x1024x64 .f32) (x1 : Vec Ideal S1x64x1024 .f32) :
    tileOf (k0_pay4 (F := Ideal) x0 x1) = scores (qOf x0) (ktOf x1) :=
  funext fun r => funext fun k => pay4_apply x0 x1 r k

/-- The result block after a diagonal tile with scores `s`, from a running maximum, sum and weighted sum. -/
private theorem diag_step (s : FVec Ideal S1x1024x1024 .f32) (mx l : Vec Ideal S1x1024x1 .f32) (x2 acc : Vec Ideal S1x1024x64 .f32)
    (r : Fin 1024) (d : Fin 64) :
    k0_pay6 (F := Ideal) (k0_pay18 (F := Ideal) s mx x2 acc) (k0_pay17 (F := Ideal) s mx l) (ix3 0 r d)
      = quot (newSum (masked (tileOf s)) (colOf mx) (colOf l)) (newAcc (masked (tileOf s)) (qOf x2) (colOf mx) (qOf acc)) r d := by
  have e17 : colOf (k0_pay17 (F := Ideal) s mx l) = newSum (masked (tileOf s)) (colOf mx) (colOf l) :=
    funext fun r => pay17_apply s mx l r
  have e18 : qOf (k0_pay18 (F := Ideal) s mx x2 acc) = newAcc (masked (tileOf s)) (qOf x2) (colOf mx) (qOf acc) :=
    funext fun r => funext fun d => pay18_apply s mx x2 acc r d
  rw [pay6_apply, e17, e18]

/-- What a tile below the diagonal leaves, from the reset values. -/
private theorem below_max (y0 : Vec Ideal S1x1024x64 .f32) (y1 : Vec Ideal S1x64x1024 .f32) :
    colOf (k0_pay12 (F := Ideal) y0 y1 (k0_pay1 (F := Ideal))) = newMax (scores (qOf y0) (ktOf y1)) (fun _ => ⊥) := by
  have e : colOf (k0_pay7 (F := Ideal) y0 y1 (k0_pay1 (F := Ideal))) = newMax (scores (qOf y0) (ktOf y1)) (colOf (k0_pay1 (F := Ideal))) :=
    funext fun r => pay7_apply y0 y1 _ r
  rw [pay12_eq, e, colOf_pay1]
private theorem below_sum (y0 : Vec Ideal S1x1024x64 .f32) (y1 : Vec Ideal S1x64x1024 .f32) :
    colOf (k0_pay10 (F := Ideal) y0 y1 (k0_pay1 (F := Ideal)) (k0_pay2 (F := Ideal)))
      = newSum (scores (qOf y0) (ktOf y1)) (fun _ => ⊥) (fun _ => 0) := by
  have e : colOf (k0_pay10 (F := Ideal) y0 y1 (k0_pay1 (F := Ideal)) (k0_pay2 (F := Ideal)))
      = newSum (scores (qOf y0) (ktOf y1)) (colOf (k0_pay1 (F := Ideal))) (colOf (k0_pay2 (F := Ideal))) :=
    funext fun r => pay10_apply y0 y1 _ _ r
  rw [e, colOf_pay1, colOf_pay2]
private theorem below_acc (y0 : Vec Ideal S1x1024x64 .f32) (y1 : Vec Ideal S1x64x1024 .f32) (y2 : Vec Ideal S1x1024x64 .f32) :
    qOf (k0_pay11 (F := Ideal) y0 y1 (k0_pay1 (F := Ideal)) y2 (k0_pay3 (F := Ideal)))
      = newAcc (scores (qOf y0) (ktOf y1)) (qOf y2) (fun _ => ⊥) (fun _ _ => 0) := by
  have e : qOf (k0_pay11 (F := Ideal) y0 y1 (k0_pay1 (F := Ideal)) y2 (k0_pay3 (F := Ideal)))
      = newAcc (scores (qOf y0) (ktOf y1)) (qOf y2) (colOf (k0_pay1 (F := Ideal))) (qOf (k0_pay3 (F := Ideal))) :=
    funext fun r => funext fun d => pay11_apply y0 y1 _ y2 _ r d
  rw [e, colOf_pay1, qOf_pay3]

/-- Pair 0: one masked tile from the reset values. -/
private theorem first_step (x0 : Vec Ideal S1x1024x64 .f32) (x1 : Vec Ideal S1x64x1024 .f32) (x2 : Vec Ideal S1x1024x64 .f32)
    (r : Fin 1024) (d : Fin 64) :
    k0_pay6 (F := Ideal) (k0_pay18 (F := Ideal) (k0_pay4 (F := Ideal) x0 x1) (k0_pay1 (F := Ideal)) x2 (k0_pay3 (F := Ideal)))
        (k0_pay17 (F := Ideal) (k0_pay4 (F := Ideal) x0 x1) (k0_pay1 (F := Ideal)) (k0_pay2 (F := Ideal))) (ix3 0 r d)
      = quot (newSum (masked (scores (qOf x0) (ktOf x1))) (fun _ => ⊥) (fun _ => 0))
          (newAcc (masked (scores (qOf x0) (ktOf x1))) (qOf x2) (fun _ => ⊥) (fun _ _ => 0)) r d := by
  rw [diag_step, tileOf_pay4, colOf_pay1, colOf_pay2, qOf_pay3]

/-- Pair 2 after pair 1: the masked tile from what the unmasked tile below the diagonal left. -/
private theorem second_step (x0 : Vec Ideal S1x1024x64 .f32) (x1 : Vec Ideal S1x64x1024 .f32) (x2 : Vec Ideal S1x1024x64 .f32)
    (y0 : Vec Ideal S1x1024x64 .f32) (y1 : Vec Ideal S1x64x1024 .f32) (y2 : Vec Ideal S1x1024x64 .f32)
    (r : Fin 1024) (d : Fin 64) :
    k0_pay6 (F := Ideal)
        (k0_pay18 (F := Ideal) (k0_pay4 (F := Ideal) x0 x1) (k0_pay12 (F := Ideal) y0 y1 (k0_pay1 (F := Ideal))) x2
          (k0_pay11 (F := Ideal) y0 y1 (k0_pay1 (F := Ideal)) y2 (k0_pay3 (F := Ideal))))
        (k0_pay17 (F := Ideal) (k0_pay4 (F := Ideal) x0 x1) (k0_pay12 (F := Ideal) y0 y1 (k0_pay1 (F := Ideal)))
          (k0_pay10 (F := Ideal) y0 y1 (k0_pay1 (F := Ideal)) (k0_pay2 (F := Ideal)))) (ix3 0 r d)
      = quot
          (newSum (masked (scores (qOf x0) (ktOf x1))) (newMax (scores (qOf y0) (ktOf y1)) (fun _ => ⊥))
            (newSum (scores (qOf y0) (ktOf y1)) (fun _ => ⊥) (fun _ => 0)))
          (newAcc (masked (scores (qOf x0) (ktOf x1))) (qOf x2) (newMax (scores (qOf y0) (ktOf y1)) (fun _ => ⊥))
            (newAcc (scores (qOf y0) (ktOf y1)) (qOf y2) (fun _ => ⊥) (fun _ _ => 0))) r d := by
  rw [diag_step, tileOf_pay4, below_max, below_sum, below_acc]

/-! ## The rows of a point's tiles -/

private theorem qRow_first (t : Fin cfgL.N) (h : t.val % 3 = 0) : qRow t = lo :=
  funext fun r => Fin.ext (by show (if t.val % 3 = 0 then 0 else 1024) + r.val = r.val; rw [if_pos h]; omega)
private theorem qRow_second (t : Fin cfgL.N) (h : t.val % 3 ≠ 0) : qRow t = hi :=
  funext fun r => Fin.ext (by show (if t.val % 3 = 0 then 0 else 1024) + r.val = 1024 + r.val; rw [if_neg h])
private theorem kRow_first (t : Fin cfgL.N) (h : t.val % 3 ≠ 2) : kRow t = lo :=
  funext fun k => Fin.ext (by show (if t.val % 3 = 2 then 1024 else 0) + k.val = k.val; rw [if_neg h]; omega)
private theorem kRow_second (t : Fin cfgL.N) (h : t.val % 3 = 2) : kRow t = hi :=
  funext fun k => Fin.ext (by show (if t.val % 3 = 2 then 1024 else 0) + k.val = 1024 + k.val; rw [if_pos h])

/-! ## A point's three blocks, as rows of its head's arguments read as reals -/

private theorem qOf_blk (c : Dev nD) (h0 : (∀ i, ∃ r : ℝ, ((m ((c : Thread nD τ).loc main_arg0) : FVec Ideal S4x16x2048x64 .f32) : S4x16x2048x64.Idx → EReal) i = (r : EReal))) (t : Fin cfgL.N) :
    qOf (iblk m c 0 t) = fun r d =>
      ((Cert.Goal.headR (m ((c : Thread nD τ).loc main_arg0) : FVec Ideal S4x16x2048x64 .f32) (batchOf (headOf t)) (chanOf (headOf t)) (qRow t r) d : ℝ) : EReal) :=
  funext fun r => funext fun d => (q_block m c t r d).trans (Cert.Goal.coe_toReal_of_real (h0 _)).symm
private theorem ktOf_blk (c : Dev nD) (h1 : (∀ i, ∃ r : ℝ, ((m ((c : Thread nD τ).loc main_arg1) : FVec Ideal S4x16x2048x64 .f32) : S4x16x2048x64.Idx → EReal) i = (r : EReal))) (t : Fin cfgL.N) :
    ktOf (iblk m c 1 t) = fun d k =>
      ((Cert.Goal.headR (m ((c : Thread nD τ).loc main_arg1) : FVec Ideal S4x16x2048x64 .f32) (batchOf (headOf t)) (chanOf (headOf t)) (kRow t k) d : ℝ) : EReal) :=
  funext fun d => funext fun k => (kt_block m c t d k).trans (Cert.Goal.coe_toReal_of_real (h1 _)).symm
private theorem vOf_blk (c : Dev nD) (h2 : (∀ i, ∃ r : ℝ, ((m ((c : Thread nD τ).loc main_arg2) : FVec Ideal S4x16x2048x64 .f32) : S4x16x2048x64.Idx → EReal) i = (r : EReal))) (t : Fin cfgL.N) :
    qOf (iblk m c 2 t) = fun k d =>
      ((Cert.Goal.headR (m ((c : Thread nD τ).loc main_arg2) : FVec Ideal S4x16x2048x64 .f32) (batchOf (headOf t)) (chanOf (headOf t)) (kRow t k) d : ℝ) : EReal) :=
  funext fun k => funext fun d => (v_block m c t k d).trans (Cert.Goal.coe_toReal_of_real (h2 _)).symm

/-! ## The result block and the kept buffers, as the stored values over the point's blocks -/

private theorem out_first (c : Dev nD) (t : Fin cfgL.N) (hz : t.val % 3 = 0) :
    (outsAt m c t.val t.isLt).1
      = k0_pay6 (F := Ideal) (k0_pay18 (F := Ideal) (k0_pay4 (F := Ideal) (iblk m c 0 t) (iblk m c 1 t)) (k0_pay1 (F := Ideal)) (iblk m c 2 t) (k0_pay3 (F := Ideal)))
          (k0_pay17 (F := Ideal) (k0_pay4 (F := Ideal) (iblk m c 0 t) (iblk m c 1 t)) (k0_pay1 (F := Ideal)) (k0_pay2 (F := Ideal))) :=
by
  rw [outsAt_A m c t hz]
  dsimp only
  exact outA7_eq _ _ _ _ _ _ _ _ _ _ _ _ _ _ _ _ _ _ _ _ _ _ _ _

private theorem kept_below (c : Dev nD) (t : Fin cfgL.N) (hb : t.val % 3 = 1) :
    (outsAt m c t.val t.isLt).2.1 = k0_pay12 (F := Ideal) (iblk m c 0 t) (iblk m c 1 t) (k0_pay1 (F := Ideal))
    ∧ (outsAt m c t.val t.isLt).2.2.1 = k0_pay10 (F := Ideal) (iblk m c 0 t) (iblk m c 1 t) (k0_pay1 (F := Ideal)) (k0_pay2 (F := Ideal))
    ∧ (outsAt m c t.val t.isLt).2.2.2 = k0_pay11 (F := Ideal) (iblk m c 0 t) (iblk m c 1 t) (k0_pay1 (F := Ideal)) (iblk m c 2 t) (k0_pay3 (F := Ideal)) :=
by
  rw [outsAt_B m c t hb]
  dsimp only
  exact ⟨soutB8_eq _ _ _ _ _ _ _ _ _ _ _ _ _ _ _ _ _ _ _ _ _ _ _ _, soutB9_eq _ _ _ _ _ _ _ _ _ _ _ _ _ _ _ _ _ _ _ _ _ _ _ _, soutB10_eq _ _ _ _ _ _ _ _ _ _ _ _ _ _ _ _ _ _ _ _ _ _ _ _⟩

private theorem out_second (c : Dev nD) (t : Fin cfgL.N) (hc : t.val % 3 = 2) (hp : t.val - 1 < cfgL.N) :
    (outsAt m c t.val t.isLt).1
      = k0_pay6 (F := Ideal)
          (k0_pay18 (F := Ideal) (k0_pay4 (F := Ideal) (iblk m c 0 t) (iblk m c 1 t)) (outsAt m c (t.val - 1) hp).2.1 (iblk m c 2 t)
            (outsAt m c (t.val - 1) hp).2.2.2)
          (k0_pay17 (F := Ideal) (k0_pay4 (F := Ideal) (iblk m c 0 t) (iblk m c 1 t)) (outsAt m c (t.val - 1) hp).2.1
            (outsAt m c (t.val - 1) hp).2.2.1) :=
by
  rw [outsAt_C m c t hc]
  dsimp only
  exact outC7_eq _ _ _ _ _ _ _ _ _ _ _ _ _ _ _ _ _ _ _ _ _ _ _ _ _ _ _

/-- At a point that writes the result back (pair 0 or pair 2 of a head), the result block holds the attention of
    that head at the point's query rows, given that the three arguments are finite. -/
theorem out_block (c : Dev nD)
    (h0 : ∀ i, ∃ r : ℝ, ((m ((c : Thread nD τ).loc main_arg0) : FVec Ideal S4x16x2048x64 .f32) : S4x16x2048x64.Idx → EReal) i = (r : EReal))
    (h1 : ∀ i, ∃ r : ℝ, ((m ((c : Thread nD τ).loc main_arg1) : FVec Ideal S4x16x2048x64 .f32) : S4x16x2048x64.Idx → EReal) i = (r : EReal))
    (h2 : ∀ i, ∃ r : ℝ, ((m ((c : Thread nD τ).loc main_arg2) : FVec Ideal S4x16x2048x64 .f32) : S4x16x2048x64.Idx → EReal) i = (r : EReal))
    (t : Fin cfgL.N) (hf : t.val % 3 ≠ 1) (r : Fin 1024) (d : Fin 64) :
    (outsAt m c t.val t.isLt).1 (ix3 0 r d)
      = ((attn (Cert.Goal.headR (m ((c : Thread nD τ).loc main_arg0) : FVec Ideal S4x16x2048x64 .f32) (batchOf (headOf t)) (chanOf (headOf t)))
               (Cert.Goal.headR (m ((c : Thread nD τ).loc main_arg1) : FVec Ideal S4x16x2048x64 .f32) (batchOf (headOf t)) (chanOf (headOf t)))
               (Cert.Goal.headR (m ((c : Thread nD τ).loc main_arg2) : FVec Ideal S4x16x2048x64 .f32) (batchOf (headOf t)) (chanOf (headOf t))) (qRow t r) d : ℝ) : EReal) := by
  by_cases hz : t.val % 3 = 0
  · refine (congrFun (out_first m c t hz) (ix3 0 r d)).trans ?_
    refine (first_step (iblk m c 0 t) (iblk m c 1 t) (iblk m c 2 t) r d).trans ?_
    rw [qOf_blk m c h0 t, ktOf_blk m c h1 t, vOf_blk m c h2 t, qRow_first t hz, kRow_first t (by omega)]
    exact tile0 _ _ _ r d
  · have hc : t.val % 3 = 2 := by omega
    have hp : t.val - 1 < cfgL.N := Nat.lt_of_le_of_lt (Nat.sub_le _ _) t.isLt
    have hb : (⟨t.val - 1, hp⟩ : Fin cfgL.N).val % 3 = 1 := by show (t.val - 1) % 3 = 1; omega
    obtain ⟨e8, e9, e10⟩ := kept_below m c ⟨t.val - 1, hp⟩ hb
    have hh : headOf ⟨t.val - 1, hp⟩ = headOf t := Fin.ext (by show (t.val - 1) / 3 = t.val / 3; omega)
    refine (congrFun (out_second m c t hc hp) (ix3 0 r d)).trans ?_
    rw [e8, e9, e10]
    refine (second_step (iblk m c 0 t) (iblk m c 1 t) (iblk m c 2 t) (iblk m c 0 ⟨t.val - 1, hp⟩) (iblk m c 1 ⟨t.val - 1, hp⟩)
      (iblk m c 2 ⟨t.val - 1, hp⟩) r d).trans ?_
    rw [qOf_blk m c h0 t, ktOf_blk m c h1 t, vOf_blk m c h2 t, qOf_blk m c h0 ⟨t.val - 1, hp⟩, ktOf_blk m c h1 ⟨t.val - 1, hp⟩,
      vOf_blk m c h2 ⟨t.val - 1, hp⟩, hh, qRow_second t hz, kRow_second t hc, qRow_second ⟨t.val - 1, hp⟩ (by show (t.val - 1) % 3 ≠ 0; omega),
      kRow_first ⟨t.val - 1, hp⟩ (by show (t.val - 1) % 3 ≠ 2; omega)]
    exact tile1 _ _ _ r d

end Cert.KernelIdeal.Hand

end
-- ==== Proof.Ideal.KernelGoal.lean ====
/-
  The launch's result array after every write-back, re-laid as [4, 16, 2048, 64], is the causal attention of every
  head: each element lies in the block of the diagonal pair that covers its row, and that block holds the attention.
-/
import proofs.«401446_j86672440033785_3_alg».proof.Proof.Ideal.Traj

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Attn

variable (m : (ℓ : Loc nD τ sig) → Buf (Elt Ideal) ℓ)

theorem kernel_result (c : Dev nD)
    (h0 : ∀ i, ∃ r : ℝ, ((m ((c : Thread nD τ).loc main_arg0) : FVec Ideal S4x16x2048x64 .f32) : S4x16x2048x64.Idx → EReal) i = (r : EReal))
    (h1 : ∀ i, ∃ r : ℝ, ((m ((c : Thread nD τ).loc main_arg1) : FVec Ideal S4x16x2048x64 .f32) : S4x16x2048x64.Idx → EReal) i = (r : EReal))
    (h2 : ∀ i, ∃ r : ℝ, ((m ((c : Thread nD τ).loc main_arg2) : FVec Ideal S4x16x2048x64 .f32) : S4x16x2048x64.Idx → EReal) i = (r : EReal)) :
    shapeCast S4x16x2048x64 ((dats m 0 c).arrAt 3 cfgL.N : (⟨S64x2048x64, .f32⟩ : BufTy).Contents (Elt Ideal)) shapeCasts_S64x2048x64_S4x16x2048x64
      = Cert.Goal.G (m ((c : Thread nD τ).loc main_arg0) : FVec Ideal S4x16x2048x64 .f32) (m ((c : Thread nD τ).loc main_arg1) : FVec Ideal S4x16x2048x64 .f32) (m ((c : Thread nD τ).loc main_arg2) : FVec Ideal S4x16x2048x64 .f32) := by
  have hb : ∀ (b : Fin 4) (h : Fin 16) (hlt : 16 * b.val + h.val < 64), batchOf ⟨16 * b.val + h.val, hlt⟩ = b :=
    fun b h hlt => Fin.ext (by show (16 * b.val + h.val) / 16 = b.val; omega)
  have hc : ∀ (b : Fin 4) (h : Fin 16) (hlt : 16 * b.val + h.val < 64), chanOf ⟨16 * b.val + h.val, hlt⟩ = h :=
    fun b h hlt => Fin.ext (by show (16 * b.val + h.val) % 16 = h.val; omega)
  funext i
  obtain ⟨b, h, q, d, rfl⟩ : ∃ (b : Fin 4) (h : Fin 16) (q : Fin 2048) (d : Fin 64), i = ix4 b h q d :=
    ⟨i 0, i 1, i 2, i 3, eq_ix4 i⟩
  rw [relay_apply, Cert.Goal.G_apply]
  have key := (dats m 0 c).arrAt_forall_of_cover 3
    (fun (j : S64x2048x64.Idx) (v : EReal) => ∀ (g : Fin 64) (q : Fin 2048) (d : Fin 64), j = ix3 g q d →
      v = ((attn (Cert.Goal.headR (m ((c : Thread nD τ).loc main_arg0) : FVec Ideal S4x16x2048x64 .f32) (batchOf g) (chanOf g))
                 (Cert.Goal.headR (m ((c : Thread nD τ).loc main_arg1) : FVec Ideal S4x16x2048x64 .f32) (batchOf g) (chanOf g))
                 (Cert.Goal.headR (m ((c : Thread nD τ).loc main_arg2) : FVec Ideal S4x16x2048x64 .f32) (batchOf g) (chanOf g)) q d : ℝ) : EReal))
    ?_ out_cover (ix3 ⟨16 * b.val + h.val, by omega⟩ q d) _ q d rfl
  · rw [hb, hc] at key
    exact key
  · intro t hf y g q d hy
    have hne : t.val % 3 ≠ 1 := by rw [flush3] at hf; exact of_decide_eq_true hf
    obtain ⟨r, d', rfl⟩ : ∃ (r : Fin 1024) (d' : Fin 64), y = (ix3 0 r d' : S1x1024x64.Idx) :=
      ⟨y 1, y 2, funext fun a => by
        match a with
        | ⟨0, _⟩ => exact Fin.ext (by have : (y 0).val < 1 := (y 0).isLt; show (y 0).val = 0; omega)
        | ⟨1, _⟩ => rfl
        | ⟨2, _⟩ => rfl⟩
    rw [out_emb] at hy
    have hg : headOf t = g := congrFun hy 0
    have hq : qRow t r = q := congrFun hy 1
    have hd : d' = d := congrFun hy 2
    subst hg hq hd
    show (dats m 0 c).after 3 t (ix3 0 r d') = _
    rw [after3]
    exact out_block m c h0 h1 h2 t hne r d'

end Cert.KernelIdeal.Hand

end
-- ==== Proof.RefRead.lean ====
/-
  The reference program's result, read at an index, is the one masked softmax over all keys of Proof/Tile.lean:
  per (batch, head), the scores are the feature sum of query · key times 1/8, a key beyond the query is replaced by
  the bottom element, the row maximum and the row sum of exponentials normalise, and the weights are applied to the
  value rows.
-/
import proofs.«401446_j86672440033785_3_alg».proof.Proof.Gen.ReferenceIdeal.Read
import proofs.«401446_j86672440033785_3_alg».proof.Proof.Tile
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx Cert.Attn

/-! ## The composed index functions at explicit coordinates -/

theorem lidx0_eq (b : Fin 4) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)
theorem ridx0_eq (b : Fin 4) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)
theorem maskIdx_eq (b : Fin 4) (h : Fin 16) (q k : Fin 2048) :
    idx_main_v5 (idx_main_call1_v1 (ix4 b h q k)) = ix2 q k :=
  funext fun a => Fin.ext (by match a with | ⟨0, _⟩ => rfl | ⟨1, _⟩ => rfl)
theorem rowIdx_eq (b : Fin 4) (h : Fin 16) (q k : Fin 2048) :
    idx_main_v10 (idx_main_v11 (ix4 b h q k)) = ix3 b h q :=
  funext fun a => Fin.ext (by match a with | ⟨0, _⟩ => rfl | ⟨1, _⟩ => rfl | ⟨2, _⟩ => rfl)
theorem rowIdx'_eq (b : Fin 4) (h : Fin 16) (q k : Fin 2048) :
    idx_main_v15 (idx_main_v16 (ix4 b h q k)) = ix3 b h q :=
  funext fun a => Fin.ext (by match a with | ⟨0, _⟩ => rfl | ⟨1, _⟩ => rfl | ⟨2, _⟩ => rfl)
theorem sumIdx_eq (b : Fin 4) (h : Fin 16) (q k : Fin 2048) :
    idx_main_v14 (ix3 b h q) k = ix4 b h q k :=
  funext fun a => Fin.ext (by match a with | ⟨0, _⟩ => rfl | ⟨1, _⟩ => rfl | ⟨2, _⟩ => rfl | ⟨3, _⟩ => rfl)
theorem lidx18_eq (b : Fin 4) (h : Fin 16) (q k : Fin 2048) (d : Fin 64) :
    lidx_main_v18 (ix4 b h q d) k = ix4 b h q k :=
  funext fun a => Fin.ext (by match a with | ⟨0, _⟩ => rfl | ⟨1, _⟩ => rfl | ⟨2, _⟩ => rfl | ⟨3, _⟩ => rfl)
theorem ridx18_eq (b : Fin 4) (h : Fin 16) (q k : Fin 2048) (d : Fin 64) :
    ridx_main_v18 (ix4 b h q d) k = ix4 b h k d :=
  funext fun a => Fin.ext (by match a with | ⟨0, _⟩ => rfl | ⟨1, _⟩ => rfl | ⟨2, _⟩ => rfl | ⟨3, _⟩ => rfl)

/-! ## The constants -/

theorem negInf_eq : Ideal.ofBits .f32 0xFF800000#32 = (⊥ : EReal) := by
  simp [Ideal.ofBits, Ideal.ieee]
theorem zero_eq : Ideal.ofBits .f32 0x00000000#32 = (0 : EReal) := by
  simp [Ideal.ofBits, Ideal.ieee]

section
variable (X0 X1 X2 : (⟨S4x16x2048x64, .f32⟩ : BufTy).Contents (Elt Ideal)) (b : Fin 4) (h : Fin 16)

/-- The scaled score. -/
theorem score_eq (q k : Fin 2048) :
    val_main_v2 (F := Ideal) X0 X1 (ix4 b h q k)
      = refScore (fun q d => X0 (ix4 b h q d)) (fun k d => X1 (ix4 b h k d)) q k := by
  rw [val_main_v2_apply, val_main_v0_apply, val_main_v1_apply, val_main_cst_apply]
  simp only [Ideal.mulf_def, Ideal.ofBits_def, lidx0_eq, ridx0_eq]
  rfl

/-- The mask bit is set exactly when the key lies beyond the query. -/
theorem mask_eq (q k : Fin 2048) :
    val_main_call1_v1 (F := Ideal) (ix4 b h q k) = if k ≤ q then 0#1 else 1#1 := by
  rw [val_main_call1_v1_apply, val_main_v5_apply, maskIdx_eq, val_main_v4_apply, val_main_call0_v4_apply,
    val_main_call0_v2_apply, val_main_call0_v0_apply, val_main_call0_v1_apply, val_main_call0_c_apply,
    val_main_call0_v3_apply, val_main_call0_v5_apply, val_main_call0_c_0_apply, val_main_v3_apply, val_main_c_apply]
  show Scalar.select (IntOp.cmpi .sge (IntOp.addi (BitVec.ofNat 32 q.val) 0#32) (BitVec.ofNat 32 k.val)) 0#1 1#1 = _
  have hq : (BitVec.ofNat 32 q.val).toNat = q.val := by
    rw [BitVec.toNat_ofNat]; exact Nat.mod_eq_of_lt (by have := q.isLt; omega)
  have hk : (BitVec.ofNat 32 k.val).toNat = k.val := by
    rw [BitVec.toNat_ofNat]; exact Nat.mod_eq_of_lt (by have := k.isLt; omega)
  have hadd : IntOp.addi (BitVec.ofNat 32 q.val) 0#32 = BitVec.ofNat 32 q.val := by
    unfold IntOp.addi; exact BitVec.add_zero _
  rw [hadd]
  have hiff := StableHlo.Predicate.sge_iff_toNat (a := BitVec.ofNat 32 q.val) (b := BitVec.ofNat 32 k.val)
    (by rw [hq]; have := q.isLt; omega) (by rw [hk]; have := k.isLt; omega)
  rw [hq, hk] at hiff
  unfold Scalar.select
  by_cases hle : k ≤ q
  · rw [if_pos (show _ = (1 : BitVec 1) from hiff.mpr (Fin.le_def.mp hle)), if_pos hle]
  · rw [if_neg (show ¬ _ = (1 : BitVec 1) from fun hc => hle (Fin.le_def.mpr (hiff.mp hc))), if_neg hle]

/-- The masked score: the score at a key not beyond the query, the bottom element beyond it. -/
theorem masked_eq (q k : Fin 2048) :
    val_main_v6 (F := Ideal) X0 X1 (ix4 b h q k)
      = refMasked (fun q d => X0 (ix4 b h q d)) (fun k d => X1 (ix4 b h k d)) q k := by
  rw [val_main_v6_apply, mask_eq, val_main_call1_v2_apply, val_main_call1_v0_apply, val_main_cst_0_apply, score_eq,
    Ideal.ofBits_def, negInf_eq]
  unfold refMasked Scalar.select
  by_cases hle : k ≤ q
  · simp only [if_pos hle]; rw [if_neg (by decide)]
  · simp only [if_neg hle]; rw [if_pos (show (1#1 : BitVec 1) = 1 from rfl)]

/-- The reduced axis is the last one: the row index with the key inserted. -/
theorem red3 : S4x16x2048x2048.Reduces [3] S4x16x2048 := by decide
theorem lift_eq (q k : Fin 2048) : red3.lift (ix3 b h q) k = ix4 b h q k :=
  funext fun a => Fin.ext (by match a with | ⟨0, _⟩ => rfl | ⟨1, _⟩ => rfl | ⟨2, _⟩ => rfl | ⟨3, _⟩ => rfl)

/-- The row maximum. -/
theorem top_eq (q : Fin 2048) :
    val_main_v9 (F := Ideal) X0 X1 (ix3 b h q)
      = refTop (fun q d => X0 (ix4 b h q d)) (fun k d => X1 (ix4 b h k d)) q := by
  rw [val_main_v9_apply, val_main_v8_apply, val_main_cst_2_apply, Ideal.ofBits_def, negInf_eq, Ideal.maximumf_def]
  unfold val_main_v7 refTop
  rw [Host.reduce_eq_fold_single FloatOps.maximumf _ _ reducesTo_S4x16x2048x2048_S4x16x2048_d3 red3 h_S_,
    val_main_cst_1_apply, Ideal.ofBits_def, negInf_eq]
  have hf : (val_main_v6 (F := Ideal) X0 X1 ∘ red3.lift (ix3 b h q))
      = refMasked (fun q d => X0 (ix4 b h q d)) (fun k d => X1 (ix4 b h k d)) q := funext fun k =>
    (congrArg (val_main_v6 (F := Ideal) X0 X1) (lift_eq b h q k)).trans (masked_eq X0 X1 b h q k)
  rw [hf]
  rfl

/-- The exponential of a masked score less the row maximum. -/
theorem exp_eq (q k : Fin 2048) :
    val_main_v13 (F := Ideal) X0 X1 (ix4 b h q k)
      = Ideal.exp (refMasked (fun q d => X0 (ix4 b h q d)) (fun k d => X1 (ix4 b h k d)) q k
          - refTop (fun q d => X0 (ix4 b h q d)) (fun k d => X1 (ix4 b h k d)) q) := by
  rw [val_main_v13_apply, val_main_v12_apply, val_main_v11_apply, val_main_v10_apply, rowIdx_eq, top_eq, masked_eq,
    Ideal.hostUnary_exp_def, Ideal.subf_def]

/-- The row sum of exponentials. -/
theorem den_eq (q : Fin 2048) :
    val_main_v14 (F := Ideal) X0 X1 (ix3 b h q)
      = refDen (fun q d => X0 (ix4 b h q d)) (fun k d => X1 (ix4 b h k d)) q := by
  rw [val_main_v14_apply, val_main_cst_3_apply, Ideal.ofBits_def, zero_eq]
  unfold refDen
  simp only [sumIdx_eq, exp_eq]

end

theorem val_eq_refOut (X0 X1 X2 : (⟨S4x16x2048x64, .f32⟩ : BufTy).Contents (Elt Ideal)) (b : Fin 4) (h : Fin 16) (q : Fin 2048) (d : Fin 64) :
    val_main_v18 (F := Ideal) X0 X1 X2 (ix4 b h q d)
      = refOut (fun q d => X0 (ix4 b h q d)) (fun k d => X1 (ix4 b h k d)) (fun k d => X2 (ix4 b h k d)) q d := by
  rw [val_main_v18_apply]
  unfold refOut
  refine Finset.sum_congr rfl fun k _ => ?_
  rw [lidx18_eq, ridx18_eq, val_main_v17_apply, val_main_v16_apply, val_main_v15_apply, rowIdx'_eq, den_eq, exp_eq,
    Ideal.hostDivf_def]

end Cert.ReferenceIdeal.RefValue

end
-- ==== Proof.RefSoftmax.lean ====
/-
  The one masked softmax over all 2048 keys gives the textbook value: a masked key contributes exp ⊥ = 0, and
  dividing each weight by the sum before applying it to the value rows is dividing the weighted sum.
-/
import proofs.«401446_j86672440033785_3_alg».proof.Proof.Tile
import Mathlib.Data.Finset.Fold
import Mathlib.Data.Finset.Lattice.Fold
import Mathlib.Data.EReal.Operations
import Mathlib.Algebra.BigOperators.Field
import Mathlib.Algebra.Order.BigOperators.Ring.Finset

noncomputable section

namespace Cert.Attn

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real inputs the reference's score is the real score. -/
theorem refScore_coe (Q K : Fin 2048 → Fin 64 → ℝ) (q k : Fin 2048) :
    refScore (fun q d => (Q q d : EReal)) (fun k d => (K k d : EReal)) q k = ((score Q K q k : ℝ) : EReal) := by
  unfold refScore score
  rw [eighth_eq, EReal.coe_mul, coe_sum]
  simp only [EReal.coe_mul]

/-- The masked score is the real score on the keys a row attends to, and bottom elsewhere. -/
theorem refMasked_coe (Q K : Fin 2048 → Fin 64 → ℝ) (q k : Fin 2048) :
    refMasked (fun q d => (Q q d : EReal)) (fun k d => (K k d : EReal)) q k
      = if k ≤ q then ((score Q K q k : ℝ) : EReal) else ⊥ := by
  unfold refMasked
  rw [refScore_coe]

/-- The reference's row maximum is the largest real score among the attended keys. -/
theorem refTop_coe (Q K : Fin 2048 → Fin 64 → ℝ) (q : Fin 2048) :
    refTop (fun q d => (Q q d : EReal)) (fun k d => (K k d : EReal)) q = ((top Q K q : ℝ) : EReal) := by
  unfold refTop
  rw [max_eq_right bot_le]
  apply le_antisymm
  · rw [Finset.fold_max_le]
    refine ⟨bot_le, fun k _ => ?_⟩
    rw [refMasked_coe]
    split_ifs with h
    · rw [EReal.coe_le_coe_iff]
      exact Finset.le_sup' (score Q K q) (by simp [seen, h])
    · exact bot_le
  · rw [Finset.le_fold_max]
    right
    obtain ⟨k, hk, hk'⟩ := Finset.exists_mem_eq_sup' (seen_nonempty q) (score Q K q)
    refine ⟨k, Finset.mem_univ k, ?_⟩
    have hkq : k ≤ q := by simpa [seen] using hk
    rw [refMasked_coe, if_pos hkq, top, hk']

/-- One weight of the reference: the real exponential on an attended key, zero on a masked one. -/
theorem refExp_coe (Q K : Fin 2048 → Fin 64 → ℝ) (q k : Fin 2048) :
    Ideal.exp (refMasked (fun q d => (Q q d : EReal)) (fun k d => (K k d : EReal)) q k
        - refTop (fun q d => (Q q d : EReal)) (fun k d => (K k d : EReal)) q)
      = if k ≤ q then ((Real.exp (score Q K q k - top Q K q) : ℝ) : EReal) else 0 := by
  rw [refMasked_coe, refTop_coe]
  split_ifs with h
  · rw [← EReal.coe_sub, Ideal.exp_coe]
  · rw [EReal.bot_sub, Ideal.exp_bot]

/-- The sum of the real weights. -/
def den (Q K : Fin 2048 → Fin 64 → ℝ) (q : Fin 2048) : ℝ := ∑ k ∈ seen q, Real.exp (score Q K q k - top Q K q)

theorem den_pos (Q K : Fin 2048 → Fin 64 → ℝ) (q : Fin 2048) : 0 < den Q K q :=
  Finset.sum_pos (fun _ _ => Real.exp_pos _) (seen_nonempty q)

/-- The reference's normaliser is the sum of the real weights. -/
theorem refDen_coe (Q K : Fin 2048 → Fin 64 → ℝ) (q : Fin 2048) :
    refDen (fun q d => (Q q d : EReal)) (fun k d => (K k d : EReal)) q = ((den Q K q : ℝ) : EReal) := by
  unfold refDen den
  rw [zero_add, coe_sum, seen, Finset.sum_filter]
  exact Finset.sum_congr rfl (fun k _ => refExp_coe Q K q k)

/-- One summand of the reference's output. -/
theorem refTerm_coe (Q K V : Fin 2048 → Fin 64 → ℝ) (q k : Fin 2048) (d : Fin 64) :
    Ideal.div (Ideal.exp (refMasked (fun q d => (Q q d : EReal)) (fun k d => (K k d : EReal)) q k
        - refTop (fun q d => (Q q d : EReal)) (fun k d => (K k d : EReal)) q))
        (refDen (fun q d => (Q q d : EReal)) (fun k d => (K k d : EReal)) q) * ((V k d : ℝ) : EReal)
      = if k ≤ q then ((Real.exp (score Q K q k - top Q K q) * (1 / den Q K q) * V k d : ℝ) : EReal) else 0 := by
  rw [refDen_coe, Ideal.div_coe (den_pos Q K q).ne', refExp_coe]
  split_ifs with h
  · rw [EReal.coe_mul, EReal.coe_mul]
  · rw [zero_mul, zero_mul]

theorem ref_attn (Q K V : Fin 2048 → Fin 64 → ℝ) (q : Fin 2048) (d : Fin 64) :
    refOut (fun q d => (Q q d : EReal)) (fun k d => (K k d : EReal)) (fun k d => (V k d : EReal)) q d
      = ((attn Q K V q d : ℝ) : EReal) := by
  unfold refOut
  rw [Finset.sum_congr rfl (fun k _ => refTerm_coe Q K V q k d), ← Finset.sum_filter, ← coe_sum]
  congr 1
  unfold attn
  change _ = _ / den Q K q
  rw [Finset.sum_div]
  refine Finset.sum_congr rfl (fun k _ => ?_)
  rw [mul_one_div, div_mul_eq_mul_div]

end Cert.Attn

end
-- ==== Proof.RefGoal.lean ====
/-
  The reference program's result is the causal attention of every head, given finite arguments: its masked softmax
  over all keys is the textbook value.
-/
import proofs.«401446_j86672440033785_3_alg».proof.Proof.RefRead
import proofs.«401446_j86672440033785_3_alg».proof.Proof.RefSoftmax
import proofs.«401446_j86672440033785_3_alg».proof.Proof.Goal

noncomputable section

namespace Cert.ReferenceIdeal.RefValue

open Cert.ReferenceIdeal Cert.ReferenceIdeal.Gen Cert.ReferenceIdeal.Read
open Idealize.ShloMosaic Idealize.ShloMosaic.ValueIdx Cert.Attn

theorem ref_result (X0 X1 X2 : (⟨S4x16x2048x64, .f32⟩ : BufTy).Contents (Elt Ideal))
    (h0 : ∀ i, ∃ r : ℝ, X0 i = (r : EReal)) (h1 : ∀ i, ∃ r : ℝ, X1 i = (r : EReal)) (h2 : ∀ i, ∃ r : ℝ, X2 i = (r : EReal)) :
    val_main_v18 (F := Ideal) X0 X1 X2 = Cert.Goal.G X0 X1 X2 := by
  funext i
  -- every index is the index of its four coordinates
  obtain ⟨b, h, q, d, rfl⟩ : ∃ (b : Fin 4) (h : Fin 16) (q : Fin 2048) (d : Fin 64), i = ix4 b h q d :=
    ⟨i 0, i 1, i 2, i 3, eq_ix4 i⟩
  -- a finite head is the coercion of its real part
  have e0 : (fun (q : Fin 2048) (d : Fin 64) => X0 (ix4 b h q d))
      = fun q d => ((Cert.Goal.headR X0 b h q d : ℝ) : EReal) :=
    funext fun q => funext fun d => (Cert.Goal.coe_toReal_of_real (h0 _)).symm
  have e1 : (fun (k : Fin 2048) (d : Fin 64) => X1 (ix4 b h k d))
      = fun k d => ((Cert.Goal.headR X1 b h k d : ℝ) : EReal) :=
    funext fun k => funext fun d => (Cert.Goal.coe_toReal_of_real (h1 _)).symm
  have e2 : (fun (k : Fin 2048) (d : Fin 64) => X2 (ix4 b h k d))
      = fun k d => ((Cert.Goal.headR X2 b h k d : ℝ) : EReal) :=
    funext fun k => funext fun d => (Cert.Goal.coe_toReal_of_real (h2 _)).symm
  rw [val_eq_refOut, Cert.Goal.G_apply, e0, e1, e2]
  exact ref_attn _ _ _ q d

end Cert.ReferenceIdeal.RefValue

end
-- ==== Proof.Finite.lean ====
/-
  The finiteness precondition, read back: when the printed predicate (each input's absolute value
  strictly below +∞ at every index, all three conjoined) evaluates to true over the extended reals,
  every element of every input is a real number.
-/
import proofs.«401446_j86672440033785_3_alg».proof.Pre_finite_inputs
import proofs.«401446_j86672440033785_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.Finite

open Idealize.ShloMosaic Cert.Pre_finite_inputs

/-- The rank-zero shape has exactly one index. -/
instance : Subsingleton S_.Idx := ⟨fun a b => funext fun d => d.elim0⟩

/-- The pattern 0x7F800000 denotes +∞. -/
theorem inf_eq : (Ideal.ofBits .f32 0x7F800000#32 : EReal) = ⊤ := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One comparison |x i| < +∞ that came out true makes x i real. -/
theorem real_of_cmp (x : FVec Ideal S4x16x2048x64 .f32) (i : S4x16x2048x64.Idx)
    (h : cmpf .olt (Host.absf x)
        (broadcastInDim S4x16x2048x64 ![] Facts.bcast_S_S4x16x2048x64 (constant S_ .f32 0x7F800000#32)) i = 1#1) :
    ∃ r : ℝ, x i = (r : EReal) := by
  apply real_of_abs_lt_top
  have h' : Ideal.cmp .olt (max (x i) (-(x i))) (Ideal.ofBits .f32 0x7F800000#32) = 1#1 := h
  rw [inf_eq] at h'
  have hb : ∀ b : Bool, BitVec.ofBool b = 1#1 → b = true := by decide
  have h'' := hb _ h'
  simpa [Ideal.cmp] using h''

theorem real_of_pre (x0 x1 x2 : FVec Ideal S4x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_cmp x0 i (Host.reduce_andi_all _ _ _ _ _ h0' i)
  · exact real_of_cmp x1 i (Host.reduce_andi_all _ _ _ _ _ h1 i)
  · exact real_of_cmp x2 i (Host.reduce_andi_all _ _ _ _ _ h2 i)

end Cert.Finite
-- ==== Proof.lean ====
/-
  The certificate: a tiled causal-attention kernel against the plain masked-softmax reference, over finite inputs.

  Both programs compute, for every batch, head, query row and feature, the same real number: the scores of the row
  against the keys up to it (feature sum of query · key, times 1/8), exponentiated after subtracting their maximum,
  normalised by their sum, applied to the value rows. The kernel walks each head's three live tile pairs with a
  running maximum, sum and weighted sum that it rescales by exp (old maximum - new maximum) when the maximum
  grows, its mask and its reset both reading the bottom element (the named constant), whose exponential is 0;
  the reference masks with the same bottom element and normalises once. Each program runs to the end without
  fault and leaves its arguments unchanged; the named constant is the bottom element by the certificate's table.
-/
import proofs.«401446_j86672440033785_3_alg».proof.Defs
import proofs.«401446_j86672440033785_3_alg».proof.Proof.Gen.Kernel
import proofs.«401446_j86672440033785_3_alg».proof.Proof.Gen.KernelIdeal
import proofs.«401446_j86672440033785_3_alg».proof.Proof.Gen.ReferenceIdeal
import proofs.«401446_j86672440033785_3_alg».proof.Proof.Gen.Pre_finite_inputs
import proofs.«401446_j86672440033785_3_alg».proof.Proof.Gen.ReferenceIdeal.Run
import proofs.«401446_j86672440033785_3_alg».proof.Proof.Gen.ReferenceIdeal.Read
import proofs.«401446_j86672440033785_3_alg».proof.Proof.Bits.Run
import proofs.«401446_j86672440033785_3_alg».proof.Proof.Ideal.Run
import proofs.«401446_j86672440033785_3_alg».proof.Proof.Ideal.KernelGoal
import proofs.«401446_j86672440033785_3_alg».proof.Proof.RefGoal
import proofs.«401446_j86672440033785_3_alg».proof.Proof.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The finite stand-in for minus infinity denotes the bottom element, at both places it is used. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end with the causal attention of every head. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Finite.real_of_pre _ _ _ (hpre c)
  refine ⟨fun c => Cert.Goal.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.Hand.run_value m ρ)
    rw [Cert.KernelIdeal.Hand.N_pin]
    exact Cert.KernelIdeal.Hand.kernel_result m c (hfin c).1 (hfin c).2.1 (hfin c).2.2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, (hagree c).1, (hagree c).2.1, (hagree c).2.2]
    exact Cert.ReferenceIdeal.RefValue.ref_result _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
